-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S10000x256 .f32) (main_arg1 : IVec S2x320000 32) (main_arg2 : FVec F S320000 .f32) (main_arg3 : FVec F S256x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S10000x128 : Shape := ⟨2, ![10000, 128]⟩
abbrev S2000x256 : Shape := ⟨2, ![2000, 256]⟩
abbrev S2000x128 : Shape := ⟨2, ![2000, 128]⟩
abbrev S330000x128 : Shape := ⟨2, ![330000, 128]⟩
abbrev S1x128 : Shape := ⟨2, ![1, 128]⟩
abbrev S10000x64 : Shape := ⟨2, ![10000, 64]⟩
abbrev S2000x64 : Shape := ⟨2, ![2000, 64]⟩
abbrev S330000x64 : Shape := ⟨2, ![330000, 64]⟩
abbrev S1x64 : Shape := ⟨2, ![1, 64]⟩
abbrev S10000x10000 : Shape := ⟨2, ![10000, 10000]⟩
abbrev S200x64 : Shape := ⟨2, ![200, 64]⟩
abbrev S200x10000 : Shape := ⟨2, ![200, 10000]⟩

abbrev nBuf : Space → Nat
  | .hbm => 115
  | .vmem => 20
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S10000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S_, .f32⟩
  | .hbm, ⟨17, _⟩ => ⟨S10000, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000, .f32⟩
  | .hbm, ⟨50, _⟩ => ⟨S330000, .f32⟩
  | .hbm, ⟨51, _⟩ => ⟨S10000x128, .f32⟩
  | .hbm, ⟨52, _⟩ => ⟨S330000x1, .f32⟩
  | .hbm, ⟨53, _⟩ => ⟨S_, .i32⟩
  | .hbm, ⟨54, _⟩ => ⟨S330000, .i32⟩
  | .hbm, ⟨55, _⟩ => ⟨S330000, .i1⟩
  | .hbm, ⟨56, _⟩ => ⟨S_, .i32⟩
  | .hbm, ⟨57, _⟩ => ⟨S330000, .i32⟩
  | .hbm, ⟨58, _⟩ => ⟨S330000, .i32⟩
  | .hbm, ⟨59, _⟩ => ⟨S330000, .i32⟩
  | .hbm, ⟨60, _⟩ => ⟨S330000x1, .i32⟩
  | .hbm, ⟨61, _⟩ => ⟨S330000x128, .f32⟩
  | .hbm, ⟨62, _⟩ => ⟨S330000x128, .f32⟩
  | .hbm, ⟨63, _⟩ => ⟨S330000x128, .f32⟩
  | .hbm, ⟨64, _⟩ => ⟨S_, .f32⟩
  | .hbm, ⟨65, _⟩ => ⟨S10000x128, .f32⟩
  | .hbm, ⟨66, _⟩ => ⟨S330000x1, .i32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x64, .f32⟩
  | .hbm, ⟨75, _⟩ => ⟨S330000x1, .f32⟩
  | .hbm, ⟨76, _⟩ => ⟨S_, .i32⟩
  | .hbm, ⟨77, _⟩ => ⟨S330000, .i32⟩
  | .hbm, ⟨78, _⟩ => ⟨S330000, .i1⟩
  | .hbm, ⟨79, _⟩ => ⟨S_, .i32⟩
  | .hbm, ⟨80, _⟩ => ⟨S330000, .i32⟩
  | .hbm, ⟨81, _⟩ => ⟨S330000, .i32⟩
  | .hbm, ⟨82, _⟩ => ⟨S330000, .i32⟩
  | .hbm, ⟨83, _⟩ => ⟨S330000x1, .i32⟩
  | .hbm, ⟨84, _⟩ => ⟨S330000x64, .f32⟩
  | .hbm, ⟨85, _⟩ => ⟨S330000x64, .f32⟩
  | .hbm, ⟨86, _⟩ => ⟨S330000x64, .f32⟩
  | .hbm, ⟨87, _⟩ => ⟨S_, .f32⟩
  | .hbm, ⟨88, _⟩ => ⟨S10000x64, .f32⟩
  | .hbm, ⟨89, _⟩ => ⟨S330000x1, .i32⟩
  | .hbm, ⟨90, _⟩ => ⟨S10000x64, .f32⟩
  | .hbm, ⟨91, _⟩ => ⟨S1x64, .f32⟩
  | .hbm, ⟨92, _⟩ => ⟨S10000x64, .f32⟩
  | .hbm, ⟨93, _⟩ => ⟨S10000x64, .f32⟩
  | .hbm, ⟨94, _⟩ => ⟨S10000x64, .f32⟩
  | .hbm, ⟨95, _⟩ => ⟨S330000x1, .f32⟩
  | .hbm, ⟨96, _⟩ => ⟨S_, .i32⟩
  | .hbm, ⟨97, _⟩ => ⟨S330000, .i32⟩
  | .hbm, ⟨98, _⟩ => ⟨S330000, .i1⟩
  | .hbm, ⟨99, _⟩ => ⟨S_, .i32⟩
  | .hbm, ⟨100, _⟩ => ⟨S330000, .i32⟩
  | .hbm, ⟨101, _⟩ => ⟨S330000, .i32⟩
  | .hbm, ⟨102, _⟩ => ⟨S330000, .i32⟩
  | .hbm, ⟨103, _⟩ => ⟨S330000x1, .i32⟩
  | .hbm, ⟨104, _⟩ => ⟨S330000x64, .f32⟩
  | .hbm, ⟨105, _⟩ => ⟨S330000x64, .f32⟩
  | .hbm, ⟨106, _⟩ => ⟨S330000x64, .f32⟩
  | .hbm, ⟨107, _⟩ => ⟨S_, .f32⟩
  | .hbm, ⟨108, _⟩ => ⟨S10000x64, .f32⟩
  | .hbm, ⟨109, _⟩ => ⟨S330000x1, .i32⟩
  | .hbm, ⟨110, _⟩ => ⟨S10000x64, .f32⟩
  | .hbm, ⟨111, _⟩ => ⟨S1x64, .f32⟩
  | .hbm, ⟨112, _⟩ => ⟨S10000x64, .f32⟩
  | .hbm, ⟨113, _⟩ => ⟨S10000x64, .f32⟩
  | .hbm, ⟨114, _⟩ => ⟨S10000x10000, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S200x64, .f32⟩
  | .local _ .vmem, ⟨16, _⟩ => ⟨S200x64, .f32⟩
  | .local _ .vmem, ⟨17, _⟩ => ⟨S10000x64, .f32⟩
  | .local _ .vmem, ⟨18, _⟩ => ⟨S200x10000, .f32⟩
  | .local _ .vmem, ⟨19, _⟩ => ⟨S200x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S2000x256_S256x128_S2000x128_1_0_0_1_n_n_wf : DotDims.WF S2000x256 S256x128 S2000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S2000x128_S128x64_S2000x64_1_0_0_1_n_n_wf : DotDims.WF S2000x128 S128x64 S2000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S10000x64.size a
  hwx1_2 : ∀ i : grid1.Coords, EltTy.bits .f32 = 32 ∨ (Rect.block (s := S10000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S10000x64.size a
  hwx2_2 : ∀ i : grid2.Coords, EltTy.bits .f32 = 32 ∨ (Rect.block (s := S10000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x64.size a ≤ S10000x64.size a
  hwx3_0 : ∀ i : grid3.Coords, EltTy.bits .f32 = 32 ∨ (Rect.block (s := S10000x64) S200x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x10000.size a ≤ S10000x10000.size a
  hwx3_2 : ∀ i : grid3.Coords, EltTy.bits .f32 = 32 ∨ (Rect.block (s := S10000x10000) S200x10000.size (cc3_transform_2 i) (hinb3_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S200x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S200x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x320000 : Shape := ⟨2, ![1, 320000]⟩
abbrev S330000 : Shape := ⟨1, ![330000]⟩
abbrev S_ : Shape := ⟨0, ![]⟩
abbrev S330000x1 : Shape := ⟨2, ![330000, 1]⟩
abbrev S10000x128 : Shape := ⟨2, ![10000, 128]⟩
abbrev S330000x128 : Shape := ⟨2, ![330000, 128]⟩
abbrev S1x128 : Shape := ⟨2, ![1, 128]⟩
abbrev S10000x64 : Shape := ⟨2, ![10000, 64]⟩
abbrev S330000x64 : Shape := ⟨2, ![330000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 116
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S10000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S_, .f32⟩
  | .hbm, ⟨17, _⟩ => ⟨S10000, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000, .f32⟩
  | .hbm, ⟨50, _⟩ => ⟨S330000, .f32⟩
  | .hbm, ⟨51, _⟩ => ⟨S10000x128, .f32⟩
  | .hbm, ⟨52, _⟩ => ⟨S330000x1, .f32⟩
  | .hbm, ⟨53, _⟩ => ⟨S_, .i32⟩
  | .hbm, ⟨54, _⟩ => ⟨S330000, .i32⟩
  | .hbm, ⟨55, _⟩ => ⟨S330000, .i1⟩
  | .hbm, ⟨56, _⟩ => ⟨S_, .i32⟩
  | .hbm, ⟨57, _⟩ => ⟨S330000, .i32⟩
  | .hbm, ⟨58, _⟩ => ⟨S330000, .i32⟩
  | .hbm, ⟨59, _⟩ => ⟨S330000, .i32⟩
  | .hbm, ⟨60, _⟩ => ⟨S330000x1, .i32⟩
  | .hbm, ⟨61, _⟩ => ⟨S330000x128, .f32⟩
  | .hbm, ⟨62, _⟩ => ⟨S330000x128, .f32⟩
  | .hbm, ⟨63, _⟩ => ⟨S330000x128, .f32⟩
  | .hbm, ⟨64, _⟩ => ⟨S_, .f32⟩
  | .hbm, ⟨65, _⟩ => ⟨S10000x128, .f32⟩
  | .hbm, ⟨66, _⟩ => ⟨S330000x1, .i32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | .hbm, ⟨74, _⟩ => ⟨S10000x64, .f32⟩
  | .hbm, ⟨75, _⟩ => ⟨S330000x1, .f32⟩
  | .hbm, ⟨76, _⟩ => ⟨S_, .i32⟩
  | .hbm, ⟨77, _⟩ => ⟨S330000, .i32⟩
  | .hbm, ⟨78, _⟩ => ⟨S330000, .i1⟩
  | .hbm, ⟨79, _⟩ => ⟨S_, .i32⟩
  | .hbm, ⟨80, _⟩ => ⟨S330000, .i32⟩
  | .hbm, ⟨81, _⟩ => ⟨S330000, .i32⟩
  | .hbm, ⟨82, _⟩ => ⟨S330000, .i32⟩
  | .hbm, ⟨83, _⟩ => ⟨S330000x1, .i32⟩
  | .hbm, ⟨84, _⟩ => ⟨S330000x64, .f32⟩
  | .hbm, ⟨85, _⟩ => ⟨S330000x64, .f32⟩
  | .hbm, ⟨86, _⟩ => ⟨S330000x64, .f32⟩
  | .hbm, ⟨87, _⟩ => ⟨S_, .f32⟩
  | .hbm, ⟨88, _⟩ => ⟨S10000x64, .f32⟩
  | .hbm, ⟨89, _⟩ => ⟨S330000x1, .i32⟩
  | .hbm, ⟨90, _⟩ => ⟨S10000x64, .f32⟩
  | .hbm, ⟨91, _⟩ => ⟨S1x64, .f32⟩
  | .hbm, ⟨92, _⟩ => ⟨S10000x64, .f32⟩
  | .hbm, ⟨93, _⟩ => ⟨S10000x64, .f32⟩
  | .hbm, ⟨94, _⟩ => ⟨S10000x64, .f32⟩
  | .hbm, ⟨95, _⟩ => ⟨S330000x1, .f32⟩
  | .hbm, ⟨96, _⟩ => ⟨S_, .i32⟩
  | .hbm, ⟨97, _⟩ => ⟨S330000, .i32⟩
  | .hbm, ⟨98, _⟩ => ⟨S330000, .i1⟩
  | .hbm, ⟨99, _⟩ => ⟨S_, .i32⟩
  | .hbm, ⟨100, _⟩ => ⟨S330000, .i32⟩
  | .hbm, ⟨101, _⟩ => ⟨S330000, .i32⟩
  | .hbm, ⟨102, _⟩ => ⟨S330000, .i32⟩
  | .hbm, ⟨103, _⟩ => ⟨S330000x1, .i32⟩
  | .hbm, ⟨104, _⟩ => ⟨S330000x64, .f32⟩
  | .hbm, ⟨105, _⟩ => ⟨S330000x64, .f32⟩
  | .hbm, ⟨106, _⟩ => ⟨S330000x64, .f32⟩
  | .hbm, ⟨107, _⟩ => ⟨S_, .f32⟩
  | .hbm, ⟨108, _⟩ => ⟨S10000x64, .f32⟩
  | .hbm, ⟨109, _⟩ => ⟨S330000x1, .i32⟩
  | .hbm, ⟨110, _⟩ => ⟨S10000x64, .f32⟩
  | .hbm, ⟨111, _⟩ => ⟨S1x64, .f32⟩
  | .hbm, ⟨112, _⟩ => ⟨S10000x64, .f32⟩
  | .hbm, ⟨113, _⟩ => ⟨S10000x64, .f32⟩
  | .hbm, ⟨114, _⟩ => ⟨S64x10000, .f32⟩
  | .hbm, ⟨115, _⟩ => ⟨S10000x10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x10000_S10000x10000_1_0_0_1_n_n_wf : DotDims.WF S10000x64 S64x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KRegion0.lean ====
/-
  Region 0 of the program (the first layer's feature transform, rows of x times W1): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.Kernel.Launch
import proofs.«105611_j55456617726630_1_alg».proof.Proof.Gen.Kernel.Skeleton
import proofs.«105611_j55456617726630_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point: the window is fetched whole wherever its block
    index moves, and the body leaves it as it found it. -/
theorem held0_lhs {c : Dev nD} (dat : Dat τ (Elt F) Unit ℕ (Pipeline.UD sig nD τ) ℕ cfg0 c) (hA : dat.A 0 = V c (Pipeline.arrRef spec0 0))
    (hafter : ∀ t, dat.after 0 t = inBlk0 V c 0 t) (t : Fin cfg0.N) (d) : dat.before 0 t d = inBlk0 V c 0 t :=
  (dat.before_in_eq_fetched 0 rfl (fun _ => rfl) (fun _ _ _ => rfl) (fun t => by rw [hafter]; unfold Dat.blockOf inBlk0; rw [hA]; try rfl) t d).trans
    (by unfold Dat.fetched Dat.blockOf inBlk0; rw [hA]; try rfl)

/-- The right operand's staging buffer likewise (its block index never moves: it is fetched once and kept). -/
theorem held0_rhs {c : Dev nD} (dat : Dat τ (Elt F) Unit ℕ (Pipeline.UD sig nD τ) ℕ cfg0 c) (hA : dat.A 1 = V c (Pipeline.arrRef spec0 1))
    (hafter : ∀ t, dat.after 1 t = inBlk0 V c 1 t) (t : Fin cfg0.N) (d) : dat.before 1 t d = inBlk0 V c 1 t :=
  (dat.before_in_eq_fetched 1 rfl (fun _ => rfl) (fun _ _ _ => rfl) (fun t => by rw [hafter]; unfold Dat.blockOf inBlk0; rw [hA]; try rfl) t d).trans
    (by unfold Dat.fetched Dat.blockOf inBlk0; rw [hA]; try rfl)

/-- The rectangles the body reads and writes: each is its buffer's whole extent. -/
abbrev allA0 : Rect S2000x256 := Rect.unit (s := S2000x256) ![0, 0] S2000x256.size inb_S2000x256_S2000x256_0_0
abbrev allB0 : Rect S256x128 := Rect.unit (s := S256x128) ![0, 0] S256x128.size inb_S256x128_S256x128_0_0
abbrev allO0 : Rect S2000x128 := Rect.unit (s := S2000x128) ![0, 0] S2000x128.size inb_S2000x128_S2000x128_0_0

/-- What the body leaves in the output block: its one store, the product of the two staged operands, as the only
    piece. -/
def prod0 (a : Vec F S2000x256 .f32) (b : Vec F S256x128 .f32) : Vec F S2000x128 .f32 :=
  View.canon [⟨allO0, k0_pay1 (View.ld a allA0) (View.ld b allB0)⟩]

/-- That one piece covers the block. -/
theorem prod0_cover (p0 : Vec F S2000x128 .f32) (y : S2000x128.Idx) :
    ∃ pc ∈ ([⟨allO0, p0⟩] : List (View.Piece (Elt F) S2000x128 .f32)), y ∈ pc.1.set :=
  View.cover_of_tiled [⟨allO0, p0⟩] S2000x128.size (by rfl) y

set_option maxHeartbeats 1000000 in
/-- The body on whole staging buffers, the operands' at contents `a`, `b` and the output's at anything: it runs to
    its continuation with the operands' buffers as they were and the output's at `prod0 a b`. -/
theorem body0_triple (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (a : Vec F S2000x256 .f32) (b : Vec F S256x128 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod0 a b)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The pipeline's proof data on core `c`: the arrays as the region finds them; after the body at point `t` each
    operand's buffer still at its block and the output's at the product of the two blocks; the invariant is the
    untouched rest (the scoped buffers no window stages and the generator register); nothing owed; every array at the full share. -/
def data0 (c : Dev nD) : Dat τ (Elt F) Unit ℕ (Pipeline.UD sig nD τ) ℕ cfg0 c where
  A w := V c (Pipeline.arrRef spec0 w)
  after w t := match w with
    | ⟨0, _⟩ => inBlk0 V c 0 t
    | ⟨1, _⟩ => inBlk0 V c 1 t
    | ⟨2, _⟩ => prod0 (inBlk0 V c 0 t) (inBlk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_lhs (c : Dev nD) (t : Fin cfg0.N) : (data0 V c).after 0 t = inBlk0 V c 0 t := by dsimp only [data0]
theorem data0_after_rhs (c : Dev nD) (t : Fin cfg0.N) : (data0 V c).after 1 t = inBlk0 V c 1 t := by dsimp only [data0]
theorem data0_after_out (c : Dev nD) (t : Fin cfg0.N) : (data0 V c).after 2 t = prod0 (inBlk0 V c 0 t) (inBlk0 V c 1 t) := by dsimp only [data0]
theorem data0_before_lhs (c : Dev nD) (t : Fin cfg0.N) (d) : (data0 V c).before 0 t d = inBlk0 V c 0 t :=
  held0_lhs V (data0 V c) (data0_A V c 0) (data0_after_lhs V c) t d
theorem data0_before_rhs (c : Dev nD) (t : Fin cfg0.N) (d) : (data0 V c).before 1 t d = inBlk0 V c 1 t :=
  held0_rhs V (data0 V c) (data0_A V c 1) (data0_after_rhs V c) t d

/-- What the body is handed at point `t`, the windows written out one by one, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the operands' buffers hold their blocks, so the triple applies; the invariant and what the
    core owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [data0_before_lhs, data0_before_rhs]
  rw [show (data0 V c).Φ t.succ = (data0 V c).Φ t.castSucc from rfl,
    show (data0 V c).owesAt () t.succ = (data0 V c).owesAt () t.castSucc from rfl,
    data0_after_lhs, data0_after_rhs, data0_after_out]
  iintro ⟨HΦ, Ho, ⟨%d0, H0⟩, ⟨%d1, H1⟩, ⟨%d2, H2⟩⟩
  iapply (body0_triple c Set.univ _ _ _ _ _ _ _ (inBlk0 V c 0 t) (inBlk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body0_obligation (c : Dev nD) : BodyObligation (data0 (F := F) V c) (defs₀ (F := F)) Variants.none () Set.univ := fun t => by
  rw [bigSep_W0, bigSep_W0]
  exact body0_at V c t

end Cert.Kernel.Hand

end
-- ==== Proof.KRegion1.lean ====
/-
  Region 1 of the program (the mean head's feature transform, rows of the hidden layer times W2): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.Kernel.Launch
import proofs.«105611_j55456617726630_1_alg».proof.Proof.Gen.Kernel.Skeleton
import proofs.«105611_j55456617726630_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point: the window is fetched whole wherever its block
    index moves, and the body leaves it as it found it. -/
theorem held1_lhs {c : Dev nD} (dat : Dat τ (Elt F) Unit ℕ (Pipeline.UD sig nD τ) ℕ cfg1 c) (hA : dat.A 0 = V c (Pipeline.arrRef spec1 0))
    (hafter : ∀ t, dat.after 0 t = inBlk1 V c 0 t) (t : Fin cfg1.N) (d) : dat.before 0 t d = inBlk1 V c 0 t :=
  (dat.before_in_eq_fetched 0 rfl (fun _ => rfl) (fun _ _ _ => rfl) (fun t => by rw [hafter]; unfold Dat.blockOf inBlk1; rw [hA]; try rfl) t d).trans
    (by unfold Dat.fetched Dat.blockOf inBlk1; rw [hA]; try rfl)

/-- The right operand's staging buffer likewise (its block index never moves: it is fetched once and kept). -/
theorem held1_rhs {c : Dev nD} (dat : Dat τ (Elt F) Unit ℕ (Pipeline.UD sig nD τ) ℕ cfg1 c) (hA : dat.A 1 = V c (Pipeline.arrRef spec1 1))
    (hafter : ∀ t, dat.after 1 t = inBlk1 V c 1 t) (t : Fin cfg1.N) (d) : dat.before 1 t d = inBlk1 V c 1 t :=
  (dat.before_in_eq_fetched 1 rfl (fun _ => rfl) (fun _ _ _ => rfl) (fun t => by rw [hafter]; unfold Dat.blockOf inBlk1; rw [hA]; try rfl) t d).trans
    (by unfold Dat.fetched Dat.blockOf inBlk1; rw [hA]; try rfl)

/-- The rectangles the body reads and writes: each is its buffer's whole extent. -/
abbrev allA1 : Rect S2000x128 := Rect.unit (s := S2000x128) ![0, 0] S2000x128.size inb_S2000x128_S2000x128_0_0
abbrev allB1 : Rect S128x64 := Rect.unit (s := S128x64) ![0, 0] S128x64.size inb_S128x64_S128x64_0_0
abbrev allO1 : Rect S2000x64 := Rect.unit (s := S2000x64) ![0, 0] S2000x64.size inb_S2000x64_S2000x64_0_0

/-- What the body leaves in the output block: its one store, the product of the two staged operands, as the only
    piece. -/
def prod1 (a : Vec F S2000x128 .f32) (b : Vec F S128x64 .f32) : Vec F S2000x64 .f32 :=
  View.canon [⟨allO1, k1_pay1 (View.ld a allA1) (View.ld b allB1)⟩]

/-- That one piece covers the block. -/
theorem prod1_cover (p0 : Vec F S2000x64 .f32) (y : S2000x64.Idx) :
    ∃ pc ∈ ([⟨allO1, p0⟩] : List (View.Piece (Elt F) S2000x64 .f32)), y ∈ pc.1.set :=
  View.cover_of_tiled [⟨allO1, p0⟩] S2000x64.size (by rfl) y

set_option maxHeartbeats 1000000 in
/-- The body on whole staging buffers, the operands' at contents `a`, `b` and the output's at anything: it runs to
    its continuation with the operands' buffers as they were and the output's at `prod1 a b`. -/
theorem body1_triple (c : Dev nD) (E : Set ℕ) (i : grid1.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (a : Vec F S2000x128 .f32) (b : Vec F S128x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod1 a b)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_cover _)

/-- The pipeline's proof data on core `c`: the arrays as the region finds them; after the body at point `t` each
    operand's buffer still at its block and the output's at the product of the two blocks; the invariant is the
    untouched rest (the scoped buffers no window stages and the generator register); nothing owed; every array at the full share. -/
def data1 (c : Dev nD) : Dat τ (Elt F) Unit ℕ (Pipeline.UD sig nD τ) ℕ cfg1 c where
  A w := V c (Pipeline.arrRef spec1 w)
  after w t := match w with
    | ⟨0, _⟩ => inBlk1 V c 0 t
    | ⟨1, _⟩ => inBlk1 V c 1 t
    | ⟨2, _⟩ => prod1 (inBlk1 V c 0 t) (inBlk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_lhs (c : Dev nD) (t : Fin cfg1.N) : (data1 V c).after 0 t = inBlk1 V c 0 t := by dsimp only [data1]
theorem data1_after_rhs (c : Dev nD) (t : Fin cfg1.N) : (data1 V c).after 1 t = inBlk1 V c 1 t := by dsimp only [data1]
theorem data1_after_out (c : Dev nD) (t : Fin cfg1.N) : (data1 V c).after 2 t = prod1 (inBlk1 V c 0 t) (inBlk1 V c 1 t) := by dsimp only [data1]
theorem data1_before_lhs (c : Dev nD) (t : Fin cfg1.N) (d) : (data1 V c).before 0 t d = inBlk1 V c 0 t :=
  held1_lhs V (data1 V c) (data1_A V c 0) (data1_after_lhs V c) t d
theorem data1_before_rhs (c : Dev nD) (t : Fin cfg1.N) (d) : (data1 V c).before 1 t d = inBlk1 V c 1 t :=
  held1_rhs V (data1 V c) (data1_A V c 1) (data1_after_rhs V c) t d

/-- What the body is handed at point `t`, the windows written out one by one, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what it hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the operands' buffers hold their blocks, so the triple applies; the invariant and what the
    core owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [data1_before_lhs, data1_before_rhs]
  rw [show (data1 V c).Φ t.succ = (data1 V c).Φ t.castSucc from rfl,
    show (data1 V c).owesAt () t.succ = (data1 V c).owesAt () t.castSucc from rfl,
    data1_after_lhs, data1_after_rhs, data1_after_out]
  iintro ⟨HΦ, Ho, ⟨%d0, H0⟩, ⟨%d1, H1⟩, ⟨%d2, H2⟩⟩
  iapply (body1_triple c Set.univ _ _ _ _ _ _ _ (inBlk1 V c 0 t) (inBlk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body1_obligation (c : Dev nD) : BodyObligation (data1 (F := F) V c) (defs₀ (F := F)) Variants.none () Set.univ := fun t => by
  rw [bigSep_W1, bigSep_W1]
  exact body1_at V c t

end Cert.Kernel.Hand

end
-- ==== Proof.KRegion2.lean ====
/-
  Region 2 of the program (the log-variance head's feature transform, rows of the hidden layer times W3): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.Kernel.Launch
import proofs.«105611_j55456617726630_1_alg».proof.Proof.Gen.Kernel.Skeleton
import proofs.«105611_j55456617726630_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point: the window is fetched whole wherever its block
    index moves, and the body leaves it as it found it. -/
theorem held2_lhs {c : Dev nD} (dat : Dat τ (Elt F) Unit ℕ (Pipeline.UD sig nD τ) ℕ cfg2 c) (hA : dat.A 0 = V c (Pipeline.arrRef spec2 0))
    (hafter : ∀ t, dat.after 0 t = inBlk2 V c 0 t) (t : Fin cfg2.N) (d) : dat.before 0 t d = inBlk2 V c 0 t :=
  (dat.before_in_eq_fetched 0 rfl (fun _ => rfl) (fun _ _ _ => rfl) (fun t => by rw [hafter]; unfold Dat.blockOf inBlk2; rw [hA]; try rfl) t d).trans
    (by unfold Dat.fetched Dat.blockOf inBlk2; rw [hA]; try rfl)

/-- The right operand's staging buffer likewise (its block index never moves: it is fetched once and kept). -/
theorem held2_rhs {c : Dev nD} (dat : Dat τ (Elt F) Unit ℕ (Pipeline.UD sig nD τ) ℕ cfg2 c) (hA : dat.A 1 = V c (Pipeline.arrRef spec2 1))
    (hafter : ∀ t, dat.after 1 t = inBlk2 V c 1 t) (t : Fin cfg2.N) (d) : dat.before 1 t d = inBlk2 V c 1 t :=
  (dat.before_in_eq_fetched 1 rfl (fun _ => rfl) (fun _ _ _ => rfl) (fun t => by rw [hafter]; unfold Dat.blockOf inBlk2; rw [hA]; try rfl) t d).trans
    (by unfold Dat.fetched Dat.blockOf inBlk2; rw [hA]; try rfl)

/-- The rectangles the body reads and writes: each is its buffer's whole extent. -/
abbrev allA2 : Rect S2000x128 := Rect.unit (s := S2000x128) ![0, 0] S2000x128.size inb_S2000x128_S2000x128_0_0
abbrev allB2 : Rect S128x64 := Rect.unit (s := S128x64) ![0, 0] S128x64.size inb_S128x64_S128x64_0_0
abbrev allO2 : Rect S2000x64 := Rect.unit (s := S2000x64) ![0, 0] S2000x64.size inb_S2000x64_S2000x64_0_0

/-- What the body leaves in the output block: its one store, the product of the two staged operands, as the only
    piece. -/
def prod2 (a : Vec F S2000x128 .f32) (b : Vec F S128x64 .f32) : Vec F S2000x64 .f32 :=
  View.canon [⟨allO2, k2_pay1 (View.ld a allA2) (View.ld b allB2)⟩]

/-- That one piece covers the block. -/
theorem prod2_cover (p0 : Vec F S2000x64 .f32) (y : S2000x64.Idx) :
    ∃ pc ∈ ([⟨allO2, p0⟩] : List (View.Piece (Elt F) S2000x64 .f32)), y ∈ pc.1.set :=
  View.cover_of_tiled [⟨allO2, p0⟩] S2000x64.size (by rfl) y

set_option maxHeartbeats 1000000 in
/-- The body on whole staging buffers, the operands' at contents `a`, `b` and the output's at anything: it runs to
    its continuation with the operands' buffers as they were and the output's at `prod2 a b`. -/
theorem body2_triple (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (a : Vec F S2000x128 .f32) (b : Vec F S128x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod2 a b)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod2_cover _)

/-- The pipeline's proof data on core `c`: the arrays as the region finds them; after the body at point `t` each
    operand's buffer still at its block and the output's at the product of the two blocks; the invariant is the
    untouched rest (the scoped buffers no window stages and the generator register); nothing owed; every array at the full share. -/
def data2 (c : Dev nD) : Dat τ (Elt F) Unit ℕ (Pipeline.UD sig nD τ) ℕ cfg2 c where
  A w := V c (Pipeline.arrRef spec2 w)
  after w t := match w with
    | ⟨0, _⟩ => inBlk2 V c 0 t
    | ⟨1, _⟩ => inBlk2 V c 1 t
    | ⟨2, _⟩ => prod2 (inBlk2 V c 0 t) (inBlk2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_lhs (c : Dev nD) (t : Fin cfg2.N) : (data2 V c).after 0 t = inBlk2 V c 0 t := by dsimp only [data2]
theorem data2_after_rhs (c : Dev nD) (t : Fin cfg2.N) : (data2 V c).after 1 t = inBlk2 V c 1 t := by dsimp only [data2]
theorem data2_after_out (c : Dev nD) (t : Fin cfg2.N) : (data2 V c).after 2 t = prod2 (inBlk2 V c 0 t) (inBlk2 V c 1 t) := by dsimp only [data2]
theorem data2_before_lhs (c : Dev nD) (t : Fin cfg2.N) (d) : (data2 V c).before 0 t d = inBlk2 V c 0 t :=
  held2_lhs V (data2 V c) (data2_A V c 0) (data2_after_lhs V c) t d
theorem data2_before_rhs (c : Dev nD) (t : Fin cfg2.N) (d) : (data2 V c).before 1 t d = inBlk2 V c 1 t :=
  held2_rhs V (data2 V c) (data2_A V c 1) (data2_after_rhs V c) t d

/-- What the body is handed at point `t`, the windows written out one by one, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

/-- The body at any point: the operands' buffers hold their blocks, so the triple applies; the invariant and what the
    core owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [data2_before_lhs, data2_before_rhs]
  rw [show (data2 V c).Φ t.succ = (data2 V c).Φ t.castSucc from rfl,
    show (data2 V c).owesAt () t.succ = (data2 V c).owesAt () t.castSucc from rfl,
    data2_after_lhs, data2_after_rhs, data2_after_out]
  iintro ⟨HΦ, Ho, ⟨%d0, H0⟩, ⟨%d1, H1⟩, ⟨%d2, H2⟩⟩
  iapply (body2_triple c Set.univ _ _ _ _ _ _ _ (inBlk2 V c 0 t) (inBlk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body2_obligation (c : Dev nD) : BodyObligation (data2 (F := F) V c) (defs₀ (F := F)) Variants.none () Set.univ := fun t => by
  rw [bigSep_W2, bigSep_W2]
  exact body2_at V c t

end Cert.Kernel.Hand

end
-- ==== Proof.KRegion3.lean ====
/- | ⟨0, _⟩ => fullShare.left
    | ⟨1, _⟩ => fullShare.right
    | ⟨2, _⟩ => fullShare' 'cfg0 ==> cfg3' 'spec0 ==> spec3' 'grid0 ==> grid3' 'cc0_kernel ==> cc3_kernel' 'k0_pay1 ==> k3_pay1' 'st0_ ==> st3_' 'bodyAt0 ==> bodyAt3' 'bigSep_W0 ==> bigSep_W3' 'inBlk0 ==> inBlk3' 'held0_ ==> held3_' 'allA0 ==> allA3' 'allB0 ==> allB3' 'allO0 ==> allO3' 'prod0 ==> prod3' 'body0_ ==> body3_' 'data0 ==> data3' 'handed0 ==> handed3' 'returned0 ==> returned3' 'KernelIdeal ==> Kernel' -/
/-
  Region 3 of the program (the inner-product decode, a row block of the latent array against the whole latent array, both windows on ONE array): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.Kernel.Launch
import proofs.«105611_j55456617726630_1_alg».proof.Proof.Gen.Kernel.Skeleton
import proofs.«105611_j55456617726630_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point: the window is fetched whole wherever its block
    index moves, and the body leaves it as it found it. -/
theorem held3_lhs {c : Dev nD} (dat : Dat τ (Elt F) Unit ℕ (Pipeline.UD sig nD τ) ℕ cfg3 c) (hA : dat.A 0 = V c (Pipeline.arrRef spec3 0))
    (hafter : ∀ t, dat.after 0 t = inBlk3 V c 0 t) (t : Fin cfg3.N) (d) : dat.before 0 t d = inBlk3 V c 0 t :=
  (dat.before_in_eq_fetched 0 rfl (fun _ => rfl) (fun _ _ _ => rfl) (fun t => by rw [hafter]; unfold Dat.blockOf inBlk3; rw [hA]; try rfl) t d).trans
    (by unfold Dat.fetched Dat.blockOf inBlk3; rw [hA]; try rfl)

/-- The right operand's staging buffer likewise (its block index never moves: it is fetched once and kept). -/
theorem held3_rhs {c : Dev nD} (dat : Dat τ (Elt F) Unit ℕ (Pipeline.UD sig nD τ) ℕ cfg3 c) (hA : dat.A 1 = V c (Pipeline.arrRef spec3 1))
    (hafter : ∀ t, dat.after 1 t = inBlk3 V c 1 t) (t : Fin cfg3.N) (d) : dat.before 1 t d = inBlk3 V c 1 t :=
  (dat.before_in_eq_fetched 1 rfl (fun _ => rfl) (fun _ _ _ => rfl) (fun t => by rw [hafter]; unfold Dat.blockOf inBlk3; rw [hA]; try rfl) t d).trans
    (by unfold Dat.fetched Dat.blockOf inBlk3; rw [hA]; try rfl)

/-- The rectangles the body reads and writes: each is its buffer's whole extent. -/
abbrev allA3 : Rect S200x64 := Rect.unit (s := S200x64) ![0, 0] S200x64.size inb_S200x64_S200x64_0_0
abbrev allB3 : Rect S10000x64 := Rect.unit (s := S10000x64) ![0, 0] S10000x64.size inb_S10000x64_S10000x64_0_0
abbrev allO3 : Rect S200x10000 := Rect.unit (s := S200x10000) ![0, 0] S200x10000.size inb_S200x10000_S200x10000_0_0

/-- What the body leaves in the output block: its one store, the product of the two staged operands, as the only
    piece. -/
def prod3 (a : Vec F S200x64 .f32) (b : Vec F S10000x64 .f32) : Vec F S200x10000 .f32 :=
  View.canon [⟨allO3, k3_pay1 (View.ld a allA3) (View.ld b allB3)⟩]

/-- That one piece covers the block. -/
theorem prod3_cover (p0 : Vec F S200x10000 .f32) (y : S200x10000.Idx) :
    ∃ pc ∈ ([⟨allO3, p0⟩] : List (View.Piece (Elt F) S200x10000 .f32)), y ∈ pc.1.set :=
  View.cover_of_tiled [⟨allO3, p0⟩] S200x10000.size (by rfl) y

set_option maxHeartbeats 1000000 in
/-- The body on whole staging buffers, the operands' at contents `a`, `b` and the output's at anything: it runs to
    its continuation with the operands' buffers as they were and the output's at `prod3 a b`. -/
theorem body3_triple (c : Dev nD) (E : Set ℕ) (i : grid3.Coords) (arg1 : Memref sig .tc .vmem S200x64 .f32) (harg1 : arg1.IsWhole) (arg2 : Memref sig .tc .vmem S10000x64 .f32) (harg2 : arg2.IsWhole) (arg3 : Memref sig .tc .vmem S200x10000 .f32) (harg3 : arg3.IsWhole)
    (a : Vec F S200x64 .f32) (b : Vec F S10000x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod3 a b)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod3_cover _)

/-- The pipeline's proof data on core `c`: the arrays as the region finds them; after the body at point `t` each
    operand's buffer still at its block and the output's at the product of the two blocks; the invariant is the
    untouched rest (the scoped buffers no window stages and the generator register); nothing owed; the two operand windows sit on one array and hold its left and right half shares, the output its array whole. -/
def data3 (c : Dev nD) : Dat τ (Elt F) Unit ℕ (Pipeline.UD sig nD τ) ℕ cfg3 c where
  A w := V c (Pipeline.arrRef spec3 w)
  after w t := match w with
    | ⟨0, _⟩ => inBlk3 V c 0 t
    | ⟨1, _⟩ => inBlk3 V c 1 t
    | ⟨2, _⟩ => prod3 (inBlk3 V c 0 t) (inBlk3 V c 1 t)
  Φ _ := Pipeline.ΦA spec3 c
  q w := match w with
    | ⟨0, _⟩ => fullShare.left
    | ⟨1, _⟩ => fullShare.right
    | ⟨2, _⟩ => fullShare
  owed _ := 0

theorem data3_A (c : Dev nD) (w : Fin cfg3.W) : (data3 V c).A w = V c (Pipeline.arrRef spec3 w) := by
  dsimp only [data3]
theorem data3_after_lhs (c : Dev nD) (t : Fin cfg3.N) : (data3 V c).after 0 t = inBlk3 V c 0 t := by dsimp only [data3]
theorem data3_after_rhs (c : Dev nD) (t : Fin cfg3.N) : (data3 V c).after 1 t = inBlk3 V c 1 t := by dsimp only [data3]
theorem data3_after_out (c : Dev nD) (t : Fin cfg3.N) : (data3 V c).after 2 t = prod3 (inBlk3 V c 0 t) (inBlk3 V c 1 t) := by dsimp only [data3]
theorem data3_before_lhs (c : Dev nD) (t : Fin cfg3.N) (d) : (data3 V c).before 0 t d = inBlk3 V c 0 t :=
  held3_lhs V (data3 V c) (data3_A V c 0) (data3_after_lhs V c) t d
theorem data3_before_rhs (c : Dev nD) (t : Fin cfg3.N) (d) : (data3 V c).before 1 t d = inBlk3 V c 1 t :=
  held3_rhs V (data3 V c) (data3_A V c 1) (data3_after_rhs V c) t d

/-- What the body is handed at point `t`, the windows written out one by one, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the operands' buffers hold their blocks, so the triple applies; the invariant and what the
    core owes pass through untouched. -/
theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [data3_before_lhs, data3_before_rhs]
  rw [show (data3 V c).Φ t.succ = (data3 V c).Φ t.castSucc from rfl,
    show (data3 V c).owesAt () t.succ = (data3 V c).owesAt () t.castSucc from rfl,
    data3_after_lhs, data3_after_rhs, data3_after_out]
  iintro ⟨HΦ, Ho, ⟨%d0, H0⟩, ⟨%d1, H1⟩, ⟨%d2, H2⟩⟩
  iapply (body3_triple c Set.univ _ _ _ _ _ _ _ (inBlk3 V c 0 t) (inBlk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body3_obligation (c : Dev nD) : BodyObligation (data3 (F := F) V c) (defs₀ (F := F)) Variants.none () Set.univ := fun t => by
  rw [bigSep_W3, bigSep_W3]
  exact body3_at V c t

end Cert.Kernel.Hand

end
-- ==== Proof.KChain.lean ====
/-
  The contents of a core's buffers at every boundary between the items of the program, fixed once: the launch contents
  through the first three host stretches; then, region by region, the array the region writes replaced by what the
  pipeline leaves there (its output block at every grid point, written back in point order) and the next host
  stretches applied.  Each region's proof data is taken at the contents it is entered from.  The family `left` lists
  what the regions leave, in the form the generated conditional frame's valuations are written over, and
  `leftK_eq` identify those valuations with the ones fixed here.
-/
import proofs.«105611_j55456617726630_1_alg».proof.Proof.KRegion0
import proofs.«105611_j55456617726630_1_alg».proof.Proof.KRegion1
import proofs.«105611_j55456617726630_1_alg».proof.Proof.KRegion2
import proofs.«105611_j55456617726630_1_alg».proof.Proof.KRegion3
import proofs.«105611_j55456617726630_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

/-- A core's buffer contents read at the TensorCore's references: the form the regions' proof data take. -/
abbrev atRefs (W : Dev nD → Valuation τ sig (Elt F)) : (c : Dev nD) → (b : Ref sig .tc) → Buf (Elt F) ((c : Thread nD τ).loc b) :=
  fun c b => W c b

/-- Entering region 0: the launch contents after the first three host stretches. -/
def into0 : Dev nD → Valuation τ sig (Elt F) := fun c => Gen.V3 m c
/-- What region 0 leaves in the array it writes. -/
def out0 (c : Dev nD) : Buf (Elt F) ((c : Thread nD τ).loc main_v32) := (data0 (atRefs (into0 m)) c).arrAt 2 cfg0.N
/-- Leaving region 0. -/
def from0 : Dev nD → Valuation τ sig (Elt F) := fun c => Function.update (into0 m c) main_v32 (out0 m c)

/-- Entering region 1: two more host stretches. -/
def into1 : Dev nD → Valuation τ sig (Elt F) := fun c => StableHlo.after hostOps1_1 (StableHlo.after hostOps1 (from0 m c))
def out1 (c : Dev nD) : Buf (Elt F) ((c : Thread nD τ).loc main_v50) := (data1 (atRefs (into1 m)) c).arrAt 2 cfg1.N
def from1 : Dev nD → Valuation τ sig (Elt F) := fun c => Function.update (into1 m c) main_v50 (out1 m c)

/-- Entering region 2: one more host stretch. -/
def into2 : Dev nD → Valuation τ sig (Elt F) := fun c => StableHlo.after hostOps2 (from1 m c)
def out2 (c : Dev nD) : Buf (Elt F) ((c : Thread nD τ).loc main_v67) := (data2 (atRefs (into2 m)) c).arrAt 2 cfg2.N
def from2 : Dev nD → Valuation τ sig (Elt F) := fun c => Function.update (into2 m c) main_v67 (out2 m c)

/-- Entering region 3: the last host stretch. -/
def into3 : Dev nD → Valuation τ sig (Elt F) := fun c => StableHlo.after hostOps3 (from2 m c)
def out3 (c : Dev nD) : Buf (Elt F) ((c : Thread nD τ).loc main_v84) := (data3 (atRefs (into3 m)) c).arrAt 2 cfg3.N
/-- Leaving region 3: the contents at the return. -/
def from3 : Dev nD → Valuation τ sig (Elt F) := fun c => Function.update (into3 m c) main_v84 (out3 m c)

/-- What the regions leave, as the generated conditional frame reads it: after item J − 1 the contents fixed above. -/
def left : Gen.Outs (F := F) := fun n r c =>
  match n with
  | 4 => from0 m c r
  | 7 => from1 m c r
  | 9 => from2 m c r
  | 11 => from3 m c r
  | _ => into0 m c r

theorem left4_eq (c : Dev nD) : Gen.V4 m (left m) c = from0 m c := by
  show Function.update (Gen.V3 m c) _ (from0 m c _) = from0 m c
  unfold from0 into0; rw [Function.update_self]
theorem left6_eq (c : Dev nD) : Gen.V6 m (left m) c = into1 m c := by
  show StableHlo.after hostOps1_1 (StableHlo.after hostOps1 (Gen.V4 m (left m) c)) = _
  rw [left4_eq]; rfl
theorem left7_eq (c : Dev nD) : Gen.V7 m (left m) c = from1 m c := by
  show Function.update (Gen.V6 m (left m) c) _ (from1 m c _) = from1 m c
  rw [left6_eq]; unfold from1; rw [Function.update_self]
theorem left8_eq (c : Dev nD) : Gen.V8 m (left m) c = into2 m c := by
  show StableHlo.after hostOps2 (Gen.V7 m (left m) c) = _
  rw [left7_eq]; rfl
theorem left9_eq (c : Dev nD) : Gen.V9 m (left m) c = from2 m c := by
  show Function.update (Gen.V8 m (left m) c) _ (from2 m c _) = from2 m c
  rw [left8_eq]; unfold from2; rw [Function.update_self]
theorem left10_eq (c : Dev nD) : Gen.V10 m (left m) c = into3 m c := by
  show StableHlo.after hostOps3 (Gen.V9 m (left m) c) = _
  rw [left9_eq]; rfl
theorem left11_eq (c : Dev nD) : Gen.V11 m (left m) c = from3 m c := by
  show Function.update (Gen.V10 m (left m) c) _ (from3 m c _) = from3 m c
  rw [left10_eq]; unfold from3; rw [Function.update_self]

/-- Every pipeline's proof data, each at the contents its region is entered from. -/
def family : (p : Fin 4) → (c : Dev nD) → Dat τ (Elt F) Unit ℕ (Pipeline.UD sig nD τ) ℕ (cfgs p) c
  | ⟨0, _⟩ => fun c => data0 (atRefs (into0 m)) c
  | ⟨1, _⟩ => fun c => data1 (atRefs (into1 m)) c
  | ⟨2, _⟩ => fun c => data2 (atRefs (into2 m)) c
  | ⟨3, _⟩ => fun c => data3 (atRefs (into3 m)) c

/-- No core owes another anything, so no level is assigned. -/
abbrev noPairs : GSem nD τ sig → Finset Unit := fun _ => ∅
abbrev noLevel : GSem nD τ sig → Unit → ℕ := fun _ _ => 0

/-- What a core holds between items besides its unscoped buffers: its unscoped semaphores at zero, its generator
    register at some state, and that it owes nothing. -/
abbrev beside (c : Dev nD) : sProp 𝕄 :=
  iprop(unscopedSems0 c ∗ (∃ r, prngReg c r) ∗ ∃ W, owes (c : Thread nD τ) (0 : CellTallies nD τ sig Unit) W)

end Cert.Kernel.Hand

end
-- ==== Proof.KSeg0.lean ====
/-
  Region 0 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KChain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from0_of_ne (c : Dev nD) (b : Ref sig .tc) (hb : b ≠ main_v32) : from0 m c b = into0 m c b := by
  unfold from0; exact Function.update_of_ne (StableHlo.devRef_ne_of_ne hb) ..
theorem from0_self (c : Dev nD) : from0 m c main_v32 = out0 m c := by
  unfold from0; exact Function.update_self ..

/-- The proof data's arrays are the entry contents at the windows' arrays. -/
theorem family0_A (c : Dev nD) (w : Fin cfg0.W) : (family m (0 : Fin 4) c).A w = atRefs (into0 m) c (Pipeline.arrRef spec0 w) := rfl

/-- The region's arrays after its last point are the exit contents at them: an operand's array is never written,
    the output's is what the write-backs made of it. -/
theorem arrs0_after (c : Dev nD) (w : Fin cfg0.W) :
    (family m (0 : Fin 4) c).arrAt w cfg0.N = atRefs (from0 m) c (Pipeline.arrRef spec0 w) := by
  have h0 : Pipeline.arrRef spec0 (0 : Fin cfg0.W) ≠ main_v32 := by decide
  have h1 : Pipeline.arrRef spec0 (1 : Fin cfg0.W) ≠ main_v32 := by decide
  match w with
  | ⟨0, _⟩ => exact ((family m (0 : Fin 4) c).arrAt_in _ rfl _).trans ((family0_A m c _).trans (from0_of_ne m c _ h0).symm)
  | ⟨1, _⟩ => exact ((family m (0 : Fin 4) c).arrAt_in _ rfl _).trans ((family0_A m c _).trans (from0_of_ne m c _ h1).symm)
  | ⟨2, _⟩ => exact (from0_self m c).symm

/-- Every buffer that is no array of the region is left as entered. -/
theorem rest0_kept (c : Dev nD) : ∀ b, b ∉ Finset.univ.image (Pipeline.arrRef spec0) → atRefs (from0 m) c b = atRefs (into0 m) c b :=
  fun b hb => from0_of_ne m c b fun e => hb (Finset.mem_image.mpr ⟨2, Finset.mem_univ _, e.symm⟩)

set_option backward.isDefEq.respectTransparency.types false in
/-- Region 0's segment record. -/
def seg0 : RegionSeg (pcfgs (F := F)) Gen.adm (family m) () defs₀ Variants.none noPairs noLevel (0 : Fin 4) where
  win := launch0.win.to₀
  block_pos := launch0.block_pos
  stage_whole := launch0.stage_whole
  K := PEmpty
  osem k := k.elim
  ho := Pipeline.OwnSemFacts.none _
  hbody c := (body0_obligation (atRefs (into0 m)) c).loose
  hwaits := Pipeline.hwaits_of_owed_zero _ _ _ _ noPairs noLevel (0 : Fin 4) fun _ _ => rfl
  pre c := iprop(StableHlo.held (c : Thread nD τ) (Pipeline.ucRefs τ sig) (into0 m c) ∗ beside c)
  post c := iprop(StableHlo.held (c : Thread nD τ) (Pipeline.ucRefs τ sig) (from0 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec0 c (atRefs (into0 m) c))
  hentry c := by
    rw [Pipeline.ownSems0_none]
    have hsplit := Pipeline.arrays_of_unscopedBufs (p := (0 : Fin 4)) (pcfgs (F := F)) Gen.adm (family m) launch0.win launch0.arr_whole c
      ((family m (0 : Fin 4) c).share_full fun _ => rfl) (atRefs (into0 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (0 : Fin 4) c).Φ 0 = Pipeline.ΦA spec0 c from rfl]; unfold Pipeline.ΦA
    iintro ⟨Hp, -, Hr⟩
    isplitl [Hr]; · iexact Hr
    iexact Hp
  hout c := by
    rw [Pipeline.ownSems0_none, show (family m (0 : Fin 4) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 4)) (pcfgs (F := F)) Gen.adm (Ix := Unit) (Name := ℕ) (U := Pipeline.UD sig nD τ) (Lvl := ℕ)
      launch0.win launch0.arr_whole c (family m) ((family m (0 : Fin 4) c).share_full fun _ => rfl)
      (atRefs (into0 m) c) (atRefs (from0 m) c) ((family m (0 : Fin 4) c).arrAt · cfg0.N) (arrs0_after m c) (rest0_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.Kernel.Hand

end
-- ==== Proof.KSeg1.lean ====
/-
  Region 1 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KChain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from1_of_ne (c : Dev nD) (b : Ref sig .tc) (hb : b ≠ main_v50) : from1 m c b = into1 m c b := by
  unfold from1; exact Function.update_of_ne (StableHlo.devRef_ne_of_ne hb) ..
theorem from1_self (c : Dev nD) : from1 m c main_v50 = out1 m c := by
  unfold from1; exact Function.update_self ..

/-- The proof data's arrays are the entry contents at the windows' arrays. -/
theorem family1_A (c : Dev nD) (w : Fin cfg1.W) : (family m (1 : Fin 4) c).A w = atRefs (into1 m) c (Pipeline.arrRef spec1 w) := rfl

/-- The region's arrays after its last point are the exit contents at them: an operand's array is never written,
    the output's is what the write-backs made of it. -/
theorem arrs1_after (c : Dev nD) (w : Fin cfg1.W) :
    (family m (1 : Fin 4) c).arrAt w cfg1.N = atRefs (from1 m) c (Pipeline.arrRef spec1 w) := by
  have h0 : Pipeline.arrRef spec1 (0 : Fin cfg1.W) ≠ main_v50 := by decide
  have h1 : Pipeline.arrRef spec1 (1 : Fin cfg1.W) ≠ main_v50 := by decide
  match w with
  | ⟨0, _⟩ => exact ((family m (1 : Fin 4) c).arrAt_in _ rfl _).trans ((family1_A m c _).trans (from1_of_ne m c _ h0).symm)
  | ⟨1, _⟩ => exact ((family m (1 : Fin 4) c).arrAt_in _ rfl _).trans ((family1_A m c _).trans (from1_of_ne m c _ h1).symm)
  | ⟨2, _⟩ => exact (from1_self m c).symm

/-- Every buffer that is no array of the region is left as entered. -/
theorem rest1_kept (c : Dev nD) : ∀ b, b ∉ Finset.univ.image (Pipeline.arrRef spec1) → atRefs (from1 m) c b = atRefs (into1 m) c b :=
  fun b hb => from1_of_ne m c b fun e => hb (Finset.mem_image.mpr ⟨2, Finset.mem_univ _, e.symm⟩)

set_option backward.isDefEq.respectTransparency.types false in
/-- Region 1's segment record. -/
def seg1 : RegionSeg (pcfgs (F := F)) Gen.adm (family m) () defs₀ Variants.none noPairs noLevel (1 : Fin 4) where
  win := launch1.win.to₀
  block_pos := launch1.block_pos
  stage_whole := launch1.stage_whole
  K := PEmpty
  osem k := k.elim
  ho := Pipeline.OwnSemFacts.none _
  hbody c := (body1_obligation (atRefs (into1 m)) c).loose
  hwaits := Pipeline.hwaits_of_owed_zero _ _ _ _ noPairs noLevel (1 : Fin 4) fun _ _ => rfl
  pre c := iprop(StableHlo.held (c : Thread nD τ) (Pipeline.ucRefs τ sig) (into1 m c) ∗ beside c)
  post c := iprop(StableHlo.held (c : Thread nD τ) (Pipeline.ucRefs τ sig) (from1 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec1 c (atRefs (into1 m) c))
  hentry c := by
    rw [Pipeline.ownSems0_none]
    have hsplit := Pipeline.arrays_of_unscopedBufs (p := (1 : Fin 4)) (pcfgs (F := F)) Gen.adm (family m) launch1.win launch1.arr_whole c
      ((family m (1 : Fin 4) c).share_full fun _ => rfl) (atRefs (into1 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (1 : Fin 4) c).Φ 0 = Pipeline.ΦA spec1 c from rfl]; unfold Pipeline.ΦA
    iintro ⟨Hp, -, Hr⟩
    isplitl [Hr]; · iexact Hr
    iexact Hp
  hout c := by
    rw [Pipeline.ownSems0_none, show (family m (1 : Fin 4) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 4)) (pcfgs (F := F)) Gen.adm (Ix := Unit) (Name := ℕ) (U := Pipeline.UD sig nD τ) (Lvl := ℕ)
      launch1.win launch1.arr_whole c (family m) ((family m (1 : Fin 4) c).share_full fun _ => rfl)
      (atRefs (into1 m) c) (atRefs (from1 m) c) ((family m (1 : Fin 4) c).arrAt · cfg1.N) (arrs1_after m c) (rest1_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.Kernel.Hand

end
-- ==== Proof.KSeg2.lean ====
/-
  Region 2 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KChain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from2_of_ne (c : Dev nD) (b : Ref sig .tc) (hb : b ≠ main_v67) : from2 m c b = into2 m c b := by
  unfold from2; exact Function.update_of_ne (StableHlo.devRef_ne_of_ne hb) ..
theorem from2_self (c : Dev nD) : from2 m c main_v67 = out2 m c := by
  unfold from2; exact Function.update_self ..

/-- The proof data's arrays are the entry contents at the windows' arrays. -/
theorem family2_A (c : Dev nD) (w : Fin cfg2.W) : (family m (2 : Fin 4) c).A w = atRefs (into2 m) c (Pipeline.arrRef spec2 w) := rfl

/-- The region's arrays after its last point are the exit contents at them: an operand's array is never written,
    the output's is what the write-backs made of it. -/
theorem arrs2_after (c : Dev nD) (w : Fin cfg2.W) :
    (family m (2 : Fin 4) c).arrAt w cfg2.N = atRefs (from2 m) c (Pipeline.arrRef spec2 w) := by
  have h0 : Pipeline.arrRef spec2 (0 : Fin cfg2.W) ≠ main_v67 := by decide
  have h1 : Pipeline.arrRef spec2 (1 : Fin cfg2.W) ≠ main_v67 := by decide
  match w with
  | ⟨0, _⟩ => exact ((family m (2 : Fin 4) c).arrAt_in _ rfl _).trans ((family2_A m c _).trans (from2_of_ne m c _ h0).symm)
  | ⟨1, _⟩ => exact ((family m (2 : Fin 4) c).arrAt_in _ rfl _).trans ((family2_A m c _).trans (from2_of_ne m c _ h1).symm)
  | ⟨2, _⟩ => exact (from2_self m c).symm

/-- Every buffer that is no array of the region is left as entered. -/
theorem rest2_kept (c : Dev nD) : ∀ b, b ∉ Finset.univ.image (Pipeline.arrRef spec2) → atRefs (from2 m) c b = atRefs (into2 m) c b :=
  fun b hb => from2_of_ne m c b fun e => hb (Finset.mem_image.mpr ⟨2, Finset.mem_univ _, e.symm⟩)

set_option backward.isDefEq.respectTransparency.types false in
/-- Region 2's segment record. -/
def seg2 : RegionSeg (pcfgs (F := F)) Gen.adm (family m) () defs₀ Variants.none noPairs noLevel (2 : Fin 4) where
  win := launch2.win.to₀
  block_pos := launch2.block_pos
  stage_whole := launch2.stage_whole
  K := PEmpty
  osem k := k.elim
  ho := Pipeline.OwnSemFacts.none _
  hbody c := (body2_obligation (atRefs (into2 m)) c).loose
  hwaits := Pipeline.hwaits_of_owed_zero _ _ _ _ noPairs noLevel (2 : Fin 4) fun _ _ => rfl
  pre c := iprop(StableHlo.held (c : Thread nD τ) (Pipeline.ucRefs τ sig) (into2 m c) ∗ beside c)
  post c := iprop(StableHlo.held (c : Thread nD τ) (Pipeline.ucRefs τ sig) (from2 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec2 c (atRefs (into2 m) c))
  hentry c := by
    rw [Pipeline.ownSems0_none]
    have hsplit := Pipeline.arrays_of_unscopedBufs (p := (2 : Fin 4)) (pcfgs (F := F)) Gen.adm (family m) launch2.win launch2.arr_whole c
      ((family m (2 : Fin 4) c).share_full fun _ => rfl) (atRefs (into2 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (2 : Fin 4) c).Φ 0 = Pipeline.ΦA spec2 c from rfl]; unfold Pipeline.ΦA
    iintro ⟨Hp, -, Hr⟩
    isplitl [Hr]; · iexact Hr
    iexact Hp
  hout c := by
    rw [Pipeline.ownSems0_none, show (family m (2 : Fin 4) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 4)) (pcfgs (F := F)) Gen.adm (Ix := Unit) (Name := ℕ) (U := Pipeline.UD sig nD τ) (Lvl := ℕ)
      launch2.win launch2.arr_whole c (family m) ((family m (2 : Fin 4) c).share_full fun _ => rfl)
      (atRefs (into2 m) c) (atRefs (from2 m) c) ((family m (2 : Fin 4) c).arrAt · cfg2.N) (arrs2_after m c) (rest2_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.Kernel.Hand

end
-- ==== Proof.KSeg3.lean ====
/-
  Region 3 as a segment of the program.  Its two operand windows sit on ONE array, the latent array: at entry that
  array, held whole at the full share among the core's unscoped buffers, is dealt to the two windows as its left and
  right half shares (the output window's array is held whole); at exit the two halves, both still at the entry
  contents since an operand's array is never written, are joined back into the full share, and the written array is
  put back at what the pipeline left: the contents fixed for the region's exit.
-/
import proofs.«105611_j55456617726630_1_alg».proof.Proof.KChain
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from3_of_ne (c : Dev nD) (b : Ref sig .tc) (hb : b ≠ main_v84) : from3 m c b = into3 m c b := by
  unfold from3; exact Function.update_of_ne (StableHlo.devRef_ne_of_ne hb) ..
theorem from3_self (c : Dev nD) : from3 m c main_v84 = out3 m c := by
  unfold from3; exact Function.update_self ..

/-- The proof data's arrays are the entry contents at the windows' arrays. -/
theorem family3_A (c : Dev nD) (w : Fin cfg3.W) : (family m (3 : Fin 4) c).A w = atRefs (into3 m) c (Pipeline.arrRef spec3 w) := rfl

/-- The region's arrays after its last point are the exit contents at them: an operand's array is never written,
    the output's is what the write-backs made of it. -/
theorem arrs3_after (c : Dev nD) (w : Fin cfg3.W) :
    (family m (3 : Fin 4) c).arrAt w cfg3.N = atRefs (from3 m) c (Pipeline.arrRef spec3 w) := by
  have h0 : Pipeline.arrRef spec3 (0 : Fin cfg3.W) ≠ main_v84 := by decide
  have h1 : Pipeline.arrRef spec3 (1 : Fin cfg3.W) ≠ main_v84 := by decide
  match w with
  | ⟨0, _⟩ => exact ((family m (3 : Fin 4) c).arrAt_in _ rfl _).trans ((family3_A m c _).trans (from3_of_ne m c _ h0).symm)
  | ⟨1, _⟩ => exact ((family m (3 : Fin 4) c).arrAt_in _ rfl _).trans ((family3_A m c _).trans (from3_of_ne m c _ h1).symm)
  | ⟨2, _⟩ => exact (from3_self m c).symm

/-- Every buffer that is no array of the region is left as entered. -/
theorem rest3_kept (c : Dev nD) : ∀ b, b ∉ Finset.univ.image (Pipeline.arrRef spec3) → atRefs (from3 m) c b = atRefs (into3 m) c b :=
  fun b hb => from3_of_ne m c b fun e => hb (Finset.mem_image.mpr ⟨2, Finset.mem_univ _, e.symm⟩)

/-- The buffers behind region 3's three windows are two: the latent array, read through both operand windows, and the
    array the region writes. -/
theorem arrRefs3 : Finset.univ.image (Pipeline.arrRef spec3) = ([main_v66, main_v84] : List (Ref sig .tc)).toFinset := by decide

/-- Those two buffers, each whole at the full share at contents `V`, one by one. -/
theorem arrBufs3_eq (c : Dev nD) (V : (b : Ref sig .tc) → Buf (Elt F) ((c : Thread nD τ).loc b)) :
    (Pipeline.arrBufs (Ix := Unit) (Name := ℕ) (U := Pipeline.UD sig nD τ) (Lvl := ℕ) spec3 c V : sProp 𝕄)
      = iprop((((c : Thread nD τ).loc main_v66) ↦{fullShare} V main_v66) ∗ (((c : Thread nD τ).loc main_v84) ↦{fullShare} V main_v84)) := by
  unfold Pipeline.arrBufs
  exact bigSep_eq_bigSepL_of_eq [main_v66, main_v84] arrRefs3 (by decide) _

set_option maxHeartbeats 1000000 in
/-- A window's array is a whole buffer: holding its view is holding every element of the buffer. -/
theorem arr3_at (c : Dev nD) (w : Fin cfg3.W) (q : PosShare TreeShare) (f : Buf (Elt F) ((cfg3.win w).arr.view.loc (c : Thread nD τ))) :
    ((cfg3.win w).arr.view.loc (c : Thread nD τ) ↦[(cfg3.win w).arr.view.set]{q} f : sProp 𝕄)
      = ((c : Thread nD τ).loc (Pipeline.arrRef spec3 w) ↦{q} f) := by
  rw [(arr_whole3 w).set_eq_univ]

set_option maxHeartbeats 1000000 in
/-- The region's arrays at contents read off a valuation `V` of the core's buffers, window by window: the latent
    array at the left half share (the row-block window) and at the right half share (the whole-array window), the
    written array at the full share. -/
theorem arrays3_eq (c : Dev nD) (V : (b : Ref sig .tc) → Buf (Elt F) ((c : Thread nD τ).loc b)) :
    (family m (3 : Fin 4) c).arrays (fun w => V (Pipeline.arrRef spec3 w))
      = iprop((((c : Thread nD τ).loc main_v66) ↦{fullShare.left} V main_v66)
          ∗ (((c : Thread nD τ).loc main_v66) ↦{fullShare.right} V main_v66)
          ∗ (((c : Thread nD τ).loc main_v84) ↦{fullShare} V main_v84)) := by
  unfold Dat.arrays
  refine (bigSep_congr fun w _ => arr3_at c w _ _).trans ((bigSep_W3 _).trans ?_)
  rfl

/-- Before the first point the arrays hold the entry contents; after the last, the exit contents. -/
theorem arrs3_entry (c : Dev nD) :
    ((family m (3 : Fin 4) c).arrAt · 0) = fun w => atRefs (into3 m) c (Pipeline.arrRef spec3 w) := rfl
theorem arrs3_exit (c : Dev nD) :
    ((family m (3 : Fin 4) c).arrAt · cfg3.N) = fun w => atRefs (from3 m) c (Pipeline.arrRef spec3 w) := funext (arrs3_after m c)

/-- ENTRY, the arrays' part: the latent array, whole at the full share, is dealt to the two operand windows as its
    left and right halves; the written array goes to the output window whole. -/
theorem arrays3_of_arrBufs (c : Dev nD) :
    (Pipeline.arrBufs (Ix := Unit) (Name := ℕ) (U := Pipeline.UD sig nD τ) (Lvl := ℕ) spec3 c (atRefs (into3 m) c) : sProp 𝕄)
      ⊢ (family m (3 : Fin 4) c).arrays ((family m (3 : Fin 4) c).arrAt · 0) := by
  rw [arrBufs3_eq, arrs3_entry]
  refine BIBase.Entails.trans ?_ (Entails.of_eq (arrays3_eq m c (atRefs (into3 m) c)).symm)
  iintro ⟨H66, H84⟩
  ihave H := (pointsTo_share (PosShare.mem_left_op_right fullShare)).1 $$ H66
  icases H with ⟨Hl, Hr⟩
  isplitl [Hl]; · iexact Hl
  isplitl [Hr]; · iexact Hr
  iexact H84

/-- EXIT, the arrays' part: the two halves of the latent array, both at the exit contents (which there are the
    entry's), join into the full share; the written array is held whole at what the pipeline left. -/
theorem arrBufs3_of_arrays (c : Dev nD) :
    (family m (3 : Fin 4) c).arrays ((family m (3 : Fin 4) c).arrAt · cfg3.N)
      ⊢ (Pipeline.arrBufs (Ix := Unit) (Name := ℕ) (U := Pipeline.UD sig nD τ) (Lvl := ℕ) spec3 c (atRefs (from3 m) c) : sProp 𝕄) := by
  rw [arrBufs3_eq, arrs3_exit]
  refine BIBase.Entails.trans (Entails.of_eq (arrays3_eq m c (atRefs (from3 m) c))) ?_
  iintro ⟨Hl, Hr, H84⟩
  isplitl [Hl Hr]
  · iapply (pointsTo_share (PosShare.mem_left_op_right fullShare)).2
    isplitl [Hl]; · iexact Hl
    iexact Hr
  iexact H84

/-- The buffers that are no array of the region hold at exit what they held at entry. -/
theorem rest3_eq (c : Dev nD) :
    (Pipeline.unscopedRest (Ix := Unit) (Name := ℕ) (U := Pipeline.UD sig nD τ) (Lvl := ℕ) spec3 c (atRefs (from3 m) c) : sProp 𝕄)
      = Pipeline.unscopedRest spec3 c (atRefs (into3 m) c) := by
  unfold Pipeline.unscopedRest
  exact bigSep_congr fun b hb => by rw [rest3_kept m c b (Finset.mem_sdiff.mp hb).2]

/-- ENTRY, the buffers' part: every unscoped buffer of the core at the entry contents is the region's arrays at
    their entry contents and the buffers that are no array of it. -/
theorem held3_split (c : Dev nD) :
    (StableHlo.held (c : Thread nD τ) (Pipeline.ucRefs τ sig) (into3 m c) : sProp 𝕄)
      ⊢ iprop((family m (3 : Fin 4) c).arrays ((family m (3 : Fin 4) c).arrAt · 0)
          ∗ Pipeline.unscopedRest (Ix := Unit) (Name := ℕ) (U := Pipeline.UD sig nD τ) (Lvl := ℕ) spec3 c (atRefs (into3 m) c)) := by
  rw [← Pipeline.unscopedBufs_held (Ix := Unit) (Name := ℕ) (U := Pipeline.UD sig nD τ) (Lvl := ℕ),
    Pipeline.unscopedBufs_split₀ cfgs (3 : Fin 4) winFacts₀3.arr_unscoped c]
  exact sep_mono (arrays3_of_arrBufs m c) .rfl

/-- EXIT, the buffers' part: the region's arrays at their final contents and the other buffers as entered are every
    unscoped buffer of the core at the exit contents. -/
theorem held3_join (c : Dev nD) :
    iprop((family m (3 : Fin 4) c).arrays ((family m (3 : Fin 4) c).arrAt · cfg3.N)
        ∗ Pipeline.unscopedRest (Ix := Unit) (Name := ℕ) (U := Pipeline.UD sig nD τ) (Lvl := ℕ) spec3 c (atRefs (into3 m) c))
      ⊢ (StableHlo.held (c : Thread nD τ) (Pipeline.ucRefs τ sig) (from3 m c) : sProp 𝕄) := by
  rw [← Pipeline.unscopedBufs_held (Ix := Unit) (Name := ℕ) (U := Pipeline.UD sig nD τ) (Lvl := ℕ),
    Pipeline.unscopedBufs_split₀ cfgs (3 : Fin 4) winFacts₀3.arr_unscoped c, ← rest3_eq]
  exact sep_mono (arrBufs3_of_arrays m c) .rfl

set_option backward.isDefEq.respectTransparency.types false in
/-- Region 3's segment record. -/
def seg3 : RegionSeg (pcfgs (F := F)) Gen.adm (family m) () defs₀ Variants.none noPairs noLevel (3 : Fin 4) where
  win := winFacts₀3
  block_pos := block_pos3
  stage_whole := stage_whole3
  K := PEmpty
  osem k := k.elim
  ho := Pipeline.OwnSemFacts.none _
  hbody c := (body3_obligation (atRefs (into3 m)) c).loose
  hwaits := Pipeline.hwaits_of_owed_zero _ _ _ _ noPairs noLevel (3 : Fin 4) fun _ _ => rfl
  pre c := iprop(StableHlo.held (c : Thread nD τ) (Pipeline.ucRefs τ sig) (into3 m c) ∗ beside c)
  post c := iprop(StableHlo.held (c : Thread nD τ) (Pipeline.ucRefs τ sig) (from3 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec3 c (atRefs (into3 m) c))
  hentry c := by
    rw [Pipeline.ownSems0_none]
    iintro ⟨⟨Hub, Hs, Hp, HO⟩, -, -⟩
    ihave H := (held3_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (3 : Fin 4) c).Φ 0 = Pipeline.ΦA spec3 c from rfl]; unfold Pipeline.ΦA
    iintro ⟨Hp, -, Hr⟩
    isplitl [Hr]; · iexact Hr
    iexact Hp
  hout c := by
    rw [Pipeline.ownSems0_none, show (family m (3 : Fin 4) c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hs, Hrest⟩
    imodintro
    isplitl [Ha Hrest]
    · iapply (held3_join m c); isplitl [Ha] <;> iassumption
    isplitl [Hs]; · iexact Hs
    isplitl [HY]; · iexact HY
    unfold Pipeline.Dat.owesAt Pipeline.owesWithin
    icases HO with ⟨%W, -, HO⟩; iexists W; iexact HO

end Cert.Kernel.Hand

end
-- ==== Proof.KRun.lean ====
/-
  The run of the whole program: its items in order — three host stretches, region 0, two stretches, region 1, a stretch,
  region 2, a stretch, region 3 — each entered from what the one before left, from any launch memory with every
  semaphore counter at zero.  Every weakly fair execution terminates without a fault, and at the end every unscoped
  buffer of every core holds the contents fixed for region 3's exit.  The arguments are among those buffers and no
  item writes one, so they end as launched.
-/
import proofs.«105611_j55456617726630_1_alg».proof.Proof.KSeg0
import proofs.«105611_j55456617726630_1_alg».proof.Proof.KSeg1
import proofs.«105611_j55456617726630_1_alg».proof.Proof.KSeg2
import proofs.«105611_j55456617726630_1_alg».proof.Proof.KSeg3

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

/-- What the launch deals a core besides its buffers is what it holds between items. -/
theorem beside_of_launch :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts noPairs noLevel)
      ⊢ (|={Set.univ}=> bigSep Finset.univ (fun c : Dev nD => beside (F := F) c) : sProp 𝕄) := by
  refine Pipeline.initEach noPairs noLevel fun c => ?_
  iintro ⟨⟨Hs, HO, -, Hp, -⟩, -⟩
  imodintro
  isplitl [Hs]; · iexact Hs
  isplitl [Hp]; · iexists _; iexact Hp
  iexists ∅; iexact HO

set_option backward.isDefEq.respectTransparency.types false in
/-- THE RUN. -/
theorem run_all :
    θ_run defs (onTc (τ := τ) (main (F := F))) ⟨m, fun _ => 0, ρ⟩
      (fun r => ∀ c : Dev nD, ∀ b ∈ Pipeline.ucRefs τ sig, r.2.mem ((c : Thread nD τ).1, b) = from3 m c b) := by
  have hpre0 : ∀ c : Dev nD, iprop(StableHlo.held (c : Thread nD τ) (Pipeline.ucRefs τ sig) (Gen.V3 m c) ∗ beside (F := F) c) ⊢ (seg0 m).pre c := fun c => .rfl
  have hpost0 : ∀ c : Dev nD, (seg0 m).post c ⊢ iprop(StableHlo.held (c : Thread nD τ) (Pipeline.ucRefs τ sig) (Gen.V4 m (left m) c) ∗ beside (F := F) c) := fun c => by
    rw [left4_eq]; exact .rfl
  have hpre1 : ∀ c : Dev nD, iprop(StableHlo.held (c : Thread nD τ) (Pipeline.ucRefs τ sig) (Gen.V6 m (left m) c) ∗ beside (F := F) c) ⊢ (seg1 m).pre c := fun c => by
    rw [left6_eq]; exact .rfl
  have hpost1 : ∀ c : Dev nD, (seg1 m).post c ⊢ iprop(StableHlo.held (c : Thread nD τ) (Pipeline.ucRefs τ sig) (Gen.V7 m (left m) c) ∗ beside (F := F) c) := fun c => by
    rw [left7_eq]; exact .rfl
  have hpre2 : ∀ c : Dev nD, iprop(StableHlo.held (c : Thread nD τ) (Pipeline.ucRefs τ sig) (Gen.V8 m (left m) c) ∗ beside (F := F) c) ⊢ (seg2 m).pre c := fun c => by
    rw [left8_eq]; exact .rfl
  have hpost2 : ∀ c : Dev nD, (seg2 m).post c ⊢ iprop(StableHlo.held (c : Thread nD τ) (Pipeline.ucRefs τ sig) (Gen.V9 m (left m) c) ∗ beside (F := F) c) := fun c => by
    rw [left9_eq]; exact .rfl
  have hpre3 : ∀ c : Dev nD, iprop(StableHlo.held (c : Thread nD τ) (Pipeline.ucRefs τ sig) (Gen.V10 m (left m) c) ∗ beside (F := F) c) ⊢ (seg3 m).pre c := fun c => by
    rw [left10_eq]; exact .rfl
  have hpost3 : ∀ c : Dev nD, (seg3 m).post c ⊢ iprop(StableHlo.held (c : Thread nD τ) (Pipeline.ucRefs τ sig) (Gen.V11 m (left m) c) ∗ beside (F := F) c) := fun c => by
    rw [left11_eq]; exact .rfl
  have hE4 : ∀ c : Dev nD, beside (F := F) c ⊢ (iprop(unscopedSems0 c ∗ (∃ r, prngReg c r)) ∗ ∃ W, owes (c : Thread nD τ) (0 : CellTallies nD τ sig Unit) W : sProp 𝕄) := fun c => by
    iintro ⟨Hs, Hp, HO⟩
    isplitl [Hs Hp]
    · isplitl [Hs] <;> iassumption
    iexact HO
  refine Pipeline.θ_run_regions_kit_dev (pcfgs (F := F)) Gen.adm (family m) () cellOf_inj embL defs₀ Variants.none noPairs noLevel m ρ main
    (Gen.segs m (left m) Variants.none noPairs noLevel (fun _ => beside) () (family m) (seg0 m) (seg1 m) (seg2 m) (seg3 m))
    (fun c Q => by
      rewrite [main_chain c, Seg.run_eq_chain,
        show (Gen.segs m (left m) Variants.none noPairs noLevel (fun _ => beside) () (family m) (seg0 m) (seg1 m) (seg2 m) (seg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => iprop(StableHlo.held (c : Thread nD τ) (Pipeline.ucRefs τ sig) (Gen.V11 m (left m) c) ∗ unscopedSems0 c ∗ ∃ r, prngReg c r))
    (hch := fun c => ⟨.rfl, .rfl, .rfl, hpre0 c, hpost0 c, .rfl, hpre1 c, hpost1 c, hpre2 c, hpost2 c, hpre3 c,
      (hpost3 c).trans ((sep_mono .rfl (hE4 c)).trans sep_assoc.2)⟩)
    (hinit := ?_) (QY := fun c s => ∀ b ∈ Pipeline.ucRefs τ sig, s.mem ((c : Thread nD τ).1, b) = Gen.V11 m (left m) c b)
    (hfin := fun c s' => ?_) (hQ := fun _ h c b hb => (h c b hb).trans (by rw [left11_eq]))
  · -- the launch: the unscoped buffers are held at the launch contents; the rest is what a core holds between items
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ : Dev nD => (iprop(emp) : sProp 𝕄)) c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ : Dev nD => (iprop(emp) : sProp 𝕄)) c))
            : sProp 𝕄) := by
      rw [← bigSep_sep']
      exact bigSep_mono fun c _ => by rw [← Pipeline.unscopedBufs_held (Ix := Unit) (Name := ℕ) (U := Pipeline.UD sig nD τ) (Lvl := ℕ) c (Gen.V0 m c)]; exact BI.Entails.refl _
    iintro ⟨H, Hla⟩
    ihave H' := hsplit $$ H
    icases H' with ⟨Hh, Hr⟩
    imod (beside_of_launch (F := F) ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (Gen.V0 m c))
      (fun c : Dev nD => beside (F := F) c)).symm)
    isplitl [Hh]; · iexact Hh
    iexact HE
  · -- the end: every unscoped buffer read off the last contents
    unfold StableHlo.held
    iintro ⟨⟨Hh, -, -⟩, HSI⟩
    ihave Hr := (pointsTo_read_all (Pipeline.ucRefs τ sig) (fun b => ((c : Thread nD τ).1, b)) (Gen.V11 m (left m) c) s') $$ [Hh HSI]
    · isplitl [Hh] <;> iassumption
    icases Hr with ⟨%h, HSI⟩
    imodintro
    isplitr
    · ipureintro; exact h
    · iexact HSI

/-- An unscoped TensorCore reference is among the buffers the run reads at the end. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The exit contents at an argument are the launch contents: no host stretch writes an argument and no region's
    output array is one. -/
theorem from3_arg (c : Dev nD) (r : Ref sig .tc) (h : Gen.V11 m (left m) c r = m ((c : Thread nD τ).loc r)) :
    from3 m c r = m ((c : Thread nD τ).loc r) := by rw [← left11_eq]; exact h

/-- THE FRAME: the program runs to the end without a fault and its argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_unscoped main_arg0 (by decide))).trans (from3_arg m c main_arg0 (Gen.V11_main_arg0 m (left m) c)),
     (h c _ (mem_unscoped main_arg1 (by decide))).trans (from3_arg m c main_arg1 (Gen.V11_main_arg1 m (left m) c)),
     (h c _ (mem_unscoped main_arg2 (by decide))).trans (from3_arg m c main_arg2 (Gen.V11_main_arg2 m (left m) c)),
     (h c _ (mem_unscoped main_arg3 (by decide))).trans (from3_arg m c main_arg3 (Gen.V11_main_arg3 m (left m) c)),
     (h c _ (mem_unscoped main_arg4 (by decide))).trans (from3_arg m c main_arg4 (Gen.V11_main_arg4 m (left m) c)),
     (h c _ (mem_unscoped main_arg5 (by decide))).trans (from3_arg m c main_arg5 (Gen.V11_main_arg5 m (left m) c)),
     (h c _ (mem_unscoped main_arg6 (by decide))).trans (from3_arg m c main_arg6 (Gen.V11_main_arg6 m (left m) c)),
     (h c _ (mem_unscoped main_arg7 (by decide))).trans (from3_arg m c main_arg7 (Gen.V11_main_arg7 m (left m) c)),
     (h c _ (mem_unscoped main_arg8 (by decide))).trans (from3_arg m c main_arg8 (Gen.V11_main_arg8 m (left m) c))⟩)
    (run_all m ρ)

end Cert.Kernel.Hand

end
-- ==== Proof.KIRegion0.lean ====
/-
  Region 0 of the program (the first layer's feature transform, rows of x times W1): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.KernelIdeal.Launch
import proofs.«105611_j55456617726630_1_alg».proof.Proof.Gen.KernelIdeal.Skeleton
import proofs.«105611_j55456617726630_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point: the window is fetched whole wherever its block
    index moves, and the body leaves it as it found it. -/
theorem held0_lhs {c : Dev nD} (dat : Dat τ (Elt F) Unit ℕ (Pipeline.UD sig nD τ) ℕ cfg0 c) (hA : dat.A 0 = V c (Pipeline.arrRef spec0 0))
    (hafter : ∀ t, dat.after 0 t = inBlk0 V c 0 t) (t : Fin cfg0.N) (d) : dat.before 0 t d = inBlk0 V c 0 t :=
  (dat.before_in_eq_fetched 0 rfl (fun _ => rfl) (fun _ _ _ => rfl) (fun t => by rw [hafter]; unfold Dat.blockOf inBlk0; rw [hA]; try rfl) t d).trans
    (by unfold Dat.fetched Dat.blockOf inBlk0; rw [hA]; try rfl)

/-- The right operand's staging buffer likewise (its block index never moves: it is fetched once and kept). -/
theorem held0_rhs {c : Dev nD} (dat : Dat τ (Elt F) Unit ℕ (Pipeline.UD sig nD τ) ℕ cfg0 c) (hA : dat.A 1 = V c (Pipeline.arrRef spec0 1))
    (hafter : ∀ t, dat.after 1 t = inBlk0 V c 1 t) (t : Fin cfg0.N) (d) : dat.before 1 t d = inBlk0 V c 1 t :=
  (dat.before_in_eq_fetched 1 rfl (fun _ => rfl) (fun _ _ _ => rfl) (fun t => by rw [hafter]; unfold Dat.blockOf inBlk0; rw [hA]; try rfl) t d).trans
    (by unfold Dat.fetched Dat.blockOf inBlk0; rw [hA]; try rfl)

/-- The rectangles the body reads and writes: each is its buffer's whole extent. -/
abbrev allA0 : Rect S2000x256 := Rect.unit (s := S2000x256) ![0, 0] S2000x256.size inb_S2000x256_S2000x256_0_0
abbrev allB0 : Rect S256x128 := Rect.unit (s := S256x128) ![0, 0] S256x128.size inb_S256x128_S256x128_0_0
abbrev allO0 : Rect S2000x128 := Rect.unit (s := S2000x128) ![0, 0] S2000x128.size inb_S2000x128_S2000x128_0_0

/-- What the body leaves in the output block: its one store, the product of the two staged operands, as the only
    piece. -/
def prod0 (a : Vec F S2000x256 .f32) (b : Vec F S256x128 .f32) : Vec F S2000x128 .f32 :=
  View.canon [⟨allO0, k0_pay1 (View.ld a allA0) (View.ld b allB0)⟩]

/-- That one piece covers the block. -/
theorem prod0_cover (p0 : Vec F S2000x128 .f32) (y : S2000x128.Idx) :
    ∃ pc ∈ ([⟨allO0, p0⟩] : List (View.Piece (Elt F) S2000x128 .f32)), y ∈ pc.1.set :=
  View.cover_of_tiled [⟨allO0, p0⟩] S2000x128.size (by rfl) y

set_option maxHeartbeats 1000000 in
/-- The body on whole staging buffers, the operands' at contents `a`, `b` and the output's at anything: it runs to
    its continuation with the operands' buffers as they were and the output's at `prod0 a b`. -/
theorem body0_triple (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (a : Vec F S2000x256 .f32) (b : Vec F S256x128 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod0 a b)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-- The pipeline's proof data on core `c`: the arrays as the region finds them; after the body at point `t` each
    operand's buffer still at its block and the output's at the product of the two blocks; the invariant is the
    untouched rest (the scoped buffers no window stages and the generator register); nothing owed; every array at the full share. -/
def data0 (c : Dev nD) : Dat τ (Elt F) Unit ℕ (Pipeline.UD sig nD τ) ℕ cfg0 c where
  A w := V c (Pipeline.arrRef spec0 w)
  after w t := match w with
    | ⟨0, _⟩ => inBlk0 V c 0 t
    | ⟨1, _⟩ => inBlk0 V c 1 t
    | ⟨2, _⟩ => prod0 (inBlk0 V c 0 t) (inBlk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_lhs (c : Dev nD) (t : Fin cfg0.N) : (data0 V c).after 0 t = inBlk0 V c 0 t := by dsimp only [data0]
theorem data0_after_rhs (c : Dev nD) (t : Fin cfg0.N) : (data0 V c).after 1 t = inBlk0 V c 1 t := by dsimp only [data0]
theorem data0_after_out (c : Dev nD) (t : Fin cfg0.N) : (data0 V c).after 2 t = prod0 (inBlk0 V c 0 t) (inBlk0 V c 1 t) := by dsimp only [data0]
theorem data0_before_lhs (c : Dev nD) (t : Fin cfg0.N) (d) : (data0 V c).before 0 t d = inBlk0 V c 0 t :=
  held0_lhs V (data0 V c) (data0_A V c 0) (data0_after_lhs V c) t d
theorem data0_before_rhs (c : Dev nD) (t : Fin cfg0.N) (d) : (data0 V c).before 1 t d = inBlk0 V c 1 t :=
  held0_rhs V (data0 V c) (data0_A V c 1) (data0_after_rhs V c) t d

/-- What the body is handed at point `t`, the windows written out one by one, -/
def handed0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it hands back. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the operands' buffers hold their blocks, so the triple applies; the invariant and what the
    core owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [data0_before_lhs, data0_before_rhs]
  rw [show (data0 V c).Φ t.succ = (data0 V c).Φ t.castSucc from rfl,
    show (data0 V c).owesAt () t.succ = (data0 V c).owesAt () t.castSucc from rfl,
    data0_after_lhs, data0_after_rhs, data0_after_out]
  iintro ⟨HΦ, Ho, ⟨%d0, H0⟩, ⟨%d1, H1⟩, ⟨%d2, H2⟩⟩
  iapply (body0_triple c Set.univ _ _ _ _ _ _ _ (inBlk0 V c 0 t) (inBlk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body0_obligation (c : Dev nD) : BodyObligation (data0 (F := F) V c) (defs₀ (F := F)) Variants.none () Set.univ := fun t => by
  rw [bigSep_W0, bigSep_W0]
  exact body0_at V c t

end Cert.KernelIdeal.Hand

end
-- ==== Proof.KIRegion1.lean ====
/-
  Region 1 of the program (the mean head's feature transform, rows of the hidden layer times W2): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.KernelIdeal.Launch
import proofs.«105611_j55456617726630_1_alg».proof.Proof.Gen.KernelIdeal.Skeleton
import proofs.«105611_j55456617726630_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point: the window is fetched whole wherever its block
    index moves, and the body leaves it as it found it. -/
theorem held1_lhs {c : Dev nD} (dat : Dat τ (Elt F) Unit ℕ (Pipeline.UD sig nD τ) ℕ cfg1 c) (hA : dat.A 0 = V c (Pipeline.arrRef spec1 0))
    (hafter : ∀ t, dat.after 0 t = inBlk1 V c 0 t) (t : Fin cfg1.N) (d) : dat.before 0 t d = inBlk1 V c 0 t :=
  (dat.before_in_eq_fetched 0 rfl (fun _ => rfl) (fun _ _ _ => rfl) (fun t => by rw [hafter]; unfold Dat.blockOf inBlk1; rw [hA]; try rfl) t d).trans
    (by unfold Dat.fetched Dat.blockOf inBlk1; rw [hA]; try rfl)

/-- The right operand's staging buffer likewise (its block index never moves: it is fetched once and kept). -/
theorem held1_rhs {c : Dev nD} (dat : Dat τ (Elt F) Unit ℕ (Pipeline.UD sig nD τ) ℕ cfg1 c) (hA : dat.A 1 = V c (Pipeline.arrRef spec1 1))
    (hafter : ∀ t, dat.after 1 t = inBlk1 V c 1 t) (t : Fin cfg1.N) (d) : dat.before 1 t d = inBlk1 V c 1 t :=
  (dat.before_in_eq_fetched 1 rfl (fun _ => rfl) (fun _ _ _ => rfl) (fun t => by rw [hafter]; unfold Dat.blockOf inBlk1; rw [hA]; try rfl) t d).trans
    (by unfold Dat.fetched Dat.blockOf inBlk1; rw [hA]; try rfl)

/-- The rectangles the body reads and writes: each is its buffer's whole extent. -/
abbrev allA1 : Rect S2000x128 := Rect.unit (s := S2000x128) ![0, 0] S2000x128.size inb_S2000x128_S2000x128_0_0
abbrev allB1 : Rect S128x64 := Rect.unit (s := S128x64) ![0, 0] S128x64.size inb_S128x64_S128x64_0_0
abbrev allO1 : Rect S2000x64 := Rect.unit (s := S2000x64) ![0, 0] S2000x64.size inb_S2000x64_S2000x64_0_0

/-- What the body leaves in the output block: its one store, the product of the two staged operands, as the only
    piece. -/
def prod1 (a : Vec F S2000x128 .f32) (b : Vec F S128x64 .f32) : Vec F S2000x64 .f32 :=
  View.canon [⟨allO1, k1_pay1 (View.ld a allA1) (View.ld b allB1)⟩]

/-- That one piece covers the block. -/
theorem prod1_cover (p0 : Vec F S2000x64 .f32) (y : S2000x64.Idx) :
    ∃ pc ∈ ([⟨allO1, p0⟩] : List (View.Piece (Elt F) S2000x64 .f32)), y ∈ pc.1.set :=
  View.cover_of_tiled [⟨allO1, p0⟩] S2000x64.size (by rfl) y

set_option maxHeartbeats 1000000 in
/-- The body on whole staging buffers, the operands' at contents `a`, `b` and the output's at anything: it runs to
    its continuation with the operands' buffers as they were and the output's at `prod1 a b`. -/
theorem body1_triple (c : Dev nD) (E : Set ℕ) (i : grid1.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (a : Vec F S2000x128 .f32) (b : Vec F S128x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod1 a b)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod1_cover _)

/-- The pipeline's proof data on core `c`: the arrays as the region finds them; after the body at point `t` each
    operand's buffer still at its block and the output's at the product of the two blocks; the invariant is the
    untouched rest (the scoped buffers no window stages and the generator register); nothing owed; every array at the full share. -/
def data1 (c : Dev nD) : Dat τ (Elt F) Unit ℕ (Pipeline.UD sig nD τ) ℕ cfg1 c where
  A w := V c (Pipeline.arrRef spec1 w)
  after w t := match w with
    | ⟨0, _⟩ => inBlk1 V c 0 t
    | ⟨1, _⟩ => inBlk1 V c 1 t
    | ⟨2, _⟩ => prod1 (inBlk1 V c 0 t) (inBlk1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_lhs (c : Dev nD) (t : Fin cfg1.N) : (data1 V c).after 0 t = inBlk1 V c 0 t := by dsimp only [data1]
theorem data1_after_rhs (c : Dev nD) (t : Fin cfg1.N) : (data1 V c).after 1 t = inBlk1 V c 1 t := by dsimp only [data1]
theorem data1_after_out (c : Dev nD) (t : Fin cfg1.N) : (data1 V c).after 2 t = prod1 (inBlk1 V c 0 t) (inBlk1 V c 1 t) := by dsimp only [data1]
theorem data1_before_lhs (c : Dev nD) (t : Fin cfg1.N) (d) : (data1 V c).before 0 t d = inBlk1 V c 0 t :=
  held1_lhs V (data1 V c) (data1_A V c 0) (data1_after_lhs V c) t d
theorem data1_before_rhs (c : Dev nD) (t : Fin cfg1.N) (d) : (data1 V c).before 1 t d = inBlk1 V c 1 t :=
  held1_rhs V (data1 V c) (data1_A V c 1) (data1_after_rhs V c) t d

/-- What the body is handed at point `t`, the windows written out one by one, -/
def handed1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what it hands back. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the operands' buffers hold their blocks, so the triple applies; the invariant and what the
    core owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [data1_before_lhs, data1_before_rhs]
  rw [show (data1 V c).Φ t.succ = (data1 V c).Φ t.castSucc from rfl,
    show (data1 V c).owesAt () t.succ = (data1 V c).owesAt () t.castSucc from rfl,
    data1_after_lhs, data1_after_rhs, data1_after_out]
  iintro ⟨HΦ, Ho, ⟨%d0, H0⟩, ⟨%d1, H1⟩, ⟨%d2, H2⟩⟩
  iapply (body1_triple c Set.univ _ _ _ _ _ _ _ (inBlk1 V c 0 t) (inBlk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body1_obligation (c : Dev nD) : BodyObligation (data1 (F := F) V c) (defs₀ (F := F)) Variants.none () Set.univ := fun t => by
  rw [bigSep_W1, bigSep_W1]
  exact body1_at V c t

end Cert.KernelIdeal.Hand

end
-- ==== Proof.KIRegion2.lean ====
/-
  Region 2 of the program (the log-variance head's feature transform, rows of the hidden layer times W3): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.KernelIdeal.Launch
import proofs.«105611_j55456617726630_1_alg».proof.Proof.Gen.KernelIdeal.Skeleton
import proofs.«105611_j55456617726630_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point: the window is fetched whole wherever its block
    index moves, and the body leaves it as it found it. -/
theorem held2_lhs {c : Dev nD} (dat : Dat τ (Elt F) Unit ℕ (Pipeline.UD sig nD τ) ℕ cfg2 c) (hA : dat.A 0 = V c (Pipeline.arrRef spec2 0))
    (hafter : ∀ t, dat.after 0 t = inBlk2 V c 0 t) (t : Fin cfg2.N) (d) : dat.before 0 t d = inBlk2 V c 0 t :=
  (dat.before_in_eq_fetched 0 rfl (fun _ => rfl) (fun _ _ _ => rfl) (fun t => by rw [hafter]; unfold Dat.blockOf inBlk2; rw [hA]; try rfl) t d).trans
    (by unfold Dat.fetched Dat.blockOf inBlk2; rw [hA]; try rfl)

/-- The right operand's staging buffer likewise (its block index never moves: it is fetched once and kept). -/
theorem held2_rhs {c : Dev nD} (dat : Dat τ (Elt F) Unit ℕ (Pipeline.UD sig nD τ) ℕ cfg2 c) (hA : dat.A 1 = V c (Pipeline.arrRef spec2 1))
    (hafter : ∀ t, dat.after 1 t = inBlk2 V c 1 t) (t : Fin cfg2.N) (d) : dat.before 1 t d = inBlk2 V c 1 t :=
  (dat.before_in_eq_fetched 1 rfl (fun _ => rfl) (fun _ _ _ => rfl) (fun t => by rw [hafter]; unfold Dat.blockOf inBlk2; rw [hA]; try rfl) t d).trans
    (by unfold Dat.fetched Dat.blockOf inBlk2; rw [hA]; try rfl)

/-- The rectangles the body reads and writes: each is its buffer's whole extent. -/
abbrev allA2 : Rect S2000x128 := Rect.unit (s := S2000x128) ![0, 0] S2000x128.size inb_S2000x128_S2000x128_0_0
abbrev allB2 : Rect S128x64 := Rect.unit (s := S128x64) ![0, 0] S128x64.size inb_S128x64_S128x64_0_0
abbrev allO2 : Rect S2000x64 := Rect.unit (s := S2000x64) ![0, 0] S2000x64.size inb_S2000x64_S2000x64_0_0

/-- What the body leaves in the output block: its one store, the product of the two staged operands, as the only
    piece. -/
def prod2 (a : Vec F S2000x128 .f32) (b : Vec F S128x64 .f32) : Vec F S2000x64 .f32 :=
  View.canon [⟨allO2, k2_pay1 (View.ld a allA2) (View.ld b allB2)⟩]

/-- That one piece covers the block. -/
theorem prod2_cover (p0 : Vec F S2000x64 .f32) (y : S2000x64.Idx) :
    ∃ pc ∈ ([⟨allO2, p0⟩] : List (View.Piece (Elt F) S2000x64 .f32)), y ∈ pc.1.set :=
  View.cover_of_tiled [⟨allO2, p0⟩] S2000x64.size (by rfl) y

set_option maxHeartbeats 1000000 in
/-- The body on whole staging buffers, the operands' at contents `a`, `b` and the output's at anything: it runs to
    its continuation with the operands' buffers as they were and the output's at `prod2 a b`. -/
theorem body2_triple (c : Dev nD) (E : Set ℕ) (i : grid2.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (a : Vec F S2000x128 .f32) (b : Vec F S128x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod2 a b)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod2_cover _)

/-- The pipeline's proof data on core `c`: the arrays as the region finds them; after the body at point `t` each
    operand's buffer still at its block and the output's at the product of the two blocks; the invariant is the
    untouched rest (the scoped buffers no window stages and the generator register); nothing owed; every array at the full share. -/
def data2 (c : Dev nD) : Dat τ (Elt F) Unit ℕ (Pipeline.UD sig nD τ) ℕ cfg2 c where
  A w := V c (Pipeline.arrRef spec2 w)
  after w t := match w with
    | ⟨0, _⟩ => inBlk2 V c 0 t
    | ⟨1, _⟩ => inBlk2 V c 1 t
    | ⟨2, _⟩ => prod2 (inBlk2 V c 0 t) (inBlk2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_lhs (c : Dev nD) (t : Fin cfg2.N) : (data2 V c).after 0 t = inBlk2 V c 0 t := by dsimp only [data2]
theorem data2_after_rhs (c : Dev nD) (t : Fin cfg2.N) : (data2 V c).after 1 t = inBlk2 V c 1 t := by dsimp only [data2]
theorem data2_after_out (c : Dev nD) (t : Fin cfg2.N) : (data2 V c).after 2 t = prod2 (inBlk2 V c 0 t) (inBlk2 V c 1 t) := by dsimp only [data2]
theorem data2_before_lhs (c : Dev nD) (t : Fin cfg2.N) (d) : (data2 V c).before 0 t d = inBlk2 V c 0 t :=
  held2_lhs V (data2 V c) (data2_A V c 0) (data2_after_lhs V c) t d
theorem data2_before_rhs (c : Dev nD) (t : Fin cfg2.N) (d) : (data2 V c).before 1 t d = inBlk2 V c 1 t :=
  held2_rhs V (data2 V c) (data2_A V c 1) (data2_after_rhs V c) t d

/-- What the body is handed at point `t`, the windows written out one by one, -/
def handed2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it hands back. -/
def returned2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

/-- The body at any point: the operands' buffers hold their blocks, so the triple applies; the invariant and what the
    core owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [data2_before_lhs, data2_before_rhs]
  rw [show (data2 V c).Φ t.succ = (data2 V c).Φ t.castSucc from rfl,
    show (data2 V c).owesAt () t.succ = (data2 V c).owesAt () t.castSucc from rfl,
    data2_after_lhs, data2_after_rhs, data2_after_out]
  iintro ⟨HΦ, Ho, ⟨%d0, H0⟩, ⟨%d1, H1⟩, ⟨%d2, H2⟩⟩
  iapply (body2_triple c Set.univ _ _ _ _ _ _ _ (inBlk2 V c 0 t) (inBlk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body2_obligation (c : Dev nD) : BodyObligation (data2 (F := F) V c) (defs₀ (F := F)) Variants.none () Set.univ := fun t => by
  rw [bigSep_W2, bigSep_W2]
  exact body2_at V c t

end Cert.KernelIdeal.Hand

end
-- ==== Proof.KIRegion3.lean ====
/- | ⟨0, _⟩ => fullShare.left
    | ⟨1, _⟩ => fullShare.right
    | ⟨2, _⟩ => fullShare' 'cfg0 ==> cfg3' 'spec0 ==> spec3' 'grid0 ==> grid3' 'cc0_kernel ==> cc3_kernel' 'k0_pay1 ==> k3_pay1' 'st0_ ==> st3_' 'bodyAt0 ==> bodyAt3' 'bigSep_W0 ==> bigSep_W3' 'inBlk0 ==> inBlk3' 'held0_ ==> held3_' 'allA0 ==> allA3' 'allB0 ==> allB3' 'allO0 ==> allO3' 'prod0 ==> prod3' 'body0_ ==> body3_' 'data0 ==> data3' 'handed0 ==> handed3' 'returned0 ==> returned3' -/
/-
  Region 3 of the program (the inner-product decode, a row block of the latent array against the whole latent array, both windows on ONE array): one row block of the left operand and the whole right operand are staged,
  the body multiplies them into a zero accumulator and stores the product over the whole output block.  Stated at a
  parameter `V`, the contents of the core's buffers when the region is entered: what each staged block is, what the
  body leaves in the output block (a single piece covering it), the body's triple, and the pipeline's proof data
  with its body obligation at every grid point.
-/
import proofs.«105611_j55456617726630_1_alg».proof.Proof.Gen.KernelIdeal.Launch
import proofs.«105611_j55456617726630_1_alg».proof.Proof.Gen.KernelIdeal.Skeleton
import proofs.«105611_j55456617726630_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block of window `w` at grid point `t`, cut out of the window's array at the entry contents. -/
def inBlk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point: the window is fetched whole wherever its block
    index moves, and the body leaves it as it found it. -/
theorem held3_lhs {c : Dev nD} (dat : Dat τ (Elt F) Unit ℕ (Pipeline.UD sig nD τ) ℕ cfg3 c) (hA : dat.A 0 = V c (Pipeline.arrRef spec3 0))
    (hafter : ∀ t, dat.after 0 t = inBlk3 V c 0 t) (t : Fin cfg3.N) (d) : dat.before 0 t d = inBlk3 V c 0 t :=
  (dat.before_in_eq_fetched 0 rfl (fun _ => rfl) (fun _ _ _ => rfl) (fun t => by rw [hafter]; unfold Dat.blockOf inBlk3; rw [hA]; try rfl) t d).trans
    (by unfold Dat.fetched Dat.blockOf inBlk3; rw [hA]; try rfl)

/-- The right operand's staging buffer likewise (its block index never moves: it is fetched once and kept). -/
theorem held3_rhs {c : Dev nD} (dat : Dat τ (Elt F) Unit ℕ (Pipeline.UD sig nD τ) ℕ cfg3 c) (hA : dat.A 1 = V c (Pipeline.arrRef spec3 1))
    (hafter : ∀ t, dat.after 1 t = inBlk3 V c 1 t) (t : Fin cfg3.N) (d) : dat.before 1 t d = inBlk3 V c 1 t :=
  (dat.before_in_eq_fetched 1 rfl (fun _ => rfl) (fun _ _ _ => rfl) (fun t => by rw [hafter]; unfold Dat.blockOf inBlk3; rw [hA]; try rfl) t d).trans
    (by unfold Dat.fetched Dat.blockOf inBlk3; rw [hA]; try rfl)

/-- The rectangles the body reads and writes: each is its buffer's whole extent. -/
abbrev allA3 : Rect S200x64 := Rect.unit (s := S200x64) ![0, 0] S200x64.size inb_S200x64_S200x64_0_0
abbrev allB3 : Rect S10000x64 := Rect.unit (s := S10000x64) ![0, 0] S10000x64.size inb_S10000x64_S10000x64_0_0
abbrev allO3 : Rect S200x10000 := Rect.unit (s := S200x10000) ![0, 0] S200x10000.size inb_S200x10000_S200x10000_0_0

/-- What the body leaves in the output block: its one store, the product of the two staged operands, as the only
    piece. -/
def prod3 (a : Vec F S200x64 .f32) (b : Vec F S10000x64 .f32) : Vec F S200x10000 .f32 :=
  View.canon [⟨allO3, k3_pay1 (View.ld a allA3) (View.ld b allB3)⟩]

/-- That one piece covers the block. -/
theorem prod3_cover (p0 : Vec F S200x10000 .f32) (y : S200x10000.Idx) :
    ∃ pc ∈ ([⟨allO3, p0⟩] : List (View.Piece (Elt F) S200x10000 .f32)), y ∈ pc.1.set :=
  View.cover_of_tiled [⟨allO3, p0⟩] S200x10000.size (by rfl) y

set_option maxHeartbeats 1000000 in
/-- The body on whole staging buffers, the operands' at contents `a`, `b` and the output's at anything: it runs to
    its continuation with the operands' buffers as they were and the output's at `prod3 a b`. -/
theorem body3_triple (c : Dev nD) (E : Set ℕ) (i : grid3.Coords) (arg1 : Memref sig .tc .vmem S200x64 .f32) (harg1 : arg1.IsWhole) (arg2 : Memref sig .tc .vmem S10000x64 .f32) (harg2 : arg2.IsWhole) (arg3 : Memref sig .tc .vmem S200x10000 .f32) (harg3 : arg3.IsWhole)
    (a : Vec F S200x64 .f32) (b : Vec F S10000x64 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (prod3 a b)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod3_cover _)

/-- The pipeline's proof data on core `c`: the arrays as the region finds them; after the body at point `t` each
    operand's buffer still at its block and the output's at the product of the two blocks; the invariant is the
    untouched rest (the scoped buffers no window stages and the generator register); nothing owed; the two operand windows sit on one array and hold its left and right half shares, the output its array whole. -/
def data3 (c : Dev nD) : Dat τ (Elt F) Unit ℕ (Pipeline.UD sig nD τ) ℕ cfg3 c where
  A w := V c (Pipeline.arrRef spec3 w)
  after w t := match w with
    | ⟨0, _⟩ => inBlk3 V c 0 t
    | ⟨1, _⟩ => inBlk3 V c 1 t
    | ⟨2, _⟩ => prod3 (inBlk3 V c 0 t) (inBlk3 V c 1 t)
  Φ _ := Pipeline.ΦA spec3 c
  q w := match w with
    | ⟨0, _⟩ => fullShare.left
    | ⟨1, _⟩ => fullShare.right
    | ⟨2, _⟩ => fullShare
  owed _ := 0

theorem data3_A (c : Dev nD) (w : Fin cfg3.W) : (data3 V c).A w = V c (Pipeline.arrRef spec3 w) := by
  dsimp only [data3]
theorem data3_after_lhs (c : Dev nD) (t : Fin cfg3.N) : (data3 V c).after 0 t = inBlk3 V c 0 t := by dsimp only [data3]
theorem data3_after_rhs (c : Dev nD) (t : Fin cfg3.N) : (data3 V c).after 1 t = inBlk3 V c 1 t := by dsimp only [data3]
theorem data3_after_out (c : Dev nD) (t : Fin cfg3.N) : (data3 V c).after 2 t = prod3 (inBlk3 V c 0 t) (inBlk3 V c 1 t) := by dsimp only [data3]
theorem data3_before_lhs (c : Dev nD) (t : Fin cfg3.N) (d) : (data3 V c).before 0 t d = inBlk3 V c 0 t :=
  held3_lhs V (data3 V c) (data3_A V c 0) (data3_after_lhs V c) t d
theorem data3_before_rhs (c : Dev nD) (t : Fin cfg3.N) (d) : (data3 V c).before 1 t d = inBlk3 V c 1 t :=
  held3_rhs V (data3 V c) (data3_A V c 1) (data3_after_rhs V c) t d

/-- What the body is handed at point `t`, the windows written out one by one, -/
def handed3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it hands back. -/
def returned3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the operands' buffers hold their blocks, so the triple applies; the invariant and what the
    core owes pass through untouched. -/
theorem body3_at (c : Dev nD) (t : Fin cfg3.N) :
    handed3 V c t ⊢ wp frame (wpE (defs₀ (F := F)) Variants.none c none) Set.univ (bodyAt3 t) (fun _ => returned3 V c t) := by
  unfold handed3 returned3 bodyAt3
  simp only [data3_before_lhs, data3_before_rhs]
  rw [show (data3 V c).Φ t.succ = (data3 V c).Φ t.castSucc from rfl,
    show (data3 V c).owesAt () t.succ = (data3 V c).owesAt () t.castSucc from rfl,
    data3_after_lhs, data3_after_rhs, data3_after_out]
  iintro ⟨HΦ, Ho, ⟨%d0, H0⟩, ⟨%d1, H1⟩, ⟨%d2, H2⟩⟩
  iapply (body3_triple c Set.univ _ _ _ _ _ _ _ (inBlk3 V c 0 t) (inBlk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body3_obligation (c : Dev nD) : BodyObligation (data3 (F := F) V c) (defs₀ (F := F)) Variants.none () Set.univ := fun t => by
  rw [bigSep_W3, bigSep_W3]
  exact body3_at V c t

end Cert.KernelIdeal.Hand

end
-- ==== Proof.KIChain.lean ====
/-
  The contents of a core's buffers at every boundary between the items of the program, fixed once: the launch contents
  through the first three host stretches; then, region by region, the array the region writes replaced by what the
  pipeline leaves there (its output block at every grid point, written back in point order) and the next host
  stretches applied.  Each region's proof data is taken at the contents it is entered from.  The family `left` lists
  what the regions leave, in the form the generated conditional frame's valuations are written over, and
  `leftK_eq` identify those valuations with the ones fixed here.
-/
import proofs.«105611_j55456617726630_1_alg».proof.Proof.KIRegion0
import proofs.«105611_j55456617726630_1_alg».proof.Proof.KIRegion1
import proofs.«105611_j55456617726630_1_alg».proof.Proof.KIRegion2
import proofs.«105611_j55456617726630_1_alg».proof.Proof.KIRegion3
import proofs.«105611_j55456617726630_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

/-- A core's buffer contents read at the TensorCore's references: the form the regions' proof data take. -/
abbrev atRefs (W : Dev nD → Valuation τ sig (Elt F)) : (c : Dev nD) → (b : Ref sig .tc) → Buf (Elt F) ((c : Thread nD τ).loc b) :=
  fun c b => W c b

/-- Entering region 0: the launch contents after the first three host stretches. -/
def into0 : Dev nD → Valuation τ sig (Elt F) := fun c => Gen.V3 m c
/-- What region 0 leaves in the array it writes. -/
def out0 (c : Dev nD) : Buf (Elt F) ((c : Thread nD τ).loc main_v32) := (data0 (atRefs (into0 m)) c).arrAt 2 cfg0.N
/-- Leaving region 0. -/
def from0 : Dev nD → Valuation τ sig (Elt F) := fun c => Function.update (into0 m c) main_v32 (out0 m c)

/-- Entering region 1: two more host stretches. -/
def into1 : Dev nD → Valuation τ sig (Elt F) := fun c => StableHlo.after hostOps1_1 (StableHlo.after hostOps1 (from0 m c))
def out1 (c : Dev nD) : Buf (Elt F) ((c : Thread nD τ).loc main_v50) := (data1 (atRefs (into1 m)) c).arrAt 2 cfg1.N
def from1 : Dev nD → Valuation τ sig (Elt F) := fun c => Function.update (into1 m c) main_v50 (out1 m c)

/-- Entering region 2: one more host stretch. -/
def into2 : Dev nD → Valuation τ sig (Elt F) := fun c => StableHlo.after hostOps2 (from1 m c)
def out2 (c : Dev nD) : Buf (Elt F) ((c : Thread nD τ).loc main_v67) := (data2 (atRefs (into2 m)) c).arrAt 2 cfg2.N
def from2 : Dev nD → Valuation τ sig (Elt F) := fun c => Function.update (into2 m c) main_v67 (out2 m c)

/-- Entering region 3: the last host stretch. -/
def into3 : Dev nD → Valuation τ sig (Elt F) := fun c => StableHlo.after hostOps3 (from2 m c)
def out3 (c : Dev nD) : Buf (Elt F) ((c : Thread nD τ).loc main_v84) := (data3 (atRefs (into3 m)) c).arrAt 2 cfg3.N
/-- Leaving region 3: the contents at the return. -/
def from3 : Dev nD → Valuation τ sig (Elt F) := fun c => Function.update (into3 m c) main_v84 (out3 m c)

/-- What the regions leave, as the generated conditional frame reads it: after item J − 1 the contents fixed above. -/
def left : Gen.Outs (F := F) := fun n r c =>
  match n with
  | 4 => from0 m c r
  | 7 => from1 m c r
  | 9 => from2 m c r
  | 11 => from3 m c r
  | _ => into0 m c r

theorem left4_eq (c : Dev nD) : Gen.V4 m (left m) c = from0 m c := by
  show Function.update (Gen.V3 m c) _ (from0 m c _) = from0 m c
  unfold from0 into0; rw [Function.update_self]
theorem left6_eq (c : Dev nD) : Gen.V6 m (left m) c = into1 m c := by
  show StableHlo.after hostOps1_1 (StableHlo.after hostOps1 (Gen.V4 m (left m) c)) = _
  rw [left4_eq]; rfl
theorem left7_eq (c : Dev nD) : Gen.V7 m (left m) c = from1 m c := by
  show Function.update (Gen.V6 m (left m) c) _ (from1 m c _) = from1 m c
  rw [left6_eq]; unfold from1; rw [Function.update_self]
theorem left8_eq (c : Dev nD) : Gen.V8 m (left m) c = into2 m c := by
  show StableHlo.after hostOps2 (Gen.V7 m (left m) c) = _
  rw [left7_eq]; rfl
theorem left9_eq (c : Dev nD) : Gen.V9 m (left m) c = from2 m c := by
  show Function.update (Gen.V8 m (left m) c) _ (from2 m c _) = from2 m c
  rw [left8_eq]; unfold from2; rw [Function.update_self]
theorem left10_eq (c : Dev nD) : Gen.V10 m (left m) c = into3 m c := by
  show StableHlo.after hostOps3 (Gen.V9 m (left m) c) = _
  rw [left9_eq]; rfl
theorem left11_eq (c : Dev nD) : Gen.V11 m (left m) c = from3 m c := by
  show Function.update (Gen.V10 m (left m) c) _ (from3 m c _) = from3 m c
  rw [left10_eq]; unfold from3; rw [Function.update_self]

/-- Every pipeline's proof data, each at the contents its region is entered from. -/
def family : (p : Fin 4) → (c : Dev nD) → Dat τ (Elt F) Unit ℕ (Pipeline.UD sig nD τ) ℕ (cfgs p) c
  | ⟨0, _⟩ => fun c => data0 (atRefs (into0 m)) c
  | ⟨1, _⟩ => fun c => data1 (atRefs (into1 m)) c
  | ⟨2, _⟩ => fun c => data2 (atRefs (into2 m)) c
  | ⟨3, _⟩ => fun c => data3 (atRefs (into3 m)) c

/-- No core owes another anything, so no level is assigned. -/
abbrev noPairs : GSem nD τ sig → Finset Unit := fun _ => ∅
abbrev noLevel : GSem nD τ sig → Unit → ℕ := fun _ _ => 0

/-- What a core holds between items besides its unscoped buffers: its unscoped semaphores at zero, its generator
    register at some state, and that it owes nothing. -/
abbrev beside (c : Dev nD) : sProp 𝕄 :=
  iprop(unscopedSems0 c ∗ (∃ r, prngReg c r) ∗ ∃ W, owes (c : Thread nD τ) (0 : CellTallies nD τ sig Unit) W)

end Cert.KernelIdeal.Hand

end
-- ==== Proof.KISeg0.lean ====
/-
  Region 0 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KIChain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from0_of_ne (c : Dev nD) (b : Ref sig .tc) (hb : b ≠ main_v32) : from0 m c b = into0 m c b := by
  unfold from0; exact Function.update_of_ne (StableHlo.devRef_ne_of_ne hb) ..
theorem from0_self (c : Dev nD) : from0 m c main_v32 = out0 m c := by
  unfold from0; exact Function.update_self ..

/-- The proof data's arrays are the entry contents at the windows' arrays. -/
theorem family0_A (c : Dev nD) (w : Fin cfg0.W) : (family m (0 : Fin 4) c).A w = atRefs (into0 m) c (Pipeline.arrRef spec0 w) := rfl

/-- The region's arrays after its last point are the exit contents at them: an operand's array is never written,
    the output's is what the write-backs made of it. -/
theorem arrs0_after (c : Dev nD) (w : Fin cfg0.W) :
    (family m (0 : Fin 4) c).arrAt w cfg0.N = atRefs (from0 m) c (Pipeline.arrRef spec0 w) := by
  have h0 : Pipeline.arrRef spec0 (0 : Fin cfg0.W) ≠ main_v32 := by decide
  have h1 : Pipeline.arrRef spec0 (1 : Fin cfg0.W) ≠ main_v32 := by decide
  match w with
  | ⟨0, _⟩ => exact ((family m (0 : Fin 4) c).arrAt_in _ rfl _).trans ((family0_A m c _).trans (from0_of_ne m c _ h0).symm)
  | ⟨1, _⟩ => exact ((family m (0 : Fin 4) c).arrAt_in _ rfl _).trans ((family0_A m c _).trans (from0_of_ne m c _ h1).symm)
  | ⟨2, _⟩ => exact (from0_self m c).symm

/-- Every buffer that is no array of the region is left as entered. -/
theorem rest0_kept (c : Dev nD) : ∀ b, b ∉ Finset.univ.image (Pipeline.arrRef spec0) → atRefs (from0 m) c b = atRefs (into0 m) c b :=
  fun b hb => from0_of_ne m c b fun e => hb (Finset.mem_image.mpr ⟨2, Finset.mem_univ _, e.symm⟩)

set_option backward.isDefEq.respectTransparency.types false in
/-- Region 0's segment record. -/
def seg0 : RegionSeg (pcfgs (F := F)) Gen.adm (family m) () defs₀ Variants.none noPairs noLevel (0 : Fin 4) where
  win := launch0.win.to₀
  block_pos := launch0.block_pos
  stage_whole := launch0.stage_whole
  K := PEmpty
  osem k := k.elim
  ho := Pipeline.OwnSemFacts.none _
  hbody c := (body0_obligation (atRefs (into0 m)) c).loose
  hwaits := Pipeline.hwaits_of_owed_zero _ _ _ _ noPairs noLevel (0 : Fin 4) fun _ _ => rfl
  pre c := iprop(StableHlo.held (c : Thread nD τ) (Pipeline.ucRefs τ sig) (into0 m c) ∗ beside c)
  post c := iprop(StableHlo.held (c : Thread nD τ) (Pipeline.ucRefs τ sig) (from0 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec0 c (atRefs (into0 m) c))
  hentry c := by
    rw [Pipeline.ownSems0_none]
    have hsplit := Pipeline.arrays_of_unscopedBufs (p := (0 : Fin 4)) (pcfgs (F := F)) Gen.adm (family m) launch0.win launch0.arr_whole c
      ((family m (0 : Fin 4) c).share_full fun _ => rfl) (atRefs (into0 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (0 : Fin 4) c).Φ 0 = Pipeline.ΦA spec0 c from rfl]; unfold Pipeline.ΦA
    iintro ⟨Hp, -, Hr⟩
    isplitl [Hr]; · iexact Hr
    iexact Hp
  hout c := by
    rw [Pipeline.ownSems0_none, show (family m (0 : Fin 4) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 4)) (pcfgs (F := F)) Gen.adm (Ix := Unit) (Name := ℕ) (U := Pipeline.UD sig nD τ) (Lvl := ℕ)
      launch0.win launch0.arr_whole c (family m) ((family m (0 : Fin 4) c).share_full fun _ => rfl)
      (atRefs (into0 m) c) (atRefs (from0 m) c) ((family m (0 : Fin 4) c).arrAt · cfg0.N) (arrs0_after m c) (rest0_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.KernelIdeal.Hand

end
-- ==== Proof.KISeg1.lean ====
/-
  Region 1 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KIChain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from1_of_ne (c : Dev nD) (b : Ref sig .tc) (hb : b ≠ main_v50) : from1 m c b = into1 m c b := by
  unfold from1; exact Function.update_of_ne (StableHlo.devRef_ne_of_ne hb) ..
theorem from1_self (c : Dev nD) : from1 m c main_v50 = out1 m c := by
  unfold from1; exact Function.update_self ..

/-- The proof data's arrays are the entry contents at the windows' arrays. -/
theorem family1_A (c : Dev nD) (w : Fin cfg1.W) : (family m (1 : Fin 4) c).A w = atRefs (into1 m) c (Pipeline.arrRef spec1 w) := rfl

/-- The region's arrays after its last point are the exit contents at them: an operand's array is never written,
    the output's is what the write-backs made of it. -/
theorem arrs1_after (c : Dev nD) (w : Fin cfg1.W) :
    (family m (1 : Fin 4) c).arrAt w cfg1.N = atRefs (from1 m) c (Pipeline.arrRef spec1 w) := by
  have h0 : Pipeline.arrRef spec1 (0 : Fin cfg1.W) ≠ main_v50 := by decide
  have h1 : Pipeline.arrRef spec1 (1 : Fin cfg1.W) ≠ main_v50 := by decide
  match w with
  | ⟨0, _⟩ => exact ((family m (1 : Fin 4) c).arrAt_in _ rfl _).trans ((family1_A m c _).trans (from1_of_ne m c _ h0).symm)
  | ⟨1, _⟩ => exact ((family m (1 : Fin 4) c).arrAt_in _ rfl _).trans ((family1_A m c _).trans (from1_of_ne m c _ h1).symm)
  | ⟨2, _⟩ => exact (from1_self m c).symm

/-- Every buffer that is no array of the region is left as entered. -/
theorem rest1_kept (c : Dev nD) : ∀ b, b ∉ Finset.univ.image (Pipeline.arrRef spec1) → atRefs (from1 m) c b = atRefs (into1 m) c b :=
  fun b hb => from1_of_ne m c b fun e => hb (Finset.mem_image.mpr ⟨2, Finset.mem_univ _, e.symm⟩)

set_option backward.isDefEq.respectTransparency.types false in
/-- Region 1's segment record. -/
def seg1 : RegionSeg (pcfgs (F := F)) Gen.adm (family m) () defs₀ Variants.none noPairs noLevel (1 : Fin 4) where
  win := launch1.win.to₀
  block_pos := launch1.block_pos
  stage_whole := launch1.stage_whole
  K := PEmpty
  osem k := k.elim
  ho := Pipeline.OwnSemFacts.none _
  hbody c := (body1_obligation (atRefs (into1 m)) c).loose
  hwaits := Pipeline.hwaits_of_owed_zero _ _ _ _ noPairs noLevel (1 : Fin 4) fun _ _ => rfl
  pre c := iprop(StableHlo.held (c : Thread nD τ) (Pipeline.ucRefs τ sig) (into1 m c) ∗ beside c)
  post c := iprop(StableHlo.held (c : Thread nD τ) (Pipeline.ucRefs τ sig) (from1 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec1 c (atRefs (into1 m) c))
  hentry c := by
    rw [Pipeline.ownSems0_none]
    have hsplit := Pipeline.arrays_of_unscopedBufs (p := (1 : Fin 4)) (pcfgs (F := F)) Gen.adm (family m) launch1.win launch1.arr_whole c
      ((family m (1 : Fin 4) c).share_full fun _ => rfl) (atRefs (into1 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (1 : Fin 4) c).Φ 0 = Pipeline.ΦA spec1 c from rfl]; unfold Pipeline.ΦA
    iintro ⟨Hp, -, Hr⟩
    isplitl [Hr]; · iexact Hr
    iexact Hp
  hout c := by
    rw [Pipeline.ownSems0_none, show (family m (1 : Fin 4) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 4)) (pcfgs (F := F)) Gen.adm (Ix := Unit) (Name := ℕ) (U := Pipeline.UD sig nD τ) (Lvl := ℕ)
      launch1.win launch1.arr_whole c (family m) ((family m (1 : Fin 4) c).share_full fun _ => rfl)
      (atRefs (into1 m) c) (atRefs (from1 m) c) ((family m (1 : Fin 4) c).arrAt · cfg1.N) (arrs1_after m c) (rest1_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.KernelIdeal.Hand

end
-- ==== Proof.KISeg2.lean ====
/-
  Region 2 as a segment of the program: entered holding every unscoped buffer at the contents fixed for its entry, it
  takes its three arrays out of them (they are distinct buffers, each held whole), runs the pipeline on them, and
  puts them back with the written array at what the pipeline left: the contents fixed for its exit.  The generator
  register goes through the pipeline's invariant; the unscoped semaphores and every other buffer pass the region by.
-/
import proofs.«105611_j55456617726630_1_alg».proof.Proof.KIChain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from2_of_ne (c : Dev nD) (b : Ref sig .tc) (hb : b ≠ main_v67) : from2 m c b = into2 m c b := by
  unfold from2; exact Function.update_of_ne (StableHlo.devRef_ne_of_ne hb) ..
theorem from2_self (c : Dev nD) : from2 m c main_v67 = out2 m c := by
  unfold from2; exact Function.update_self ..

/-- The proof data's arrays are the entry contents at the windows' arrays. -/
theorem family2_A (c : Dev nD) (w : Fin cfg2.W) : (family m (2 : Fin 4) c).A w = atRefs (into2 m) c (Pipeline.arrRef spec2 w) := rfl

/-- The region's arrays after its last point are the exit contents at them: an operand's array is never written,
    the output's is what the write-backs made of it. -/
theorem arrs2_after (c : Dev nD) (w : Fin cfg2.W) :
    (family m (2 : Fin 4) c).arrAt w cfg2.N = atRefs (from2 m) c (Pipeline.arrRef spec2 w) := by
  have h0 : Pipeline.arrRef spec2 (0 : Fin cfg2.W) ≠ main_v67 := by decide
  have h1 : Pipeline.arrRef spec2 (1 : Fin cfg2.W) ≠ main_v67 := by decide
  match w with
  | ⟨0, _⟩ => exact ((family m (2 : Fin 4) c).arrAt_in _ rfl _).trans ((family2_A m c _).trans (from2_of_ne m c _ h0).symm)
  | ⟨1, _⟩ => exact ((family m (2 : Fin 4) c).arrAt_in _ rfl _).trans ((family2_A m c _).trans (from2_of_ne m c _ h1).symm)
  | ⟨2, _⟩ => exact (from2_self m c).symm

/-- Every buffer that is no array of the region is left as entered. -/
theorem rest2_kept (c : Dev nD) : ∀ b, b ∉ Finset.univ.image (Pipeline.arrRef spec2) → atRefs (from2 m) c b = atRefs (into2 m) c b :=
  fun b hb => from2_of_ne m c b fun e => hb (Finset.mem_image.mpr ⟨2, Finset.mem_univ _, e.symm⟩)

set_option backward.isDefEq.respectTransparency.types false in
/-- Region 2's segment record. -/
def seg2 : RegionSeg (pcfgs (F := F)) Gen.adm (family m) () defs₀ Variants.none noPairs noLevel (2 : Fin 4) where
  win := launch2.win.to₀
  block_pos := launch2.block_pos
  stage_whole := launch2.stage_whole
  K := PEmpty
  osem k := k.elim
  ho := Pipeline.OwnSemFacts.none _
  hbody c := (body2_obligation (atRefs (into2 m)) c).loose
  hwaits := Pipeline.hwaits_of_owed_zero _ _ _ _ noPairs noLevel (2 : Fin 4) fun _ _ => rfl
  pre c := iprop(StableHlo.held (c : Thread nD τ) (Pipeline.ucRefs τ sig) (into2 m c) ∗ beside c)
  post c := iprop(StableHlo.held (c : Thread nD τ) (Pipeline.ucRefs τ sig) (from2 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec2 c (atRefs (into2 m) c))
  hentry c := by
    rw [Pipeline.ownSems0_none]
    have hsplit := Pipeline.arrays_of_unscopedBufs (p := (2 : Fin 4)) (pcfgs (F := F)) Gen.adm (family m) launch2.win launch2.arr_whole c
      ((family m (2 : Fin 4) c).share_full fun _ => rfl) (atRefs (into2 m) c) fun _ => rfl
    rw [Pipeline.unscopedBufs_held] at hsplit
    iintro ⟨⟨Hub, Hs, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (2 : Fin 4) c).Φ 0 = Pipeline.ΦA spec2 c from rfl]; unfold Pipeline.ΦA
    iintro ⟨Hp, -, Hr⟩
    isplitl [Hr]; · iexact Hr
    iexact Hp
  hout c := by
    rw [Pipeline.ownSems0_none, show (family m (2 : Fin 4) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 4)) (pcfgs (F := F)) Gen.adm (Ix := Unit) (Name := ℕ) (U := Pipeline.UD sig nD τ) (Lvl := ℕ)
      launch2.win launch2.arr_whole c (family m) ((family m (2 : Fin 4) c).share_full fun _ => rfl)
      (atRefs (into2 m) c) (atRefs (from2 m) c) ((family m (2 : Fin 4) c).arrAt · cfg2.N) (arrs2_after m c) (rest2_kept m c)
    rw [Pipeline.unscopedBufs_held] at hjoin
    iintro ⟨Ha, HO, HY, Hs, Hrest⟩
    imodintro
    isplitl [Ha Hrest]
    · iapply hjoin; isplitl [Ha] <;> iassumption
    isplitl [Hs]; · iexact Hs
    isplitl [HY]; · iexact HY
    unfold Pipeline.Dat.owesAt Pipeline.owesWithin
    icases HO with ⟨%W, -, HO⟩; iexists W; iexact HO

end Cert.KernelIdeal.Hand

end
-- ==== Proof.KISeg3.lean ====
/-
  Region 3 as a segment of the program.  Its two operand windows sit on ONE array, the latent array: at entry that
  array, held whole at the full share among the core's unscoped buffers, is dealt to the two windows as its left and
  right half shares (the output window's array is held whole); at exit the two halves, both still at the entry
  contents since an operand's array is never written, are joined back into the full share, and the written array is
  put back at what the pipeline left: the contents fixed for the region's exit.
-/
import proofs.«105611_j55456617726630_1_alg».proof.Proof.KIChain
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (Pipeline.UD sig nD τ) ℕ

variable (m : (ℓ : Loc nD τ sig) → Buf (Elt F) ℓ)

/-- Off the written array the exit contents are the entry's; on it, what the pipeline left. -/
theorem from3_of_ne (c : Dev nD) (b : Ref sig .tc) (hb : b ≠ main_v84) : from3 m c b = into3 m c b := by
  unfold from3; exact Function.update_of_ne (StableHlo.devRef_ne_of_ne hb) ..
theorem from3_self (c : Dev nD) : from3 m c main_v84 = out3 m c := by
  unfold from3; exact Function.update_self ..

/-- The proof data's arrays are the entry contents at the windows' arrays. -/
theorem family3_A (c : Dev nD) (w : Fin cfg3.W) : (family m (3 : Fin 4) c).A w = atRefs (into3 m) c (Pipeline.arrRef spec3 w) := rfl

/-- The region's arrays after its last point are the exit contents at them: an operand's array is never written,
    the output's is what the write-backs made of it. -/
theorem arrs3_after (c : Dev nD) (w : Fin cfg3.W) :
    (family m (3 : Fin 4) c).arrAt w cfg3.N = atRefs (from3 m) c (Pipeline.arrRef spec3 w) := by
  have h0 : Pipeline.arrRef spec3 (0 : Fin cfg3.W) ≠ main_v84 := by decide
  have h1 : Pipeline.arrRef spec3 (1 : Fin cfg3.W) ≠ main_v84 := by decide
  match w with
  | ⟨0, _⟩ => exact ((family m (3 : Fin 4) c).arrAt_in _ rfl _).trans ((family3_A m c _).trans (from3_of_ne m c _ h0).symm)
  | ⟨1, _⟩ => exact ((family m (3 : Fin 4) c).arrAt_in _ rfl _).trans ((family3_A m c _).trans (from3_of_ne m c _ h1).symm)
  | ⟨2, _⟩ => exact (from3_self m c).symm

/-- Every buffer that is no array of the region is left as entered. -/
theorem rest3_kept (c : Dev nD) : ∀ b, b ∉ Finset.univ.image (Pipeline.arrRef spec3) → atRefs (from3 m) c b = atRefs (into3 m) c b :=
  fun b hb => from3_of_ne m c b fun e => hb (Finset.mem_image.mpr ⟨2, Finset.mem_univ _, e.symm⟩)

/-- The buffers behind region 3's three windows are two: the latent array, read through both operand windows, and the
    array the region writes. -/
theorem arrRefs3 : Finset.univ.image (Pipeline.arrRef spec3) = ([main_v66, main_v84] : List (Ref sig .tc)).toFinset := by decide

/-- Those two buffers, each whole at the full share at contents `V`, one by one. -/
theorem arrBufs3_eq (c : Dev nD) (V : (b : Ref sig .tc) → Buf (Elt F) ((c : Thread nD τ).loc b)) :
    (Pipeline.arrBufs (Ix := Unit) (Name := ℕ) (U := Pipeline.UD sig nD τ) (Lvl := ℕ) spec3 c V : sProp 𝕄)
      = iprop((((c : Thread nD τ).loc main_v66) ↦{fullShare} V main_v66) ∗ (((c : Thread nD τ).loc main_v84) ↦{fullShare} V main_v84)) := by
  unfold Pipeline.arrBufs
  exact bigSep_eq_bigSepL_of_eq [main_v66, main_v84] arrRefs3 (by decide) _

set_option maxHeartbeats 1000000 in
/-- A window's array is a whole buffer: holding its view is holding every element of the buffer. -/
theorem arr3_at (c : Dev nD) (w : Fin cfg3.W) (q : PosShare TreeShare) (f : Buf (Elt F) ((cfg3.win w).arr.view.loc (c : Thread nD τ))) :
    ((cfg3.win w).arr.view.loc (c : Thread nD τ) ↦[(cfg3.win w).arr.view.set]{q} f : sProp 𝕄)
      = ((c : Thread nD τ).loc (Pipeline.arrRef spec3 w) ↦{q} f) := by
  rw [(arr_whole3 w).set_eq_univ]

set_option maxHeartbeats 1000000 in
/-- The region's arrays at contents read off a valuation `V` of the core's buffers, window by window: the latent
    array at the left half share (the row-block window) and at the right half share (the whole-array window), the
    written array at the full share. -/
theorem arrays3_eq (c : Dev nD) (V : (b : Ref sig .tc) → Buf (Elt F) ((c : Thread nD τ).loc b)) :
    (family m (3 : Fin 4) c).arrays (fun w => V (Pipeline.arrRef spec3 w))
      = iprop((((c : Thread nD τ).loc main_v66) ↦{fullShare.left} V main_v66)
          ∗ (((c : Thread nD τ).loc main_v66) ↦{fullShare.right} V main_v66)
          ∗ (((c : Thread nD τ).loc main_v84) ↦{fullShare} V main_v84)) := by
  unfold Dat.arrays
  refine (bigSep_congr fun w _ => arr3_at c w _ _).trans ((bigSep_W3 _).trans ?_)
  rfl

/-- Before the first point the arrays hold the entry contents; after the last, the exit contents. -/
theorem arrs3_entry (c : Dev nD) :
    ((family m (3 : Fin 4) c).arrAt · 0) = fun w => atRefs (into3 m) c (Pipeline.arrRef spec3 w) := rfl
theorem arrs3_exit (c : Dev nD) :
    ((family m (3 : Fin 4) c).arrAt · cfg3.N) = fun w => atRefs (from3 m) c (Pipeline.arrRef spec3 w) := funext (arrs3_after m c)

/-- ENTRY, the arrays' part: the latent array, whole at the full share, is dealt to the two operand windows as its
    left and right halves; the written array goes to the output window whole. -/
theorem arrays3_of_arrBufs (c : Dev nD) :
    (Pipeline.arrBufs (Ix := Unit) (Name := ℕ) (U := Pipeline.UD sig nD τ) (Lvl := ℕ) spec3 c (atRefs (into3 m) c) : sProp 𝕄)
      ⊢ (family m (3 : Fin 4) c).arrays ((family m (3 : Fin 4) c).arrAt · 0) := by
  rw [arrBufs3_eq, arrs3_entry]
  refine BIBase.Entails.trans ?_ (Entails.of_eq (arrays3_eq m c (atRefs (into3 m) c)).symm)
  iintro ⟨H66, H84⟩
  ihave H := (pointsTo_share (PosShare.mem_left_op_right fullShare)).1 $$ H66
  icases H with ⟨Hl, Hr⟩
  isplitl [Hl]; · iexact Hl
  isplitl [Hr]; · iexact Hr
  iexact H84

/-- EXIT, the arrays' part: the two halves of the latent array, both at the exit contents (which there are the
    entry's), join into the full share; the written array is held whole at what the pipeline left. -/
theorem arrBufs3_of_arrays (c : Dev nD) :
    (family m (3 : Fin 4) c).arrays ((family m (3 : Fin 4) c).arrAt · cfg3.N)
      ⊢ (Pipeline.arrBufs (Ix := Unit) (Name := ℕ) (U := Pipeline.UD sig nD τ) (Lvl := ℕ) spec3 c (atRefs (from3 m) c) : sProp 𝕄) := by
  rw [arrBufs3_eq, arrs3_exit]
  refine BIBase.Entails.trans (Entails.of_eq (arrays3_eq m c (atRefs (from3 m) c))) ?_
  iintro ⟨Hl, Hr, H84⟩
  isplitl [Hl Hr]
  · iapply (pointsTo_share (PosShare.mem_left_op_right fullShare)).2
    isplitl [Hl]; · iexact Hl
    iexact Hr
  iexact H84

/-- The buffers that are no array of the region hold at exit what they held at entry. -/
theorem rest3_eq (c : Dev nD) :
    (Pipeline.unscopedRest (Ix := Unit) (Name := ℕ) (U := Pipeline.UD sig nD τ) (Lvl := ℕ) spec3 c (atRefs (from3 m) c) : sProp 𝕄)
      = Pipeline.unscopedRest spec3 c (atRefs (into3 m) c) := by
  unfold Pipeline.unscopedRest
  exact bigSep_congr fun b hb => by rw [rest3_kept m c b (Finset.mem_sdiff.mp hb).2]

/-- ENTRY, the buffers' part: every unscoped buffer of the core at the entry contents is the region's arrays at
    their entry contents and the buffers that are no array of it. -/
theorem held3_split (c : Dev nD) :
    (StableHlo.held (c : Thread nD τ) (Pipeline.ucRefs τ sig) (into3 m c) : sProp 𝕄)
      ⊢ iprop((family m (3 : Fin 4) c).arrays ((family m (3 : Fin 4) c).arrAt · 0)
          ∗ Pipeline.unscopedRest (Ix := Unit) (Name := ℕ) (U := Pipeline.UD sig nD τ) (Lvl := ℕ) spec3 c (atRefs (into3 m) c)) := by
  rw [← Pipeline.unscopedBufs_held (Ix := Unit) (Name := ℕ) (U := Pipeline.UD sig nD τ) (Lvl := ℕ),
    Pipeline.unscopedBufs_split₀ cfgs (3 : Fin 4) winFacts₀3.arr_unscoped c]
  exact sep_mono (arrays3_of_arrBufs m c) .rfl

/-- EXIT, the buffers' part: the region's arrays at their final contents and the other buffers as entered are every
    unscoped buffer of the core at the exit contents. -/
theorem held3_join (c : Dev nD) :
    iprop((family m (3 : Fin 4) c).arrays ((family m (3 : Fin 4) c).arrAt · cfg3.N)
        ∗ Pipeline.unscopedRest (Ix := Unit) (Name := ℕ) (U := Pipeline.UD sig nD τ) (Lvl := ℕ) spec3 c (atRefs (into3 m) c))
      ⊢ (StableHlo.held (c : Thread nD τ) (Pipeline.ucRefs τ sig) (from3 m c) : sProp 𝕄) := by
  rw [← Pipeline.unscopedBufs_held (Ix := Unit) (Name := ℕ) (U := Pipeline.UD sig nD τ) (Lvl := ℕ),
    Pipeline.unscopedBufs_split₀ cfgs (3 : Fin 4) winFacts₀3.arr_unscoped c, ← rest3_eq]
  exact sep_mono (arrBufs3_of_arrays m c) .rfl

set_option backward.isDefEq.respectTransparency.types false in
/-- Region 3's segment record. -/
def seg3 : RegionSeg (pcfgs (F := F)) Gen.adm (family m) () defs₀ Variants.none noPairs noLevel (3 : Fin 4) where
  win := winFacts₀3
  block_pos := block_pos3
  stage_whole := stage_whole3
  K := PEmpty
  osem k := k.elim
  ho := Pipeline.OwnSemFacts.none _
  hbody c := (body3_obligation (atRefs (into3 m)) c).loose
  hwaits := Pipeline.hwaits_of_owed_zero _ _ _ _ noPairs noLevel (3 : Fin 4) fun _ _ => rfl
  pre c := iprop(StableHlo.held (c : Thread nD τ) (Pipeline.ucRefs τ sig) (into3 m c) ∗ beside c)
  post c := iprop(StableHlo.held (c : Thread nD τ) (Pipeline.ucRefs τ sig) (from3 m c) ∗ beside c)
  X c := iprop(∃ r, prngReg c r)
  Y c := iprop(∃ r, prngReg c r)
  Z c := iprop(unscopedSems0 c ∗ Pipeline.unscopedRest (Ix := Unit) (Name := ℕ) (U := Pipeline.UD sig nD τ) (Lvl := ℕ) spec3 c (atRefs (into3 m) c))
  hentry c := by
    rw [Pipeline.ownSems0_none]
    iintro ⟨⟨Hub, Hs, Hp, HO⟩, -, -⟩
    ihave H := (held3_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hs]; · iexact Hs
    iexact Hrest
  hin c := by
    rw [show (family m (3 : Fin 4) c).Φ 0 = Pipeline.ΦA spec3 c from rfl]; unfold Pipeline.ΦA
    iintro ⟨Hp, -, Hr⟩
    isplitl [Hr]; · iexact Hr
    iexact Hp
  hout c := by
    rw [Pipeline.ownSems0_none, show (family m (3 : Fin 4) c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hs, Hrest⟩
    imodintro
    isplitl [Ha Hrest]
    · iapply (held3_join m c); isplitl [Ha] <;> iassumption
    isplitl [Hs]; · iexact Hs
    isplitl [HY]; · iexact HY
    unfold Pipeline.Dat.owesAt Pipeline.owesWithin
    icases HO with ⟨%W, -, HO⟩; iexists W; iexact HO

end Cert.KernelIdeal.Hand

end
-- ==== Proof.KIRun.lean ====
/-
  The run of the whole program: its items in order — three host stretches, region 0, two stretches, region 1, a stretch,
  region 2, a stretch, region 3 — each entered from what the one before left, from any launch memory with every
  semaphore counter at zero.  Every weakly fair execution terminates without a fault, and at the end every unscoped
  buffer of every core holds the contents fixed for region 3's exit.  The arguments are among those buffers and no
  item writes one, so they end as launched.
-/
import proofs.«105611_j55456617726630_1_alg».proof.Proof.KISeg0
import proofs.«105611_j55456617726630_1_alg».proof.Proof.KISeg1
import proofs.«105611_j55456617726630_1_alg».proof.Proof.KISeg2
import proofs.«105611_j55456617726630_1_alg».proof.Proof.KISeg3

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

/-- What the launch deals a core besides its buffers is what it holds between items. -/
theorem beside_of_launch :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts noPairs noLevel)
      ⊢ (|={Set.univ}=> bigSep Finset.univ (fun c : Dev nD => beside (F := F) c) : sProp 𝕄) := by
  refine Pipeline.initEach noPairs noLevel fun c => ?_
  iintro ⟨⟨Hs, HO, -, Hp, -⟩, -⟩
  imodintro
  isplitl [Hs]; · iexact Hs
  isplitl [Hp]; · iexists _; iexact Hp
  iexists ∅; iexact HO

set_option backward.isDefEq.respectTransparency.types false in
/-- THE RUN. -/
theorem run_all :
    θ_run defs (onTc (τ := τ) (main (F := F))) ⟨m, fun _ => 0, ρ⟩
      (fun r => ∀ c : Dev nD, ∀ b ∈ Pipeline.ucRefs τ sig, r.2.mem ((c : Thread nD τ).1, b) = from3 m c b) := by
  have hpre0 : ∀ c : Dev nD, iprop(StableHlo.held (c : Thread nD τ) (Pipeline.ucRefs τ sig) (Gen.V3 m c) ∗ beside (F := F) c) ⊢ (seg0 m).pre c := fun c => .rfl
  have hpost0 : ∀ c : Dev nD, (seg0 m).post c ⊢ iprop(StableHlo.held (c : Thread nD τ) (Pipeline.ucRefs τ sig) (Gen.V4 m (left m) c) ∗ beside (F := F) c) := fun c => by
    rw [left4_eq]; exact .rfl
  have hpre1 : ∀ c : Dev nD, iprop(StableHlo.held (c : Thread nD τ) (Pipeline.ucRefs τ sig) (Gen.V6 m (left m) c) ∗ beside (F := F) c) ⊢ (seg1 m).pre c := fun c => by
    rw [left6_eq]; exact .rfl
  have hpost1 : ∀ c : Dev nD, (seg1 m).post c ⊢ iprop(StableHlo.held (c : Thread nD τ) (Pipeline.ucRefs τ sig) (Gen.V7 m (left m) c) ∗ beside (F := F) c) := fun c => by
    rw [left7_eq]; exact .rfl
  have hpre2 : ∀ c : Dev nD, iprop(StableHlo.held (c : Thread nD τ) (Pipeline.ucRefs τ sig) (Gen.V8 m (left m) c) ∗ beside (F := F) c) ⊢ (seg2 m).pre c := fun c => by
    rw [left8_eq]; exact .rfl
  have hpost2 : ∀ c : Dev nD, (seg2 m).post c ⊢ iprop(StableHlo.held (c : Thread nD τ) (Pipeline.ucRefs τ sig) (Gen.V9 m (left m) c) ∗ beside (F := F) c) := fun c => by
    rw [left9_eq]; exact .rfl
  have hpre3 : ∀ c : Dev nD, iprop(StableHlo.held (c : Thread nD τ) (Pipeline.ucRefs τ sig) (Gen.V10 m (left m) c) ∗ beside (F := F) c) ⊢ (seg3 m).pre c := fun c => by
    rw [left10_eq]; exact .rfl
  have hpost3 : ∀ c : Dev nD, (seg3 m).post c ⊢ iprop(StableHlo.held (c : Thread nD τ) (Pipeline.ucRefs τ sig) (Gen.V11 m (left m) c) ∗ beside (F := F) c) := fun c => by
    rw [left11_eq]; exact .rfl
  have hE4 : ∀ c : Dev nD, beside (F := F) c ⊢ (iprop(unscopedSems0 c ∗ (∃ r, prngReg c r)) ∗ ∃ W, owes (c : Thread nD τ) (0 : CellTallies nD τ sig Unit) W : sProp 𝕄) := fun c => by
    iintro ⟨Hs, Hp, HO⟩
    isplitl [Hs Hp]
    · isplitl [Hs] <;> iassumption
    iexact HO
  refine Pipeline.θ_run_regions_kit_dev (pcfgs (F := F)) Gen.adm (family m) () cellOf_inj embL defs₀ Variants.none noPairs noLevel m ρ main
    (Gen.segs m (left m) Variants.none noPairs noLevel (fun _ => beside) () (family m) (seg0 m) (seg1 m) (seg2 m) (seg3 m))
    (fun c Q => by
      rewrite [main_chain c, Seg.run_eq_chain,
        show (Gen.segs m (left m) Variants.none noPairs noLevel (fun _ => beside) () (family m) (seg0 m) (seg1 m) (seg2 m) (seg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide)
    (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ beside c))
    (Tₙ := fun c => iprop(StableHlo.held (c : Thread nD τ) (Pipeline.ucRefs τ sig) (Gen.V11 m (left m) c) ∗ unscopedSems0 c ∗ ∃ r, prngReg c r))
    (hch := fun c => ⟨.rfl, .rfl, .rfl, hpre0 c, hpost0 c, .rfl, hpre1 c, hpost1 c, hpre2 c, hpost2 c, hpre3 c,
      (hpost3 c).trans ((sep_mono .rfl (hE4 c)).trans sep_assoc.2)⟩)
    (hinit := ?_) (QY := fun c s => ∀ b ∈ Pipeline.ucRefs τ sig, s.mem ((c : Thread nD τ).1, b) = Gen.V11 m (left m) c b)
    (hfin := fun c s' => ?_) (hQ := fun _ h c b hb => (h c b hb).trans (by rw [left11_eq]))
  · -- the launch: the unscoped buffers are held at the launch contents; the rest is what a core holds between items
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ : Dev nD => (iprop(emp) : sProp 𝕄)) c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ : Dev nD => (iprop(emp) : sProp 𝕄)) c))
            : sProp 𝕄) := by
      rw [← bigSep_sep']
      exact bigSep_mono fun c _ => by rw [← Pipeline.unscopedBufs_held (Ix := Unit) (Name := ℕ) (U := Pipeline.UD sig nD τ) (Lvl := ℕ) c (Gen.V0 m c)]; exact BI.Entails.refl _
    iintro ⟨H, Hla⟩
    ihave H' := hsplit $$ H
    icases H' with ⟨Hh, Hr⟩
    imod (beside_of_launch (F := F) ρ) $$ [Hr Hla] with HE
    · isplitl [Hr]; · iexact Hr
      iexact Hla
    imodintro
    iapply (Entails.of_eq (bigSep_sep' Finset.univ (fun c : Dev nD => StableHlo.held (c : Thread nD τ) (Pipeline.ucRefs τ sig) (Gen.V0 m c))
      (fun c : Dev nD => beside (F := F) c)).symm)
    isplitl [Hh]; · iexact Hh
    iexact HE
  · -- the end: every unscoped buffer read off the last contents
    unfold StableHlo.held
    iintro ⟨⟨Hh, -, -⟩, HSI⟩
    ihave Hr := (pointsTo_read_all (Pipeline.ucRefs τ sig) (fun b => ((c : Thread nD τ).1, b)) (Gen.V11 m (left m) c) s') $$ [Hh HSI]
    · isplitl [Hh] <;> iassumption
    icases Hr with ⟨%h, HSI⟩
    imodintro
    isplitr
    · ipureintro; exact h
    · iexact HSI

/-- An unscoped TensorCore reference is among the buffers the run reads at the end. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The exit contents at an argument are the launch contents: no host stretch writes an argument and no region's
    output array is one. -/
theorem from3_arg (c : Dev nD) (r : Ref sig .tc) (h : Gen.V11 m (left m) c r = m ((c : Thread nD τ).loc r)) :
    from3 m c r = m ((c : Thread nD τ).loc r) := by rw [← left11_eq]; exact h

/-- THE FRAME: the program runs to the end without a fault and its argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_unscoped main_arg0 (by decide))).trans (from3_arg m c main_arg0 (Gen.V11_main_arg0 m (left m) c)),
     (h c _ (mem_unscoped main_arg1 (by decide))).trans (from3_arg m c main_arg1 (Gen.V11_main_arg1 m (left m) c)),
     (h c _ (mem_unscoped main_arg2 (by decide))).trans (from3_arg m c main_arg2 (Gen.V11_main_arg2 m (left m) c)),
     (h c _ (mem_unscoped main_arg3 (by decide))).trans (from3_arg m c main_arg3 (Gen.V11_main_arg3 m (left m) c)),
     (h c _ (mem_unscoped main_arg4 (by decide))).trans (from3_arg m c main_arg4 (Gen.V11_main_arg4 m (left m) c)),
     (h c _ (mem_unscoped main_arg5 (by decide))).trans (from3_arg m c main_arg5 (Gen.V11_main_arg5 m (left m) c)),
     (h c _ (mem_unscoped main_arg6 (by decide))).trans (from3_arg m c main_arg6 (Gen.V11_main_arg6 m (left m) c)),
     (h c _ (mem_unscoped main_arg7 (by decide))).trans (from3_arg m c main_arg7 (Gen.V11_main_arg7 m (left m) c)),
     (h c _ (mem_unscoped main_arg8 (by decide))).trans (from3_arg m c main_arg8 (Gen.V11_main_arg8 m (left m) c))⟩)
    (run_all m ρ)

end Cert.KernelIdeal.Hand

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KIVal0.lean ====
/-
  What region 0 leaves in the array it writes, on the extended reals: the whole product.  Grid point t writes back rows
  2000·t … 2000·t + 1999, each entry the sum over the contracted coordinate of the products of the staged operands'
  entries; the five row blocks tile the array, and a row block of the left operand read inside its block is the
  array's row, so every entry of the array is that sum over the arrays' entries: the host's product of the two arrays.
-/
import proofs.«105611_j55456617726630_1_alg».proof.Proof.KIRegion0
import proofs.«105611_j55456617726630_1_alg».proof.Proof.Gen.ReferenceIdeal
import proofs.«105611_j55456617726630_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The two zero offsets of a whole-buffer rectangle, as the constant function. -/
theorem zeroOff0 : (![0, 0] : Fin 2 → Nat) = fun _ => 0 :=
  funext fun a => by match a with | ⟨0, _⟩ => rfl | ⟨1, _⟩ => rfl

/-- The block product contracts the left columns with the right rows and has no batch axis. -/
theorem plainBlk0 : Cert.Gcn.IsPlain dot_S2000x256_S256x128_S2000x128_1_0_0_1_n_n := ⟨rfl, rfl, rfl, rfl, rfl, rfl⟩

/-- So does the host's product of the whole arrays. -/
theorem plainArr0 : Cert.Gcn.IsPlain Cert.ReferenceIdeal.dot_S10000x256_S256x128_S10000x128_1_0_0_1_n_n := ⟨rfl, rfl, rfl, rfl, rfl, rfl⟩

/-- What the body leaves in the output block, at entry (p, q): the sum over the 256 contracted coordinates of the
    products of the staged operands' entries. -/
theorem prod0_apply (a : Vec Ideal S2000x256 .f32) (b : Vec Ideal S256x128 .f32) (p : Fin 2000) (q : Fin 128) :
    prod0 (F := Ideal) a b (ix2 p q) = ∑ l : Fin 256, a (ix2 p l) * b (ix2 l q) := by
  unfold prod0
  rw [View.canon_unit_zero zeroOff0]
  simp only [View.ld_unit_zero (S := S2000x256) zeroOff0, View.ld_unit_zero (S := S256x128) zeroOff0]
  unfold k0_pay1
  exact Cert.Gcn.matmul_plain_apply _ plainBlk0 _ a b p q

/-- The printed index maps, decided over the five grid points: the left operand's window and the output's move with
    the point along the rows and stay at column block 0; the right operand's window never moves. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, l), is the array's entry at row 2000·t + p, column l. -/
theorem lhsBlk0_apply (c : Dev nD) (t : Fin cfg0.N) (y : S2000x256.Idx) (k : S10000x256.Idx)
    (hk0 : (k 0).val = 2000 * t.val + (y 0).val) (hk1 : (k 1).val = (y 1).val) :
    (inBlk0 (F := Ideal) V c 0 t : Vec Ideal S2000x256 .f32) y = (V c main_arg0 : S10000x256.Idx → Elt Ideal .f32) k := by
  obtain ⟨e0, e1, -, -, -, -⟩ := blockIdx0 t
  unfold inBlk0
  rw [View.read_apply]
  show V c main_arg0 _ = V c main_arg0 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 256 + 1 * (y 1).val = (k 1).val; rw [e1, hk1]; omega

/-- The right operand's block at any point is the whole array. -/
theorem rhsBlk0_apply (c : Dev nD) (t : Fin cfg0.N) (y : S256x128.Idx) :
    (inBlk0 (F := Ideal) V c 1 t : Vec Ideal S256x128 .f32) y = (V c main_arg3 : S256x128.Idx → Elt Ideal .f32) y := by
  obtain ⟨-, -, e0, e1, -, -⟩ := blockIdx0 t
  unfold inBlk0
  rw [View.read_apply]
  show V c main_arg3 _ = V c main_arg3 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The host's product of the two arrays as the region finds them. -/
abbrev hostProd0 (c : Dev nD) : S10000x128.Idx → Elt Ideal .f32 :=
  Host.dotGeneral (F := Ideal) (φ₁ := .f32) (φ₂ := .f32) Cert.ReferenceIdeal.dot_S10000x256_S256x128_S10000x128_1_0_0_1_n_n none
    (V c main_arg0 : (⟨S10000x256, .f32⟩ : BufTy).Contents (Elt Ideal)) (V c main_arg3 : (⟨S256x128, .f32⟩ : BufTy).Contents (Elt Ideal))

/-- What point t leaves in the output block at y is the host's product at row 2000·t + y₀, column y₁: both are the
    same sum over the contracted coordinate, the left block's row being the array's row. -/
theorem outBlk0_apply (c : Dev nD) (t : Fin cfg0.N) (y : S2000x128.Idx) (i : S10000x128.Idx)
    (hi0 : (i 0).val = 2000 * t.val + (y 0).val) (hi1 : (i 1).val = (y 1).val) :
    prod0 (F := Ideal) (inBlk0 V c 0 t) (inBlk0 V c 1 t) y = hostProd0 V c i := by
  obtain ⟨p, q, rfl⟩ : ∃ (p : Fin 2000) (q : Fin 128), y = ix2 p q := ⟨y 0, y 1, eq_ix2 y⟩
  obtain ⟨r, s, rfl⟩ : ∃ (r : Fin 10000) (s : Fin 128), i = ix2 r s := ⟨i 0, i 1, eq_ix2 i⟩
  have hr : r.val = 2000 * t.val + p.val := hi0
  have hs : s = q := Fin.ext hi1
  subst hs
  rw [prod0_apply]
  unfold hostProd0
  rw [Cert.Gcn.dotGeneral_plain_apply _ plainArr0]
  refine Finset.sum_congr rfl fun l _ => ?_
  rw [lhsBlk0_apply V c t (ix2 p l) (ix2 r l) hr rfl, rhsBlk0_apply V c t (ix2 l s)]

/-- WHAT POINT t WRITES BACK is block t of the host's product. -/
theorem flushed0_eq (c : Dev nD) (t : Fin cfg0.N) :
    (data0 (F := Ideal) V c).flushed 2 t = ((cfg0.win 2).blk t).view.read (Elt Ideal) (hostProd0 V c) := by
  obtain ⟨-, -, -, -, e0, e1⟩ := blockIdx0 t
  show (cfg0.win 2).cut (grid0.coords t) ((data0 (F := Ideal) V c).after 2 t) = _
  rw [data0_after_out]
  funext j
  rw [View.read_apply]
  refine outBlk0_apply V c t j _ ?_ ?_
  · show win0_2.index t (0 : Fin 2) * 2000 + 1 * (j 0).val = 2000 * t.val + (j 0).val; rw [e0]; omega
  · show win0_2.index t (1 : Fin 2) * 128 + 1 * (j 1).val = (j 1).val; rw [e1]; omega

/-- An index of the array is in point t's block iff each coordinate is in the block's range on its axis. -/
theorem mem_outBlk0 (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The five row blocks tile the array: row r is in the block of point r / 2000. -/
theorem cover0 (i : S10000x128.Idx) : ∃ t : Fin cfg0.N, (cfg0.win 2).flush t = true ∧ i ∈ ((cfg0.win 2).blk t).view.set := by
  have hi0 : (i 0).val < 10000 := idx2_lt0 i
  have hi1 : (i 1).val < 128 := idx2_lt1 i
  have hN : cfg0.N = 5 := N_0
  let t : Fin cfg0.N := ⟨(i 0).val / 2000, by rw [hN]; omega⟩
  obtain ⟨-, -, -, -, e0, e1⟩ := blockIdx0 t
  have ht : t.val = (i 0).val / 2000 := rfl
  refine ⟨t, flush0_2 t, ?_⟩
  rw [mem_outBlk0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 128 ≤ (i 1).val ∧ (i 1).val < win0_2.index t (1 : Fin 2) * 128 + 128; rw [e1]; omega

theorem prodArray0 (c : Dev nD) :
    (data0 (F := Ideal) V c).arrAt 2 cfg0.N
      = Host.dotGeneral (F := Ideal) (φ₁ := .f32) (φ₂ := .f32) Cert.ReferenceIdeal.dot_S10000x256_S256x128_S10000x128_1_0_0_1_n_n none
          (V c main_arg0 : (⟨S10000x256, .f32⟩ : BufTy).Contents (Elt Ideal)) (V c main_arg3 : (⟨S256x128, .f32⟩ : BufTy).Contents (Elt Ideal)) :=
  (data0 (F := Ideal) V c).arrAt_eq_of_cover 2 (hostProd0 V c) (fun t _ => flushed0_eq V c t) cover0

end Cert.KernelIdeal.Hand

end
-- ==== Proof.KIVal1.lean ====
/- ==>   unfold k0_pay1
  rw [shapeCast_self]
' 'zeroOff0 ==> zeroOff1' 'plainBlk0 ==> plainBlk1' 'plainArr0 ==> plainArr1' 'blockIdx0 ==> blockIdx1' 'lhsBlk0 ==> lhsBlk1' 'rhsBlk0 ==> rhsBlk1' 'hostProd0 ==> hostProd1' 'outBlk0 ==> outBlk1' 'flushed0 ==> flushed1' 'cover0 ==> cover1' 'prodArray0 ==> prodArray1' 'prod0 ==> prod1' 'inBlk0 ==> inBlk1' 'data0 ==> data1' 'cfg0 ==> cfg1' 'grid0 ==> grid1' 'win0_ ==> win1_' 'N_0 ==> N_1' 'flush0_2 ==> flush1_2' 'k0_pay1 ==> k1_pay1' 'KIRegion0 ==> KIRegion1' -/
/-
  What region 1 leaves in the array it writes, on the extended reals: the whole product.  Grid point t writes back rows
  2000·t … 2000·t + 1999, each entry the sum over the contracted coordinate of the products of the staged operands'
  entries; the five row blocks tile the array, and a row block of the left operand read inside its block is the
  array's row, so every entry of the array is that sum over the arrays' entries: the host's product of the two arrays.
-/
import proofs.«105611_j55456617726630_1_alg».proof.Proof.KIRegion1
import proofs.«105611_j55456617726630_1_alg».proof.Proof.Gen.ReferenceIdeal
import proofs.«105611_j55456617726630_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The two zero offsets of a whole-buffer rectangle, as the constant function. -/
theorem zeroOff1 : (![0, 0] : Fin 2 → Nat) = fun _ => 0 :=
  funext fun a => by match a with | ⟨0, _⟩ => rfl | ⟨1, _⟩ => rfl

/-- The block product contracts the left columns with the right rows and has no batch axis. -/
theorem plainBlk1 : Cert.Gcn.IsPlain dot_S2000x128_S128x64_S2000x64_1_0_0_1_n_n := ⟨rfl, rfl, rfl, rfl, rfl, rfl⟩

/-- So does the host's product of the whole arrays. -/
theorem plainArr1 : Cert.Gcn.IsPlain Cert.ReferenceIdeal.dot_S10000x128_S128x64_S10000x64_1_0_0_1_n_n := ⟨rfl, rfl, rfl, rfl, rfl, rfl⟩

/-- What the body leaves in the output block, at entry (p, q): the sum over the 128 contracted coordinates of the
    products of the staged operands' entries. -/
theorem prod1_apply (a : Vec Ideal S2000x128 .f32) (b : Vec Ideal S128x64 .f32) (p : Fin 2000) (q : Fin 64) :
    prod1 (F := Ideal) a b (ix2 p q) = ∑ l : Fin 128, a (ix2 p l) * b (ix2 l q) := by
  unfold prod1
  rw [View.canon_unit_zero zeroOff1]
  simp only [View.ld_unit_zero (S := S2000x128) zeroOff1, View.ld_unit_zero (S := S128x64) zeroOff1]
  unfold k1_pay1
  rw [shapeCast_self]
  exact Cert.Gcn.matmul_plain_apply _ plainBlk1 _ a b p q

/-- The printed index maps, decided over the five grid points: the left operand's window and the output's move with
    the point along the rows and stay at column block 0; the right operand's window never moves. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at (p, l), is the array's entry at row 2000·t + p, column l. -/
theorem lhsBlk1_apply (c : Dev nD) (t : Fin cfg1.N) (y : S2000x128.Idx) (k : S10000x128.Idx)
    (hk0 : (k 0).val = 2000 * t.val + (y 0).val) (hk1 : (k 1).val = (y 1).val) :
    (inBlk1 (F := Ideal) V c 0 t : Vec Ideal S2000x128 .f32) y = (V c main_v49 : S10000x128.Idx → Elt Ideal .f32) k := by
  obtain ⟨e0, e1, -, -, -, -⟩ := blockIdx1 t
  unfold inBlk1
  rw [View.read_apply]
  show V c main_v49 _ = V c main_v49 _
  congr 1
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 128 + 1 * (y 1).val = (k 1).val; rw [e1, hk1]; omega

/-- The right operand's block at any point is the whole array. -/
theorem rhsBlk1_apply (c : Dev nD) (t : Fin cfg1.N) (y : S128x64.Idx) :
    (inBlk1 (F := Ideal) V c 1 t : Vec Ideal S128x64 .f32) y = (V c main_arg5 : S128x64.Idx → Elt Ideal .f32) y := by
  obtain ⟨-, -, e0, e1, -, -⟩ := blockIdx1 t
  unfold inBlk1
  rw [View.read_apply]
  show V c main_arg5 _ = V c main_arg5 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- The host's product of the two arrays as the region finds them. -/
abbrev hostProd1 (c : Dev nD) : S10000x64.Idx → Elt Ideal .f32 :=
  Host.dotGeneral (F := Ideal) (φ₁ := .f32) (φ₂ := .f32) Cert.ReferenceIdeal.dot_S10000x128_S128x64_S10000x64_1_0_0_1_n_n none
    (V c main_v49 : (⟨S10000x128, .f32⟩ : BufTy).Contents (Elt Ideal)) (V c main_arg5 : (⟨S128x64, .f32⟩ : BufTy).Contents (Elt Ideal))

/-- What point t leaves in the output block at y is the host's product at row 2000·t + y₀, column y₁: both are the
    same sum over the contracted coordinate, the left block's row being the array's row. -/
theorem outBlk1_apply (c : Dev nD) (t : Fin cfg1.N) (y : S2000x64.Idx) (i : S10000x64.Idx)
    (hi0 : (i 0).val = 2000 * t.val + (y 0).val) (hi1 : (i 1).val = (y 1).val) :
    prod1 (F := Ideal) (inBlk1 V c 0 t) (inBlk1 V c 1 t) y = hostProd1 V c i := by
  obtain ⟨p, q, rfl⟩ : ∃ (p : Fin 2000) (q : Fin 64), y = ix2 p q := ⟨y 0, y 1, eq_ix2 y⟩
  obtain ⟨r, s, rfl⟩ : ∃ (r : Fin 10000) (s : Fin 64), i = ix2 r s := ⟨i 0, i 1, eq_ix2 i⟩
  have hr : r.val = 2000 * t.val + p.val := hi0
  have hs : s = q := Fin.ext hi1
  subst hs
  rw [prod1_apply]
  unfold hostProd1
  rw [Cert.Gcn.dotGeneral_plain_apply _ plainArr1]
  refine Finset.sum_congr rfl fun l _ => ?_
  rw [lhsBlk1_apply V c t (ix2 p l) (ix2 r l) hr rfl, rhsBlk1_apply V c t (ix2 l s)]

/-- WHAT POINT t WRITES BACK is block t of the host's product. -/
theorem flushed1_eq (c : Dev nD) (t : Fin cfg1.N) :
    (data1 (F := Ideal) V c).flushed 2 t = ((cfg1.win 2).blk t).view.read (Elt Ideal) (hostProd1 V c) := by
  obtain ⟨-, -, -, -, e0, e1⟩ := blockIdx1 t
  show (cfg1.win 2).cut (grid1.coords t) ((data1 (F := Ideal) V c).after 2 t) = _
  rw [data1_after_out]
  funext j
  rw [View.read_apply]
  refine outBlk1_apply V c t j _ ?_ ?_
  · show win1_2.index t (0 : Fin 2) * 2000 + 1 * (j 0).val = 2000 * t.val + (j 0).val; rw [e0]; omega
  · show win1_2.index t (1 : Fin 2) * 64 + 1 * (j 1).val = (j 1).val; rw [e1]; omega

/-- An index of the array is in point t's block iff each coordinate is in the block's range on its axis. -/
theorem mem_outBlk1 (t : Fin cfg1.N) (i : S10000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- The five row blocks tile the array: row r is in the block of point r / 2000. -/
theorem cover1 (i : S10000x64.Idx) : ∃ t : Fin cfg1.N, (cfg1.win 2).flush t = true ∧ i ∈ ((cfg1.win 2).blk t).view.set := by
  have hi0 : (i 0).val < 10000 := idx2_lt0 i
  have hi1 : (i 1).val < 64 := idx2_lt1 i
  have hN : cfg1.N = 5 := N_1
  let t : Fin cfg1.N := ⟨(i 0).val / 2000, by rw [hN]; omega⟩
  obtain ⟨-, -, -, -, e0, e1⟩ := blockIdx1 t
  have ht : t.val = (i 0).val / 2000 := rfl
  refine ⟨t, flush1_2 t, ?_⟩
  rw [mem_outBlk1]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 64 ≤ (i 1).val ∧ (i 1).val < win1_2.index t (1 : Fin 2) * 64 + 64; rw [e1]; omega

theorem prodArray1 (c : Dev nD) :
    (data1 (F := Ideal) V c).arrAt 2 cfg1.N
      = Host.dotGeneral (F := Ideal) (φ₁ := .f32) (φ₂ := .f32) Cert.ReferenceIdeal.dot_S10000x128_S128x64_S10000x64_1_0_0_1_n_n none
          (V c main_v49 : (⟨S10000x128, .f32⟩ : BufTy).Contents (Elt Ideal)) (V c main_arg5 : (⟨S128x64, .f32⟩ : BufTy).Contents (Elt Ideal)) :=
  (data1 (F := Ideal) V c).arrAt_eq_of_cover 2 (hostProd1 V c) (fun t _ => flushed1_eq V c t) cover1

end Cert.KernelIdeal.Hand

end
-- ==== Proof.KIVal2.lean ====
/- ==>   unfold k0_pay1
  rw [shapeCast_self]
' 'zeroOff0 ==> zeroOff2' 'plainBlk0 ==> plainBlk2' 'plainArr0 ==> plainArr2' 'blockIdx0 ==> blockIdx2' 'lhsBlk0 ==> lhsBlk2' 'rhsBlk0 ==> rhsBlk2' 'hostProd0 ==> hostProd2' 'outBlk0 ==> outBlk2' 'flushed0 ==> flushed2' 'cover0 ==> cover2' 'prodArray0 ==> prodArray2' 'prod0 ==> prod2' 'inBlk0 ==> inBlk2' 'data0 ==> data2' 'cfg0 ==> cfg2' 'grid0 ==> grid2' 'win0_ ==> win2_' 'N_0 ==> N_2' 'flush0_2 ==> flush2_2' 'k0_pay1 ==> k2_pay1' 'KIRegion0 ==> KIRegion2' -/
/-
  What region 2 leaves in the array it writes, on the extended reals: the whole product.  Grid point t writes back rows
  2000·t … 2000·t + 1999, each entry the sum over the contracted coordinate of the products of the staged operands'
  entries; the five row blocks tile the array, and a row block of the left operand read inside its block is the
  array's row, so every entry of the array is that sum over the arrays' entries: the host's product of the two arrays.
-/
import proofs.«105611_j55456617726630_1_alg».proof.Proof.KIRegion2
import proofs.«105611_j55456617726630_1_alg».proof.Proof.Gen.ReferenceIdeal
import proofs.«105611_j55456617726630_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The two zero offsets of a whole-buffer rectangle, as the constant function. -/
theorem zeroOff2 : (![0, 0] : Fin 2 → Nat) = fun _ => 0 :=
  funext fun a => by match a with | ⟨0, _⟩ => rfl | ⟨1, _⟩ => rfl

/-- The block product contracts the left columns with the right rows and has no batch axis. -/
theorem plainBlk2 : Cert.Gcn.IsPlain dot_S2000x128_S128x64_S2000x64_1_0_0_1_n_n := ⟨rfl, rfl, rfl, rfl, rfl, rfl⟩

/-- So does the host's product of the whole arrays. -/
theorem plainArr2 : Cert.Gcn.IsPlain Cert.ReferenceIdeal.dot_S10000x128_S128x64_S10000x64_1_0_0_1_n_n := ⟨rfl, rfl, rfl, rfl, rfl, rfl⟩

/-- What the body leaves in the output block, at entry (p, q): the sum over the 128 contracted coordinates of the
    products of the staged operands' entries. -/
theorem prod2_apply (a : Vec Ideal S2000x128 .f32) (b : Vec Ideal S128x64 .f32) (p : Fin 2000) (q : Fin 64) :
    prod2 (F := Ideal) a b (ix2 p q) = ∑ l : Fin 128, a (ix2 p l) * b (ix2 l q) := by
  unfold prod2
  rw [View.canon_unit_zero zeroOff2]
  simp only [View.ld_unit_zero (S := S2000x128) zeroOff2, View.ld_unit_zero (S := S128x64) zeroOff2]
  unfold k2_pay1
  rw [shapeCast_self]
  exact Cert.Gcn.matmul_plain_apply _ plainBlk2 _ a b p q

/-- The printed index maps, decided over the five grid points: the left operand's window and the output's move with
    the point along the rows and stay at column block 0; the right operand's window never moves. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (p, l), is the array's entry at row 2000·t + p, column l. -/
theorem lhsBlk2_apply (c : Dev nD) (t : Fin cfg2.N) (y : S2000x128.Idx) (k : S10000x128.Idx)
    (hk0 : (k 0).val = 2000 * t.val + (y 0).val) (hk1 : (k 1).val = (y 1).val) :
    (inBlk2 (F := Ideal) V c 0 t : Vec Ideal S2000x128 .f32) y = (V c main_v49 : S10000x128.Idx → Elt Ideal .f32) k := by
  obtain ⟨e0, e1, -, -, -, -⟩ := blockIdx2 t
  unfold inBlk2
  rw [View.read_apply]
  show V c main_v49 _ = V c main_v49 _
  congr 1
  funext a
  apply Fin.ext
  match a with
  | ⟨0, _⟩ => show win2_0.index t (0 : Fin 2) * 2000 + 1 * (y 0).val = (k 0).val; rw [e0, hk0]; omega
  | ⟨1, _⟩ => show win2_0.index t (1 : Fin 2) * 128 + 1 * (y 1).val = (k 1).val; rw [e1, hk1]; omega

/-- The right operand's block at any point is the whole array. -/
theorem rhsBlk2_apply (c : Dev nD) (t : Fin cfg2.N) (y : S128x64.Idx) :
    (inBlk2 (F := Ideal) V c 1 t : Vec Ideal S128x64 .f32) y = (V c main_arg7 : S128x64.Idx → Elt Ideal .f32) y := by
  obtain ⟨-, -, e0, e1, -, -⟩ := blockIdx2 t
  unfold inBlk2
  rw [View.read_apply]
  show V c main_arg7 _ = V c main_arg7 _
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The host's product of the two arrays as the region finds them. -/
abbrev hostProd2 (c : Dev nD) : S10000x64.Idx → Elt Ideal .f32 :=
  Host.dotGeneral (F := Ideal) (φ₁ := .f32) (φ₂ := .f32) Cert.ReferenceIdeal.dot_S10000x128_S128x64_S10000x64_1_0_0_1_n_n none
    (V c main_v49 : (⟨S10000x128, .f32⟩ : BufTy).Contents (Elt Ideal)) (V c main_arg7 : (⟨S128x64, .f32⟩ : BufTy).Contents (Elt Ideal))

/-- What point t leaves in the output block at y is the host's product at row 2000·t + y₀, column y₁: both are the
    same sum over the contracted coordinate, the left block's row being the array's row. -/
theorem outBlk2_apply (c : Dev nD) (t : Fin cfg2.N) (y : S2000x64.Idx) (i : S10000x64.Idx)
    (hi0 : (i 0).val = 2000 * t.val + (y 0).val) (hi1 : (i 1).val = (y 1).val) :
    prod2 (F := Ideal) (inBlk2 V c 0 t) (inBlk2 V c 1 t) y = hostProd2 V c i := by
  obtain ⟨p, q, rfl⟩ : ∃ (p : Fin 2000) (q : Fin 64), y = ix2 p q := ⟨y 0, y 1, eq_ix2 y⟩
  obtain ⟨r, s, rfl⟩ : ∃ (r : Fin 10000) (s : Fin 64), i = ix2 r s := ⟨i 0, i 1, eq_ix2 i⟩
  have hr : r.val = 2000 * t.val + p.val := hi0
  have hs : s = q := Fin.ext hi1
  subst hs
  rw [prod2_apply]
  unfold hostProd2
  rw [Cert.Gcn.dotGeneral_plain_apply _ plainArr2]
  refine Finset.sum_congr rfl fun l _ => ?_
  rw [lhsBlk2_apply V c t (ix2 p l) (ix2 r l) hr rfl, rhsBlk2_apply V c t (ix2 l s)]

/-- WHAT POINT t WRITES BACK is block t of the host's product. -/
theorem flushed2_eq (c : Dev nD) (t : Fin cfg2.N) :
    (data2 (F := Ideal) V c).flushed 2 t = ((cfg2.win 2).blk t).view.read (Elt Ideal) (hostProd2 V c) := by
  obtain ⟨-, -, -, -, e0, e1⟩ := blockIdx2 t
  show (cfg2.win 2).cut (grid2.coords t) ((data2 (F := Ideal) V c).after 2 t) = _
  rw [data2_after_out]
  funext j
  rw [View.read_apply]
  refine outBlk2_apply V c t j _ ?_ ?_
  · show win2_2.index t (0 : Fin 2) * 2000 + 1 * (j 0).val = 2000 * t.val + (j 0).val; rw [e0]; omega
  · show win2_2.index t (1 : Fin 2) * 64 + 1 * (j 1).val = (j 1).val; rw [e1]; omega

/-- An index of the array is in point t's block iff each coordinate is in the block's range on its axis. -/
theorem mem_outBlk2 (t : Fin cfg2.N) (i : S10000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v67).slice (win2_2.rect t)).set ↔ _
  rw [View.set_slice_whole, Rect.mem_set_unit]
  exact Iff.rfl

/-- The five row blocks tile the array: row r is in the block of point r / 2000. -/
theorem cover2 (i : S10000x64.Idx) : ∃ t : Fin cfg2.N, (cfg2.win 2).flush t = true ∧ i ∈ ((cfg2.win 2).blk t).view.set := by
  have hi0 : (i 0).val < 10000 := idx2_lt0 i
  have hi1 : (i 1).val < 64 := idx2_lt1 i
  have hN : cfg2.N = 5 := N_2
  let t : Fin cfg2.N := ⟨(i 0).val / 2000, by rw [hN]; omega⟩
  obtain ⟨-, -, -, -, e0, e1⟩ := blockIdx2 t
  have ht : t.val = (i 0).val / 2000 := rfl
  refine ⟨t, flush2_2 t, ?_⟩
  rw [mem_outBlk2]
  intro a
  match a with
  | ⟨0, _⟩ => show win2_2.index t (0 : Fin 2) * 2000 ≤ (i 0).val ∧ (i 0).val < win2_2.index t (0 : Fin 2) * 2000 + 2000; rw [e0, ht]; omega
  | ⟨1, _⟩ => show win2_2.index t (1 : Fin 2) * 64 ≤ (i 1).val ∧ (i 1).val < win2_2.index t (1 : Fin 2) * 64 + 64; rw [e1]; omega

theorem prodArray2 (c : Dev nD) :
    (data2 (F := Ideal) V c).arrAt 2 cfg2.N
      = Host.dotGeneral (F := Ideal) (φ₁ := .f32) (φ₂ := .f32) Cert.ReferenceIdeal.dot_S10000x128_S128x64_S10000x64_1_0_0_1_n_n none
          (V c main_v49 : (⟨S10000x128, .f32⟩ : BufTy).Contents (Elt Ideal)) (V c main_arg7 : (⟨S128x64, .f32⟩ : BufTy).Contents (Elt Ideal)) :=
  (data2 (F := Ideal) V c).arrAt_eq_of_cover 2 (hostProd2 V c) (fun t _ => flushed2_eq V c t) cover2

end Cert.KernelIdeal.Hand

end
-- ==== Proof.LibMatmulRowsRows.lean ====
/-
  A matrix product with no batch axis that contracts the COLUMNS of both operands — rows × contraction against
  rows × contraction, the left operand times the transpose of the right — read at one entry on the extended reals:
  into a zero accumulator it is the plain sum over the contraction coordinate of the products of row p of the left
  operand with row q of the right.  Stated once for any extents and any dimension-number record of that pattern.
-/
import Idealize.ShloMosaic.Lib.ValueIdx
import Idealize.ShloMosaic.PureOps.Ideal.Laws

noncomputable section

namespace Cert.Gcn

open Idealize.ShloMosaic Idealize.ShloMosaic.ValueIdx

section RowsRows
variable {M K N : ℕ}

/-- The dimension numbers contract the columns of both operands and keep the rows of both (the left operand's rows
    first), with no batch axis: the product of the left operand with the transpose of the right. -/
structure IsRowsRows (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

/-- The sum over the one-axis contraction index is the sum over its coordinate, the left operand read at
    (row p, l) and the right at (row q, l). -/
theorem rowsRows_sum {φ₁ φ₂ : FTy} (D : DotDims ⟨2, ![M, K]⟩ ⟨2, ![N, K]⟩ ⟨2, ![M, N]⟩) (hD : IsRowsRows D)
    (A : FVec Ideal ⟨2, ![M, K]⟩ φ₁) (B : FVec Ideal ⟨2, ![N, K]⟩ φ₂) (p : Fin M) (q : Fin N) :
    ∑ k : D.contr.Idx, A (D.lhsIdx (ix2 p q) k) * B (D.rhsIdx (ix2 p q) k) = ∑ l : Fin K, A (ix2 p l) * B (ix2 q l) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![N, K]⟩ ⟨2, ![M, N]⟩ := ⟨[1], [1], [0], [0], [], [], wf⟩ with hDdef
  rw [← Equiv.sum_comp (contrEquiv1 D K rfl rfl).symm]
  refine Finset.sum_congr rfl fun l _ => ?_
  have hk := contrEquiv1_symm_val D K rfl rfl l
  -- the left operand's row is the result's row, its column the contraction coordinate
  have leftRow : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have leftCol : ∀ (i : (⟨2, ![M, N]⟩ : Shape).Idx) (k : D.contr.Idx), (D.lhsIdx i k 1).val = (k ⟨0, Nat.one_pos⟩).val :=
    fun i k => D.lhsIdx_val_of_single rfl i k
  -- the right operand's row is the result's COLUMN, its column the contraction coordinate
  have rightRow : ∀ (i : (⟨2, ![M, N]⟩ : Shape).Idx) (k : D.contr.Idx), (D.rhsIdx i k 0).val = (i 1).val := by
    intro i k
    unfold DotDims.rhsIdx
    rw [dif_neg (show ¬(0 : Fin 2) ∈ ([] : List (Fin 2)) by decide), dif_pos (show (0 : Fin 2) ∈ ([0] : List (Fin 2)) by decide)]
    rfl
  have rightCol : ∀ (i : (⟨2, ![M, N]⟩ : Shape).Idx) (k : D.contr.Idx), (D.rhsIdx i k 1).val = (k ⟨0, Nat.one_pos⟩).val :=
    fun i k => D.rhsIdx_val_of_single rfl i k
  have el : D.lhsIdx (ix2 p q) ((contrEquiv1 D K rfl rfl).symm l) = ix2 p l := funext fun a => Fin.ext (by
    match a with
    | ⟨0, _⟩ => exact leftRow _ _
    | ⟨1, _⟩ => exact (leftCol _ _).trans hk)
  have er : D.rhsIdx (ix2 p q) ((contrEquiv1 D K rfl rfl).symm l) = ix2 q l := funext fun a => Fin.ext (by
    match a with
    | ⟨0, _⟩ => exact rightRow _ _
    | ⟨1, _⟩ => exact (rightCol _ _).trans hk)
  rw [el, er]

/-- The vector unit's rows-against-rows product into the zero accumulator, at entry (p, q). -/
theorem matmul_rowsRows_apply {φ₁ φ₂ : FTy} (D : DotDims ⟨2, ![M, K]⟩ ⟨2, ![N, K]⟩ ⟨2, ![M, N]⟩) (hD : IsRowsRows D)
    (prec : Option ContractPrecision) (A : FVec Ideal ⟨2, ![M, K]⟩ φ₁) (B : FVec Ideal ⟨2, ![N, K]⟩ φ₂) (p : Fin M) (q : Fin N) :
    matmul D prec A B (constant (F := Ideal) ⟨2, ![M, N]⟩ .f32 0x00000000#32) (ix2 p q) = ∑ l : Fin K, A (ix2 p l) * B (ix2 q l) := by
  simp only [matmul]
  rw [Ideal.matmul_constant_zero_apply]
  exact rowsRows_sum D hD A B p q

end RowsRows

end Cert.Gcn

end
-- ==== Proof.KIVal3.lean ====
/-
  What region 3 leaves in the array it writes, on the extended reals: the inner products of the latent rows.  Grid point
  t writes back rows 200·t … 200·t + 199, entry (p, q) the sum over the 64 latent coordinates of row p of the staged
  row block times row q of the whole latent array; the fifty row blocks tile the array, so every entry is the sum over
  l of z(p, l) · z(q, l): the host's product of the latent array with its transpose.
-/
import proofs.«105611_j55456617726630_1_alg».proof.Proof.KIRegion3
import proofs.«105611_j55456617726630_1_alg».proof.Proof.Gen.ReferenceIdeal
import proofs.«105611_j55456617726630_1_alg».proof.Proof.LibMatmulPlain
import proofs.«105611_j55456617726630_1_alg».proof.Proof.LibMatmulRowsRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Gcn (IsRowsRows matmul_rowsRows_apply)

/-! ## The body's product at an entry, and the inner products of the latent rows -/

/-- The inner products of the rows of a [10000, 64] array: entry (p, q) is the sum over l of z(p, l) · z(q, l). -/
def rowGram (z : S10000x64.Idx → Ideal .f32) : S10000x10000.Idx → Ideal .f32 :=
  fun i => ∑ l : Fin 64, z (ix2 (i 0) l) * z (ix2 (i 1) l)

/-- The body's payload at entry (p, q): row p of the staged row block against row q of the staged whole array. -/
theorem blockProduct_apply (a : Vec Ideal S200x64 .f32) (b : Vec Ideal S10000x64 .f32) (p : Fin 200) (q : Fin 10000) :
    k3_pay1 a b (ix2 p q) = ∑ l : Fin 64, a (ix2 p l) * b (ix2 q l) := by
  unfold k3_pay1
  simp only [shapeCast_self]
  exact matmul_rowsRows_apply dot_S200x64_S10000x64_S200x10000_1_1_0_0_n_n ⟨rfl, rfl, rfl, rfl, rfl, rfl⟩ _ a b p q

/-- The payload at entry (p, q) is the inner product at an entry i of the array, once row p of the staged block is row
    i₀ of the latent array and row q of the staged whole is its row i₁. -/
theorem blockProduct_eq_rowGram (z : S10000x64.Idx → Ideal .f32) (a : Vec Ideal S200x64 .f32) (b : Vec Ideal S10000x64 .f32)
    (p : Fin 200) (q : Fin 10000) (i : S10000x10000.Idx)
    (ha : ∀ l : Fin 64, a (ix2 p l) = z (ix2 (i 0) l)) (hb : ∀ l : Fin 64, b (ix2 q l) = z (ix2 (i 1) l)) :
    k3_pay1 a b (ix2 p q) = rowGram z i := by
  rw [blockProduct_apply]
  exact Finset.sum_congr rfl fun l _ => by rw [ha l, hb l]

/-! ## From the row blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the fifty grid points: the left operand's window and the output's window sit on
    row block t, the right operand's window on block (0, 0), and no window moves along the columns. -/
theorem blockIndices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the inner products of the latent rows, as the region finds the latent
    array. -/
theorem flushed3_eq (c : Dev nD) (t : Fin cfg3.N) :
    (data3 (F := Ideal) V c).flushed 2 t = ((cfg3.win 2).blk t).view.read (Elt Ideal) (rowGram (V c main_v66)) := by
  show (cfg3.win 2).cut (grid3.coords t) ((data3 (F := Ideal) V c).after 2 t) = _
  rw [data3_after_out]
  unfold prod3
  rw [View.canon_unit_zero zeroOffsets]
  simp only [View.ld_unit_zero (S := S200x64) zeroOffsets, View.ld_unit_zero (S := S10000x64) zeroOffsets]
  obtain ⟨e00, e01, e10, e11, e20, e21⟩ := blockIndices3 t
  funext j
  refine Eq.trans (congrArg (k3_pay1 (inBlk3 V c 0 t) (inBlk3 V c 1 t)) (eq_ix2 (n0 := 200) (n1 := 10000) j)) ?_
  refine blockProduct_eq_rowGram (V c main_v66) _ _ (j 0) (j 1) (((cfg3.win 2).blk t).view.emb j) (fun l => ?_) (fun l => ?_)
  · show V c main_v66 (((cfg3.win 0).blk t).view.emb (ix2 (j 0) l)) = V c main_v66 _
    refine congrArg _ (funext fun a => Fin.ext ?_)
    match a with
    | ⟨0, _⟩ => show win3_0.index t (0 : Fin 2) * 200 + 1 * (j 0).val = win3_2.index t (0 : Fin 2) * 200 + 1 * (j 0).val; omega
    | ⟨1, _⟩ => show win3_0.index t (1 : Fin 2) * 64 + 1 * l.val = l.val; omega
  · show V c main_v66 (((cfg3.win 1).blk t).view.emb (ix2 (j 1) l)) = V c main_v66 _
    refine congrArg _ (funext fun a => Fin.ext ?_)
    match a with
    | ⟨0, _⟩ => show win3_1.index t (0 : Fin 2) * 10000 + 1 * (j 1).val = win3_2.index t (1 : Fin 2) * 10000 + 1 * (j 1).val; omega
    | ⟨1, _⟩ => show win3_1.index t (1 : Fin 2) * 64 + 1 * l.val = l.val; omega

/-- An index of the array is in point t's block iff each coordinate is in the block's range on its axis. -/
theorem mem_rowBlock3 (t : Fin cfg3.N) (i : S10000x10000.Idx) :
    i ∈ ((cfg3.win 2).blk t).view.set ↔ ∀ a : Fin 2, win3_2.index t a * S200x10000.size a ≤ (i a).val ∧ (i a).val < win3_2.index t a * S200x10000.size a + S200x10000.size a := by
  show i ∈ ((View.whole main_v84).slice (win3_2.rect t)).set ↔ _
  rw [View.set_slice_whole, Rect.mem_set_unit]
  exact Iff.rfl

/-- The fifty row blocks tile the array: row r lies in the block of point r / 200, and every block spans all columns. -/
theorem rowBlocks3_cover (i : S10000x10000.Idx) :
    ∃ t : Fin cfg3.N, (cfg3.win 2).flush t = true ∧ i ∈ ((cfg3.win 2).blk t).view.set := by
  have hi0 : (i 0).val < 10000 := idx2_lt0 i
  have hi1 : (i 1).val < 10000 := idx2_lt1 i
  let t : Fin cfg3.N := ⟨(i 0).val / 200, by show (i 0).val / 200 < 50; omega⟩
  obtain ⟨-, -, -, -, e20, e21⟩ := blockIndices3 t
  have ht : t.val = (i 0).val / 200 := rfl
  refine ⟨t, flush3_2 t, ?_⟩
  rw [mem_rowBlock3]
  intro a
  match a with
  | ⟨0, _⟩ => show win3_2.index t (0 : Fin 2) * 200 ≤ (i 0).val ∧ (i 0).val < win3_2.index t (0 : Fin 2) * 200 + 200; omega
  | ⟨1, _⟩ => show win3_2.index t (1 : Fin 2) * 10000 ≤ (i 1).val ∧ (i 1).val < win3_2.index t (1 : Fin 2) * 10000 + 10000; omega

/-- The array region 3 writes ends holding the inner products of the latent rows. -/
theorem rowGramArray3 (c : Dev nD) : (data3 (F := Ideal) V c).arrAt 2 cfg3.N = rowGram (V c main_v66) :=
  (data3 (F := Ideal) V c).arrAt_eq_of_cover 2 (rowGram (V c main_v66)) (fun t _ => flushed3_eq V c t) rowBlocks3_cover

/-! ## The host's product of the latent array with its transpose is the same array -/

/-- The host transposes the latent array and multiplies plainly: at entry (p, q) the sum over l of z(p, l) · zᵀ(l, q),
    and zᵀ(l, q) is z(q, l). -/
theorem transposeProduct_eq_rowGram (z : (⟨S10000x64, .f32⟩ : BufTy).Contents (Elt Ideal)) :
    Host.dotGeneral (F := Ideal) (φ₁ := .f32) (φ₂ := .f32) Cert.ReferenceIdeal.dot_S10000x64_S64x10000_S10000x10000_1_0_0_1_n_n none z
        (transpose Cert.ReferenceIdeal.S64x10000 [1, 0] z Cert.ReferenceIdeal.Gen.transposes_S10000x64_S64x10000_1_0)
      = rowGram z := by
  funext i
  obtain ⟨p, q, rfl⟩ : ∃ (p : Fin 10000) (q : Fin 10000), i = ix2 p q := ⟨i 0, i 1, eq_ix2 i⟩
  refine (Cert.Gcn.dotGeneral_plain_apply (M := 10000) (K := 64) (N := 10000) Cert.ReferenceIdeal.dot_S10000x64_S64x10000_S10000x10000_1_0_0_1_n_n
    ⟨rfl, rfl, rfl, rfl, rfl, rfl⟩ none z _ p q).trans ?_
  refine Finset.sum_congr rfl fun l _ => ?_
  refine congrArg (z (ix2 p l) * ·) ?_
  exact transpose_apply [1, 0] z Cert.ReferenceIdeal.Gen.transposes_S10000x64_S64x10000_1_0 (ix2 l q) (ix2 q l) (fun b => match b with
    | ⟨0, _⟩ => rfl
    | ⟨1, _⟩ => rfl)

theorem prodArray3 (c : Dev nD) :
    (data3 (F := Ideal) V c).arrAt 2 cfg3.N
      = Host.dotGeneral (F := Ideal) (φ₁ := .f32) (φ₂ := .f32) Cert.ReferenceIdeal.dot_S10000x64_S64x10000_S10000x10000_1_0_0_1_n_n none
          (V c main_v66 : (⟨S10000x64, .f32⟩ : BufTy).Contents (Elt Ideal))
          (transpose Cert.ReferenceIdeal.S64x10000 [1, 0] (V c main_v66 : (⟨S10000x64, .f32⟩ : BufTy).Contents (Elt Ideal)) Cert.ReferenceIdeal.Gen.transposes_S10000x64_S64x10000_1_0) :=
  (rowGramArray3 V c).trans (transposeProduct_eq_rowGram (V c main_v66)).symm

end Cert.KernelIdeal.Hand

end
-- ==== Proof.GcnStages.lean ====
/-
  The host side of the computation that the kernel's program and the reference share, as pure functions of the values
  going in, so that neither proof ever opens it.  With `row`, `col` the two index vectors (edges followed by the
  self loops) and `norm` the symmetric normalisation per edge, a layer takes the transformed features `hw` (one row
  per node), gathers row `row e` for every edge `e` (a negative index wrapped by the number of nodes), scales it by
  `norm e`, adds it into row `col e` of a zero array, and adds the bias to every row: `aggregate128` for the hidden
  width, `aggregate64` for the latent width.  `hidden` clamps the first layer below at zero.  `decode` is the inner
  products of the latent rows with one another: the latent array times its transpose.
-/
import proofs.«105611_j55456617726630_1_alg».proof.Proof.Gen.ReferenceIdeal

noncomputable section

namespace Cert.Gcn

open Cert.ReferenceIdeal Cert.ReferenceIdeal.Gen Idealize.ShloMosaic

variable {F : FTy → Type} [FloatOps F]

/-- The gather's index column: an index below zero has the number of nodes added to it. -/
def wrapped (row : (⟨S330000, .i32⟩ : BufTy).Contents (Elt F)) : (⟨S330000x1, .i32⟩ : BufTy).Contents (Elt F) :=
  broadcastInDim S330000x1 ![0] bcast_S330000_S330000x1_0
    (select (cmpi .slt row (broadcastInDim S330000 ![] bcast_S_S330000 (constantI S_ 32 0#32)))
      (addi row (broadcastInDim S330000 ![] bcast_S_S330000 (constantI S_ 32 10000#32))) row)

/-- One layer's aggregation at the hidden width, and the bias. -/
def aggregate128 (hw : (⟨S10000x128, .f32⟩ : BufTy).Contents (Elt F)) (row col : (⟨S330000, .i32⟩ : BufTy).Contents (Elt F)) (norm : (⟨S330000, .f32⟩ : BufTy).Contents (Elt F)) (b : (⟨S128, .f32⟩ : BufTy).Contents (Elt F)) :
    (⟨S10000x128, .f32⟩ : BufTy).Contents (Elt F) :=
  addf
    (Host.scatterAdd scatter_S10000x128_S330000x1_S330000x128_1_0_0_1
      (broadcastInDim S10000x128 ![] bcast_S_S10000x128 (constant S_ .f32 0x00000000#32))
      (broadcastInDim S330000x1 ![0] bcast_S330000_S330000x1_0 col)
      (mulf (broadcastInDim S330000x128 ![0, 1] bcast_S330000x1_S330000x128_0_1 (broadcastInDim S330000x1 ![0] bcast_S330000_S330000x1_0 norm))
        (Host.gather gather_S10000x128_S330000x1_S330000x128_1_0_n_n_0_1_1128 hw (wrapped row))))
    (broadcastInDim S10000x128 ![0, 1] bcast_S1x128_S10000x128_0_1 (broadcastInDim S1x128 ![1] bcast_S128_S1x128_1 b))

/-- The hidden layer: the first aggregation clamped below at zero. -/
def hidden (hw : (⟨S10000x128, .f32⟩ : BufTy).Contents (Elt F)) (row col : (⟨S330000, .i32⟩ : BufTy).Contents (Elt F)) (norm : (⟨S330000, .f32⟩ : BufTy).Contents (Elt F)) (b : (⟨S128, .f32⟩ : BufTy).Contents (Elt F)) :
    (⟨S10000x128, .f32⟩ : BufTy).Contents (Elt F) :=
  maximumf (aggregate128 hw row col norm b) (broadcastInDim S10000x128 ![] bcast_S_S10000x128 (constant S_ .f32 0x00000000#32))

/-- One layer's aggregation at the latent width, and the bias. -/
def aggregate64 (hw : (⟨S10000x64, .f32⟩ : BufTy).Contents (Elt F)) (row col : (⟨S330000, .i32⟩ : BufTy).Contents (Elt F)) (norm : (⟨S330000, .f32⟩ : BufTy).Contents (Elt F)) (b : (⟨S64, .f32⟩ : BufTy).Contents (Elt F)) :
    (⟨S10000x64, .f32⟩ : BufTy).Contents (Elt F) :=
  addf
    (Host.scatterAdd scatter_S10000x64_S330000x1_S330000x64_1_0_0_1
      (broadcastInDim S10000x64 ![] bcast_S_S10000x64 (constant S_ .f32 0x00000000#32))
      (broadcastInDim S330000x1 ![0] bcast_S330000_S330000x1_0 col)
      (mulf (broadcastInDim S330000x64 ![0, 1] bcast_S330000x1_S330000x64_0_1 (broadcastInDim S330000x1 ![0] bcast_S330000_S330000x1_0 norm))
        (Host.gather gather_S10000x64_S330000x1_S330000x64_1_0_n_n_0_1_164 hw (wrapped row))))
    (broadcastInDim S10000x64 ![0, 1] bcast_S1x64_S10000x64_0_1 (broadcastInDim S1x64 ![1] bcast_S64_S1x64_1 b))

/-- The decoder: the latent array times its transpose. -/
def decode (z : (⟨S10000x64, .f32⟩ : BufTy).Contents (Elt F)) : (⟨S10000x10000, .f32⟩ : BufTy).Contents (Elt F) :=
  Host.dotGeneral dot_S10000x64_S64x10000_S10000x10000_1_0_0_1_n_n none z (transpose S64x10000 [1, 0] z transposes_S10000x64_S64x10000_1_0)

end Cert.Gcn

end
-- ==== Proof.KIHost.lean ====
/-
  The kernel's program's host stretches are the same shared host functions: whatever a core's buffers hold when a
  stretch begins, after it the edge data are the reference's stages of the two graph inputs, and each layer's output
  buffer is the layer's function of the transformed features found in the region's output array.

  Every proof is the same two steps. A stretch is a list of operations, each writing one buffer with its function of
  the buffers it reads and leaving every other buffer alone; so the buffer read after the stretches is the composition
  of those functions, applied to what `W` holds at the buffers no operation of the stretches writes. That composition
  and the right-hand side are the same term once the shared host functions (and, for the edge data, the reference's
  stage functions one after the other down to its arguments) are unfolded: the two programs' shape, broadcast,
  gather and scatter records are the same structures.
-/
import proofs.«105611_j55456617726630_1_alg».proof.Proof.Gen.KernelIdeal.Launch
import proofs.«105611_j55456617726630_1_alg».proof.Proof.Gen.ReferenceIdeal.Read
import proofs.«105611_j55456617726630_1_alg».proof.Proof.GcnStages
import Idealize.ShloMosaic.Lib.StableHlo.Run

noncomputable section

namespace Cert.KernelIdeal.Hand

open Cert.KernelIdeal Cert.KernelIdeal.Gen Cert.Gcn
open Idealize.ShloMosaic Idealize.ShloMosaic.TcCoe Idealize.ShloMosaic.StableHlo

variable {F : FTy → Type} [FloatOps F]

/-- After the first three stretches: the two index vectors and the normalisation. -/
theorem host_row (W : Valuation τ sig (Elt F)) :
    StableHlo.after hostOps0_2 (StableHlo.after hostOps0_1 (StableHlo.after hostOps0 W)) main_v3 = Cert.ReferenceIdeal.Read.val_main_v3 (W main_arg1) := by
  -- row 0 of the two-row edge array (the index the layers gather from), as a vector, followed by the self loops
  -- 0, 1, …, 9999
  after_results_simp
  rfl
theorem host_col (W : Valuation τ sig (Elt F)) :
    StableHlo.after hostOps0_2 (StableHlo.after hostOps0_1 (StableHlo.after hostOps0 W)) main_v6 = Cert.ReferenceIdeal.Read.val_main_v6 (W main_arg1) := by
  -- row 1 of the two-row edge array (the index the layers add into), as a vector, followed by the same self loops
  after_results_simp
  rfl
theorem host_norm (W : Valuation τ sig (Elt F)) :
    StableHlo.after hostOps0_2 (StableHlo.after hostOps0_1 (StableHlo.after hostOps0 W)) main_v31 = Cert.ReferenceIdeal.Read.val_main_v31 (W main_arg1) (W main_arg2) := by
  -- with deg the edge weights (self loops at weight one) summed into the nodes of the second index vector, and d the
  -- reciprocal square root of deg where deg > 0 and zero elsewhere: d at edge e's first index (wrapped) times the
  -- weight of e, times d at its second index (wrapped)
  after_results_simp
  rfl

/-- After the two stretches behind region 0: the hidden layer. -/
theorem host_hidden (W : Valuation τ sig (Elt F)) :
    StableHlo.after hostOps1_1 (StableHlo.after hostOps1 W) main_v49 = hidden (W main_v32) (W main_v3) (W main_v6) (W main_v31) (W main_arg4) := by
  -- gather by the wrapped first index, scale by the normalisation, add into the rows of the second index, add the
  -- bias, clamp below at zero
  after_results_simp
  rfl

/-- After the stretch behind region 1: the mean head. -/
theorem host_mu (W : Valuation τ sig (Elt F)) :
    StableHlo.after hostOps2 W main_v66 = aggregate64 (W main_v50) (W main_v3) (W main_v6) (W main_v31) (W main_arg6) := by
  -- gather by the wrapped first index, scale by the normalisation, add into the rows of the second index, add the bias
  after_results_simp
  rfl

/-- After the stretch behind region 2: the log-variance head. -/
theorem host_logvar (W : Valuation τ sig (Elt F)) :
    StableHlo.after hostOps3 W main_v83 = aggregate64 (W main_v67) (W main_v3) (W main_v6) (W main_v31) (W main_arg8) := by
  -- the same aggregation, of the other head's transformed features with the other head's bias
  after_results_simp
  rfl

end Cert.KernelIdeal.Hand

end
-- ==== Proof.GcnRef.lean ====
/-
  The reference's stages are the shared host functions applied to its own products: unfolding the reference's
  operations one by one, the hidden layer is `hidden` of x times W1, the mean head `aggregate64` of the hidden
  layer times W2, the log-variance head `aggregate64` of the hidden layer times W3, and the decoded array `decode` of
  the mean head.
-/
import proofs.«105611_j55456617726630_1_alg».proof.Proof.Gen.ReferenceIdeal.Read
import proofs.«105611_j55456617726630_1_alg».proof.Proof.GcnStages

noncomputable section

namespace Cert.Gcn

open Cert.ReferenceIdeal Cert.ReferenceIdeal.Gen Cert.ReferenceIdeal.Read Idealize.ShloMosaic

variable {F : FTy → Type} [FloatOps F]

theorem ref_hidden (x0 : (⟨S10000x256, .f32⟩ : BufTy).Contents (Elt F)) (x1 : (⟨S2x320000, .i32⟩ : BufTy).Contents (Elt F)) (x2 : (⟨S320000, .f32⟩ : BufTy).Contents (Elt F)) (x3 : (⟨S256x128, .f32⟩ : BufTy).Contents (Elt F)) (x4 : (⟨S128, .f32⟩ : BufTy).Contents (Elt F)) :
    val_main_v49 (F := F) x0 x1 x2 x3 x4
      = hidden (Host.dotGeneral dot_S10000x256_S256x128_S10000x128_1_0_0_1_n_n none x0 x3) (val_main_v3 x1) (val_main_v6 x1) (val_main_v31 x1 x2) x4 := by
  -- the reference's hidden layer, one operation at a time, down to its product and its edge data
  unfold val_main_v49 val_main_v48 val_main_v47 val_main_v46 val_main_v45 val_main_v44 val_main_v43 val_main_cst_8
    val_main_v42 val_main_v41 val_main_v40 val_main_v39 val_main_v38 val_main_v37 val_main_v36 val_main_c_7
    val_main_v35 val_main_v34 val_main_c_6 val_main_v33 val_main_v32 val_main_call1_v0 val_main_call1_cst
  unfold hidden aggregate128 wrapped
  rfl

theorem ref_mu (x0 : (⟨S10000x256, .f32⟩ : BufTy).Contents (Elt F)) (x1 : (⟨S2x320000, .i32⟩ : BufTy).Contents (Elt F)) (x2 : (⟨S320000, .f32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) :
    val_main_v66 (F := F) x0 x1 x2 x3 x4 x5 x6
      = aggregate64 (Host.dotGeneral dot_S10000x128_S128x64_S10000x64_1_0_0_1_n_n none (val_main_v49 x0 x1 x2 x3 x4) x5) (val_main_v3 x1) (val_main_v6 x1) (val_main_v31 x1 x2) x6 := by
  -- the mean head, one operation at a time, down to its product and its edge data
  unfold val_main_v66 val_main_v65 val_main_v64 val_main_v63 val_main_v62 val_main_v61 val_main_cst_11
    val_main_v60 val_main_v59 val_main_v58 val_main_v57 val_main_v56 val_main_v55 val_main_v54 val_main_c_10
    val_main_v53 val_main_v52 val_main_c_9 val_main_v51 val_main_v50
  unfold aggregate64 wrapped
  rfl

theorem ref_logvar (x0 : (⟨S10000x256, .f32⟩ : BufTy).Contents (Elt F)) (x1 : (⟨S2x320000, .i32⟩ : BufTy).Contents (Elt F)) (x2 : (⟨S320000, .f32⟩ : BufTy).Contents (Elt F)) (x3 : (⟨S256x128, .f32⟩ : BufTy).Contents (Elt F)) (x4 : (⟨S128, .f32⟩ : BufTy).Contents (Elt F)) (x7 : (⟨S128x64, .f32⟩ : BufTy).Contents (Elt F)) (x8 : (⟨S64, .f32⟩ : BufTy).Contents (Elt F)) :
    val_main_v83 (F := F) x0 x1 x2 x3 x4 x7 x8
      = aggregate64 (Host.dotGeneral dot_S10000x128_S128x64_S10000x64_1_0_0_1_n_n none (val_main_v49 x0 x1 x2 x3 x4) x7) (val_main_v3 x1) (val_main_v6 x1) (val_main_v31 x1 x2) x8 := by
  -- the log-variance head, one operation at a time, down to its product and its edge data
  unfold val_main_v83 val_main_v82 val_main_v81 val_main_v80 val_main_v79 val_main_v78 val_main_cst_14
    val_main_v77 val_main_v76 val_main_v75 val_main_v74 val_main_v73 val_main_v72 val_main_v71 val_main_c_13
    val_main_v70 val_main_v69 val_main_c_12 val_main_v68 val_main_v67
  unfold aggregate64 wrapped
  rfl

theorem ref_adj (x0 : (⟨S10000x256, .f32⟩ : BufTy).Contents (Elt F)) (x1 : (⟨S2x320000, .i32⟩ : BufTy).Contents (Elt F)) (x2 : (⟨S320000, .f32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) :
    val_main_v85 (F := F) x0 x1 x2 x3 x4 x5 x6 = decode (val_main_v66 x0 x1 x2 x3 x4 x5 x6) := by
  -- the decoded array is the mean head times its own transpose
  unfold val_main_v85 val_main_v84
  unfold decode
  rfl

end Cert.Gcn

end
-- ==== Proof.KIValue.lean ====
/-
  What the program's three results hold at the end, on the extended reals, as the reference's stages of the launch
  arguments.  Read in order: the first three stretches leave the edge data (both index vectors and the normalisation),
  which no later item writes; region 0 leaves x · W1; the next stretches make the hidden layer of it; region 1 leaves
  the hidden layer times W2 and the stretch after it the mean head; region 2 leaves the hidden layer times W3 and the
  stretch after it the log-variance head; region 3 leaves the mean head's rows' inner products.  Each host stretch is
  the shared host function of what it reads, each region's array the host's product of its operands, and the
  reference's stages are the same functions of the same products.
-/
import proofs.«105611_j55456617726630_1_alg».proof.Proof.KIRun
import proofs.«105611_j55456617726630_1_alg».proof.Proof.KIVal0
import proofs.«105611_j55456617726630_1_alg».proof.Proof.KIVal1
import proofs.«105611_j55456617726630_1_alg».proof.Proof.KIVal2
import proofs.«105611_j55456617726630_1_alg».proof.Proof.KIVal3
import proofs.«105611_j55456617726630_1_alg».proof.Proof.KIHost
import proofs.«105611_j55456617726630_1_alg».proof.Proof.GcnRef

set_option maxRecDepth 16384

noncomputable section

namespace Cert.KernelIdeal.Hand

open Cert.KernelIdeal Cert.KernelIdeal.Gen Cert.Gcn
open Idealize.ShloMosaic Idealize.ShloMosaic.TcCoe Idealize.SL.Sem

variable (m : (ℓ : Loc nD τ sig) → Buf (Elt Ideal) ℓ) (c : Dev nD)

/-! ## What each item leaves alone -/

theorem into0_kept (r : Ref sig .tc) (h0 : r ∉ hostOps0_W) (h1 : r ∉ hostOps0_1_W) (h2 : r ∉ hostOps0_2_W) :
    into0 m c r = m ((c : Thread nD τ).loc r) :=
  (Gen.V3_of m c r h2).trans ((Gen.V2_of m c r h1).trans ((Gen.V1_of m c r h0).trans rfl))
theorem into1_kept (r : Ref sig .tc) (hne : r ≠ main_v32) (h : r ∉ hostOps1_W) (h' : r ∉ hostOps1_1_W) : into1 m c r = into0 m c r :=
  ((StableHlo.after_of_writes_sub hostOps1_1 _ hostOps1_1_writes h').trans (StableHlo.after_of_writes_sub hostOps1 _ hostOps1_writes h)).trans
    (from0_of_ne m c r hne)
theorem into2_kept (r : Ref sig .tc) (hne : r ≠ main_v50) (h : r ∉ hostOps2_W) : into2 m c r = into1 m c r :=
  (StableHlo.after_of_writes_sub hostOps2 _ hostOps2_writes h).trans (from1_of_ne m c r hne)
theorem into3_kept (r : Ref sig .tc) (hne : r ≠ main_v67) (h : r ∉ hostOps3_W) : into3 m c r = into2 m c r :=
  (StableHlo.after_of_writes_sub hostOps3 _ hostOps3_writes h).trans (from2_of_ne m c r hne)

/-! ## The edge data, at every later boundary -/

theorem row0 : into0 m c main_v3 = Cert.ReferenceIdeal.Read.val_main_v3 (m ((c : Thread nD τ).loc main_arg1)) := host_row (Gen.V0 m c)
theorem col0 : into0 m c main_v6 = Cert.ReferenceIdeal.Read.val_main_v6 (m ((c : Thread nD τ).loc main_arg1)) := host_col (Gen.V0 m c)
theorem norm0 : into0 m c main_v31 = Cert.ReferenceIdeal.Read.val_main_v31 (m ((c : Thread nD τ).loc main_arg1)) (m ((c : Thread nD τ).loc main_arg2)) := host_norm (Gen.V0 m c)

/-! ## Region 0 and the hidden layer -/

theorem out0_is : out0 m c = Host.dotGeneral (F := Ideal) (φ₁ := .f32) (φ₂ := .f32) Cert.ReferenceIdeal.dot_S10000x256_S256x128_S10000x128_1_0_0_1_n_n none (m ((c : Thread nD τ).loc main_arg0)) (m ((c : Thread nD τ).loc main_arg3)) := by
  have h := prodArray0 (atRefs (into0 m)) c
  have e0 : atRefs (into0 m) c main_arg0 = m ((c : Thread nD τ).loc main_arg0) := into0_kept m c main_arg0 (by decide) (by decide) (by decide)
  have e3 : atRefs (into0 m) c main_arg3 = m ((c : Thread nD τ).loc main_arg3) := into0_kept m c main_arg3 (by decide) (by decide) (by decide)
  rw [e0, e3] at h
  exact h

theorem hidden_is : into1 m c main_v49 = Cert.ReferenceIdeal.Read.val_main_v49 (m ((c : Thread nD τ).loc main_arg0)) (m ((c : Thread nD τ).loc main_arg1)) (m ((c : Thread nD τ).loc main_arg2)) (m ((c : Thread nD τ).loc main_arg3)) (m ((c : Thread nD τ).loc main_arg4)) := by
  have h := host_hidden (from0 m c)
  have e32 : from0 m c main_v32 = _ := (from0_self m c).trans (out0_is m c)
  have e3 : from0 m c main_v3 = _ := (from0_of_ne m c main_v3 (by decide)).trans (row0 m c)
  have e6 : from0 m c main_v6 = _ := (from0_of_ne m c main_v6 (by decide)).trans (col0 m c)
  have e31 : from0 m c main_v31 = _ := (from0_of_ne m c main_v31 (by decide)).trans (norm0 m c)
  have e4 : from0 m c main_arg4 = m ((c : Thread nD τ).loc main_arg4) := (from0_of_ne m c main_arg4 (by decide)).trans (into0_kept m c main_arg4 (by decide) (by decide) (by decide))
  rw [e32, e3, e6, e31, e4] at h
  exact h.trans (ref_hidden _ _ _ _ _).symm

/-! ## Region 1 and the mean head -/

theorem out1_is : out1 m c = Host.dotGeneral (F := Ideal) (φ₁ := .f32) (φ₂ := .f32) Cert.ReferenceIdeal.dot_S10000x128_S128x64_S10000x64_1_0_0_1_n_n none
    (Cert.ReferenceIdeal.Read.val_main_v49 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  have h := prodArray1 (atRefs (into1 m)) c
  have e49 : atRefs (into1 m) c main_v49 = _ := hidden_is m c
  have e5 : atRefs (into1 m) c main_arg5 = m ((c : Thread nD τ).loc main_arg5) :=
    (into1_kept m c main_arg5 (by decide) (by decide) (by decide)).trans (into0_kept m c main_arg5 (by decide) (by decide) (by decide))
  rw [e49, e5] at h
  exact h

theorem row1 : into1 m c main_v3 = Cert.ReferenceIdeal.Read.val_main_v3 (m ((c : Thread nD τ).loc main_arg1)) := (into1_kept m c main_v3 (by decide) (by decide) (by decide)).trans (row0 m c)
theorem col1 : into1 m c main_v6 = Cert.ReferenceIdeal.Read.val_main_v6 (m ((c : Thread nD τ).loc main_arg1)) := (into1_kept m c main_v6 (by decide) (by decide) (by decide)).trans (col0 m c)
theorem norm1 : into1 m c main_v31 = Cert.ReferenceIdeal.Read.val_main_v31 (m ((c : Thread nD τ).loc main_arg1)) (m ((c : Thread nD τ).loc main_arg2)) := (into1_kept m c main_v31 (by decide) (by decide) (by decide)).trans (norm0 m c)

theorem mu_is : into2 m c main_v66 = Cert.ReferenceIdeal.Read.val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := host_mu (from1 m c)
  have e50 : from1 m c main_v50 = _ := (from1_self m c).trans (out1_is m c)
  have e3 : from1 m c main_v3 = _ := (from1_of_ne m c main_v3 (by decide)).trans (row1 m c)
  have e6 : from1 m c main_v6 = _ := (from1_of_ne m c main_v6 (by decide)).trans (col1 m c)
  have e31 : from1 m c main_v31 = _ := (from1_of_ne m c main_v31 (by decide)).trans (norm1 m c)
  have e : from1 m c main_arg6 = m ((c : Thread nD τ).loc main_arg6) := (from1_of_ne m c main_arg6 (by decide)).trans
    ((into1_kept m c main_arg6 (by decide) (by decide) (by decide)).trans (into0_kept m c main_arg6 (by decide) (by decide) (by decide)))
  rw [e50, e3, e6, e31, e] at h
  exact h.trans (ref_mu _ _ _ _ _ _ _).symm

/-! ## Region 2 and the log-variance head -/

theorem hidden2 : into2 m c main_v49 = Cert.ReferenceIdeal.Read.val_main_v49 (m ((c : Thread nD τ).loc main_arg0)) (m ((c : Thread nD τ).loc main_arg1)) (m ((c : Thread nD τ).loc main_arg2)) (m ((c : Thread nD τ).loc main_arg3)) (m ((c : Thread nD τ).loc main_arg4)) := (into2_kept m c main_v49 (by decide) (by decide)).trans (hidden_is m c)
theorem row2 : into2 m c main_v3 = Cert.ReferenceIdeal.Read.val_main_v3 (m ((c : Thread nD τ).loc main_arg1)) := (into2_kept m c main_v3 (by decide) (by decide)).trans (row1 m c)
theorem col2 : into2 m c main_v6 = Cert.ReferenceIdeal.Read.val_main_v6 (m ((c : Thread nD τ).loc main_arg1)) := (into2_kept m c main_v6 (by decide) (by decide)).trans (col1 m c)
theorem norm2 : into2 m c main_v31 = Cert.ReferenceIdeal.Read.val_main_v31 (m ((c : Thread nD τ).loc main_arg1)) (m ((c : Thread nD τ).loc main_arg2)) := (into2_kept m c main_v31 (by decide) (by decide)).trans (norm1 m c)

theorem out2_is : out2 m c = Host.dotGeneral (F := Ideal) (φ₁ := .f32) (φ₂ := .f32) Cert.ReferenceIdeal.dot_S10000x128_S128x64_S10000x64_1_0_0_1_n_n none
    (Cert.ReferenceIdeal.Read.val_main_v49 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg7)) := by
  have h := prodArray2 (atRefs (into2 m)) c
  have e49 : atRefs (into2 m) c main_v49 = _ := hidden2 m c
  have e7 : atRefs (into2 m) c main_arg7 = m ((c : Thread nD τ).loc main_arg7) :=
    (into2_kept m c main_arg7 (by decide) (by decide)).trans ((into1_kept m c main_arg7 (by decide) (by decide) (by decide)).trans (into0_kept m c main_arg7 (by decide) (by decide) (by decide)))
  rw [e49, e7] at h
  exact h

theorem logvar_is : into3 m c main_v83 = Cert.ReferenceIdeal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  have h := host_logvar (from2 m c)
  have e67 : from2 m c main_v67 = _ := (from2_self m c).trans (out2_is m c)
  have e3 : from2 m c main_v3 = _ := (from2_of_ne m c main_v3 (by decide)).trans (row2 m c)
  have e6 : from2 m c main_v6 = _ := (from2_of_ne m c main_v6 (by decide)).trans (col2 m c)
  have e31 : from2 m c main_v31 = _ := (from2_of_ne m c main_v31 (by decide)).trans (norm2 m c)
  have e : from2 m c main_arg8 = m ((c : Thread nD τ).loc main_arg8) := (from2_of_ne m c main_arg8 (by decide)).trans
    ((into2_kept m c main_arg8 (by decide) (by decide)).trans ((into1_kept m c main_arg8 (by decide) (by decide) (by decide)).trans (into0_kept m c main_arg8 (by decide) (by decide) (by decide))))
  rw [e67, e3, e6, e31, e] at h
  exact h.trans (ref_logvar _ _ _ _ _ _ _).symm

/-! ## Region 3 and the three results -/

theorem mu3 : into3 m c main_v66 = Cert.ReferenceIdeal.Read.val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (into3_kept m c main_v66 (by decide) (by decide)).trans (mu_is m c)

theorem out3_is : out3 m c = Cert.ReferenceIdeal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := prodArray3 (atRefs (into3 m)) c
  have e66 : atRefs (into3 m) c main_v66 = _ := mu3 m c
  rw [e66] at h
  exact h.trans (ref_adj _ _ _ _ _ _ _).symm

/-- The decoded array at the end. -/
theorem adj_end : from3 m c main_v84 = Cert.ReferenceIdeal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (from3_self m c).trans (out3_is m c)
/-- The mean head at the end. -/
theorem mu_end : from3 m c main_v66 = Cert.ReferenceIdeal.Read.val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (from3_of_ne m c main_v66 (by decide)).trans (mu3 m c)
/-- The log-variance head at the end. -/
theorem logvar_end : from3 m c main_v83 = Cert.ReferenceIdeal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (from3_of_ne m c main_v83 (by decide)).trans (logvar_is m c)

/-- The run with the three results named: every weakly fair execution terminates without a fault, the decoded array,
    the mean head and the log-variance head end at the reference's stages of the launch arguments, and the arguments
    end as launched. -/
theorem run_values (ρ : Dev nD → PrngReg) :
    θ_run defs (onTc (τ := τ) (main (F := Ideal))) ⟨m, fun _ => 0, ρ⟩ (fun r => ∀ c : Dev nD,
      r.2.mem ((c.tc : Thread nD τ).loc main_v84) = Cert.ReferenceIdeal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v66) = Cert.ReferenceIdeal.Read.val_main_v66 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v83) = Cert.ReferenceIdeal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_unscoped main_v84 (by decide))).trans (adj_end m c),
     (h c _ (mem_unscoped main_v66 (by decide))).trans (mu_end m c),
     (h c _ (mem_unscoped main_v83 (by decide))).trans (logvar_end m c),
     (h c _ (mem_unscoped main_arg0 (by decide))).trans (from3_arg m c main_arg0 (Gen.V11_main_arg0 m (left m) c)),
     (h c _ (mem_unscoped main_arg1 (by decide))).trans (from3_arg m c main_arg1 (Gen.V11_main_arg1 m (left m) c)),
     (h c _ (mem_unscoped main_arg2 (by decide))).trans (from3_arg m c main_arg2 (Gen.V11_main_arg2 m (left m) c)),
     (h c _ (mem_unscoped main_arg3 (by decide))).trans (from3_arg m c main_arg3 (Gen.V11_main_arg3 m (left m) c)),
     (h c _ (mem_unscoped main_arg4 (by decide))).trans (from3_arg m c main_arg4 (Gen.V11_main_arg4 m (left m) c)),
     (h c _ (mem_unscoped main_arg5 (by decide))).trans (from3_arg m c main_arg5 (Gen.V11_main_arg5 m (left m) c)),
     (h c _ (mem_unscoped main_arg6 (by decide))).trans (from3_arg m c main_arg6 (Gen.V11_main_arg6 m (left m) c)),
     (h c _ (mem_unscoped main_arg7 (by decide))).trans (from3_arg m c main_arg7 (Gen.V11_main_arg7 m (left m) c)),
     (h c _ (mem_unscoped main_arg8 (by decide))).trans (from3_arg m c main_arg8 (Gen.V11_main_arg8 m (left m) c))⟩)
    (run_all m ρ)

end Cert.KernelIdeal.Hand

end
-- ==== Proof.lean ====
/-
  A two-layer graph-convolution encoder with an inner-product decoder, three results: the decoded node-by-node array,
  the mean head and the log-variance head.  The kernel's program and the reference share every host operation — the
  self loops, the degree normalisation, each layer's gather, scale, scatter-add and bias — and differ only in the four
  matrix products: the reference takes each whole, the kernel's program takes each by row blocks in a pipelined
  region (2000 rows at a time for the three feature transforms, 200 rows at a time for the decoder, whose two operand
  windows are one array), each block into a zero accumulator.  On the extended reals a product into a zero
  accumulator is the plain sum over the contracted coordinate, the row blocks tile the array, and so each region
  leaves exactly the host's product of its operand arrays; the host operations around the regions are the same
  functions on both sides, so the three results agree entry by entry.  No finiteness of the inputs is needed: the only
  law used is that a sum does not depend on how its terms are grouped.
  Each program also runs to the end without a fault and leaves its argument arrays as launched: the reference by its
  generated run; the kernel's program, at the word level and on the extended reals alike, region after region from the
  contents the previous item left, the decoder's shared operand array dealt to its two windows as half shares and
  joined back at the region's exit.  The idealisation rewrote nothing, so there is nothing to preserve.
-/
import proofs.«105611_j55456617726630_1_alg».proof.Defs
import proofs.«105611_j55456617726630_1_alg».proof.Proof.Gen.Kernel
import proofs.«105611_j55456617726630_1_alg».proof.Proof.Gen.KernelIdeal
import proofs.«105611_j55456617726630_1_alg».proof.Proof.Gen.ReferenceIdeal
import proofs.«105611_j55456617726630_1_alg».proof.Proof.Gen.Pre_finite_inputs
import proofs.«105611_j55456617726630_1_alg».proof.Proof.Gen.ReferenceIdeal.Run
import proofs.«105611_j55456617726630_1_alg».proof.Proof.Gen.ReferenceIdeal.Read
import proofs.«105611_j55456617726630_1_alg».proof.Proof.KRun
import proofs.«105611_j55456617726630_1_alg».proof.Proof.KIValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The two idealised programs end with equal results: the kernel's program's three results are the reference's
    stages of the launch arguments, and so are the reference's own, the arguments agreeing. -/
theorem algebraic : Cert.algebraic_KernelIdeal_ReferenceIdeal := by
  intro m ρ m' ρ' _ hagree
  refine ⟨fun c => Cert.ReferenceIdeal.Read.val_main_v85 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v66 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v83 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v85_eq, (hagree c).1, (hagree c).2.1, (hagree c).2.2.1, (hagree c).2.2.2.1, (hagree c).2.2.2.2.1,
      (hagree c).2.2.2.2.2.1, (hagree c).2.2.2.2.2.2.1]
  · rw [Cert.ReferenceIdeal.Read.val_main_v66_eq, (hagree c).1, (hagree c).2.1, (hagree c).2.2.1, (hagree c).2.2.2.1, (hagree c).2.2.2.2.1,
      (hagree c).2.2.2.2.2.1, (hagree c).2.2.2.2.2.2.1]
  · rw [Cert.ReferenceIdeal.Read.val_main_v83_eq, (hagree c).1, (hagree c).2.1, (hagree c).2.2.1, (hagree c).2.2.2.1, (hagree c).2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
